-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x128 : Shape := ⟨3, ![64, 1024, 128]⟩
abbrev S64x128x128 : Shape := ⟨3, ![64, 128, 128]⟩
abbrev S128x1 : Shape := ⟨2, ![128, 1]⟩
abbrev S1x1x128 : Shape := ⟨3, ![1, 1, 128]⟩
abbrev S64x1 : Shape := ⟨2, ![64, 1]⟩
abbrev S_ : Shape := ⟨0, ![]⟩

class Facts : Prop where
  bcast_S_S64x1024x128 : S_.BroadcastsInDim S64x1024x128 (![] : Fin 0 → Fin S64x1024x128.rank)
  reducesTo_S64x1024x128_S_d0_1_2 : S64x1024x128.ReducesTo [0, 1, 2] S_
  h_S_ : 0 < S_.numel
  bcast_S_S64x128x128 : S_.BroadcastsInDim S64x128x128 (![] : Fin 0 → Fin S64x128x128.rank)
  reducesTo_S64x128x128_S_d0_1_2 : S64x128x128.ReducesTo [0, 1, 2] S_
  bcast_S_S128x1 : S_.BroadcastsInDim S128x1 (![] : Fin 0 → Fin S128x1.rank)
  reducesTo_S128x1_S_d0_1 : S128x1.ReducesTo [0, 1] S_
  bcast_S_S1x1x128 : S_.BroadcastsInDim S1x1x128 (![] : Fin 0 → Fin S1x1x128.rank)
  reducesTo_S1x1x128_S_d0_1_2 : S1x1x128.ReducesTo [0, 1, 2] S_

variable [Facts]

def fn_part1 {F : FTy → Type} [FloatOps F] (main_arg4 : FVec F S1x1x128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1x1x128 .f32 := Host.absf main_arg4
  let main_cst_6 : FVec F S_ .f32 := constant S_ .f32 0x7F800000#32
  let main_v20 : FVec F S1x1x128 .f32 := broadcastInDim S1x1x128 ![] bcast_S_S1x1x128 main_cst_6
  let main_v21 : IVec S1x1x128 1 := cmpf .olt main_v19 main_v20
  let main_c_7 : IVec S_ 1 := constantI S_ 1 1#1
  let main_v22 : IVec S_ 1 := (fun x v => Host.reduce IntOp.andi x v reducesTo_S1x1x128_S_d0_1_2 h_S_) main_v21 main_c_7
  let main_v23 : IVec S_ 1 := andi main_v18 main_v22
  main_v23

def fn {F : FTy → Type} [FloatOps F] (main_arg0 : FVec F S64x1024x128 .f32) (main_arg1 : FVec F S64x128x128 .f32) (main_arg2 : FVec F S128x1 .f32) (main_arg3 : FVec F S128x1 .f32) (main_arg4 : FVec F S1x1x128 .f32) (main_arg5 : IVec S64x1 32) (main_arg6 : IVec S64x1 32) : IVec S_ 1 :=
  let main_v0 : FVec F S64x1024x128 .f32 := Host.absf main_arg0
  let main_cst : FVec F S_ .f32 := constant S_ .f32 0x7F800000#32
  let main_v1 : FVec F S64x1024x128 .f32 := broadcastInDim S64x1024x128 ![] bcast_S_S64x1024x128 main_cst
  let main_v2 : IVec S64x1024x128 1 := cmpf .olt main_v0 main_v1
  let main_c : IVec S_ 1 := constantI S_ 1 1#1
  let main_v3 : IVec S_ 1 := (fun x v => Host.reduce IntOp.andi x v reducesTo_S64x1024x128_S_d0_1_2 h_S_) main_v2 main_c
  let main_v4 : FVec F S64x128x128 .f32 := Host.absf main_arg1
  let main_cst_0 : FVec F S_ .f32 := constant S_ .f32 0x7F800000#32
  let main_v5 : FVec F S64x128x128 .f32 := broadcastInDim S64x128x128 ![] bcast_S_S64x128x128 main_cst_0
  let main_v6 : IVec S64x128x128 1 := cmpf .olt main_v4 main_v5
  let main_c_1 : IVec S_ 1 := constantI S_ 1 1#1
  let main_v7 : IVec S_ 1 := (fun x v => Host.reduce IntOp.andi x v reducesTo_S64x128x128_S_d0_1_2 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_v13 main_v16
-- ==== Kernel.lean ====
abbrev S64x1024x128 : Shape := ⟨3, ![64, 1024, 128]⟩
abbrev S64x128x128 : Shape := ⟨3, ![64, 128, 128]⟩
abbrev S128x1 : Shape := ⟨2, ![128, 1]⟩
abbrev S1x1x128 : Shape := ⟨3, ![1, 1, 128]⟩
abbrev S64x1 : Shape := ⟨2, ![64, 1]⟩
abbrev S64 : Shape := ⟨1, ![64]⟩
abbrev S64x1024x512 : Shape := ⟨3, ![64, 1024, 512]⟩
abbrev S64x128x1024 : Shape := ⟨3, ![64, 128, 1024]⟩
abbrev S4x1024x128 : Shape := ⟨3, ![4, 1024, 128]⟩
abbrev S4x128x128 : Shape := ⟨3, ![4, 128, 128]⟩
abbrev S4x1024x512 : Shape := ⟨3, ![4, 1024, 512]⟩
abbrev S4x128x1024 : Shape := ⟨3, ![4, 128, 1024]⟩
abbrev S1x128 : Shape := ⟨2, ![1, 128]⟩
abbrev S1x1024x128 : Shape := ⟨3, ![1, 1024, 128]⟩
abbrev S1024x128 : Shape := ⟨2, ![1024, 128]⟩
abbrev S1x128x128 : Shape := ⟨3, ![1, 128, 128]⟩
abbrev S128x128 : Shape := ⟨2, ![128, 128]⟩
abbrev S1024x1 : Shape := ⟨2, ![1024, 1]⟩
abbrev S1x1024 : Shape := ⟨2, ![1, 1024]⟩
abbrev S128x1024 : Shape := ⟨2, ![128, 1024]⟩
abbrev S1 : Shape := ⟨1, ![1]⟩
abbrev S1024 : Shape := ⟨1, ![1024]⟩
abbrev S128 : Shape := ⟨1, ![128]⟩
abbrev S1x128x1024 : Shape := ⟨3, ![1, 128, 1024]⟩

abbrev nBuf : Space → Nat
  | .hbm => 10
  | .vmem => 13
  | .smem => 2
  | _ => 0

abbrev bufTy : (tb : Table) → Fin (tcTables nBuf tb) → BufTy
  | .hbm, ⟨0, _⟩ => ⟨S64x1024x128, .f32⟩
  | .hbm, ⟨1, _⟩ => ⟨S64x128x128, .f32⟩
  | .hbm, ⟨2, _⟩ => ⟨S128x1, .f32⟩
  | .hbm, ⟨3, _⟩ => ⟨S128x1, .f32⟩
  | .hbm, ⟨4, _⟩ => ⟨S1x1x128, .f32⟩
  | .hbm, ⟨5, _⟩ => ⟨S64x1, .i32⟩
  | .hbm, ⟨6, _⟩ => ⟨S64x1, .i32⟩
  | .hbm, ⟨7, _⟩ => ⟨S64x1024x512, .f32⟩
  | .hbm, ⟨8, _⟩ => ⟨S64x1024x128, .f32⟩
  | .hbm, ⟨9, _⟩ => ⟨S64x128x1024, .f32⟩
  | .local _ .vmem, ⟨0, _⟩ => ⟨S4x1024x128, .f32⟩
  | .local _ .vmem, ⟨1, _⟩ => ⟨S4x1024x128, .f32⟩
  | .local _ .vmem, ⟨2, _⟩ => ⟨S4x128x128, .f32⟩
  | .local _ .vmem, ⟨3, _⟩ => ⟨S4x128x128, .f32⟩
  | .local _ .vmem, ⟨4, _⟩ => ⟨S128x1, .f32⟩
  | .local _ .vmem, ⟨5, _⟩ => ⟨S128x1, .f32⟩
  | .local _ .vmem, ⟨6, _⟩ => ⟨S1x1x128, .f32⟩
  | .local _ .vmem, ⟨7, _⟩ => ⟨S4x1024x512, .f32⟩
  | .local _ .vmem, ⟨8, _⟩ => ⟨S4x1024x512, .f32⟩
  | .local _ .vmem, ⟨9, _⟩ => ⟨S4x1024x128, .f32⟩
  | .local _ .vmem, ⟨10, _⟩ => ⟨S4x1024x128, .f32⟩
  | .local _ .vmem, ⟨11, _⟩ => ⟨S4x128x1024, .f32⟩
  | .local _ .vmem, ⟨12, _⟩ => ⟨S4x128x1024, .f32⟩
  | .local _ .smem, ⟨0, _⟩ => ⟨S64, .i32⟩
  | .local _ .smem, ⟨1, _⟩ => ⟨S64, .i32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v9 : Index := Scalar.indexCast arg11
  let c0_8 : Index := 0#32
  let c0_9 : Index := 0#32
  ![v9.toNat, 0, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v12 : Index := Scalar.indexCast arg11
  let c0_10 : Index := 0#32
  let c0_11 : Index := 0#32
  ![v12.toNat, 0, 0]
def k0_off3 (i : grid0.Coords) (k0_t1 : Fin k0_t1_loop.trips) : Fin 1 → Nat :=
  let arg0 : BitVec 32 := BitVec.ofNat 32 (i 0).val
  let c4_i32_7 : BitVec 32 := 4#32
  let v7 : BitVec 32 := Scalar.muli arg0 c4_i32_7
  let c0_i32 : BitVec 32 := 0#32
  let c1_i32 : BitVec 32 := 1#32
  let arg11 : BitVec 32 := Scf.iv c0_i32 c1_i32 k0_t1
  let v8 : BitVec 32 := Scalar.addi v7 arg11
  let v34 : Index := Scalar.indexCast v8
  ![v34.toNat]
def k0_off4 (k0_t1 : Fin k0_t1_loop.trips) : Fin 3 → Nat :=
  let c0_i32 : BitVec 32 := 0#32
  let c1_i32 : BitVec 32 := 1#32
  let arg11 : BitVec 32 := Scf.iv c0_i32 c1_i32 k0_t1
  let v86 : Index := Scalar.indexCast arg11
  let c0_29 : Index := 0#32
  let c0_30 : Index := 0#32
  ![v86.toNat, 0, 0]
def k0_off5 (k0_t1 : Fin k0_t1_loop.trips) : Fin 3 → Nat :=
  let c0_i32 : BitVec 32 := 0#32
  let c1_i32 : BitVec 32 := 1#32
  let arg11 : BitVec 32 := Scf.iv c0_i32 c1_i32 k0_t1
  let v96 : Index := Scalar.indexCast arg11
  let c0_34 : Index := 0#32
  let c0_35 : Index := 0#32
  ![v96.toNat, 0, 0]
def k0_off6 (k0_t1 : Fin k0_t1_loop.trips) : Fin 3 → Nat :=
  let c0_i32 : BitVec 32 := 0#32
  let c1_i32 : BitVec 32 := 1#32
  let arg11 : BitVec 32 := Scf.iv c0_i32 c1_i32 k0_t1
  let v100 : Index := Scalar.indexCast arg11
  let c0_36 : Index := 0#32
  let c128 : Index := 128#32
  ![v100.toNat, 0, 128]
def k0_off7 (k0_t1 : Fin k0_t1_loop.trips) : Fin 3 → Nat :=
  let c0_i32 : BitVec 32 := 0#32
  let c1_i32 : BitVec 32 := 1#32
  let arg11 : BitVec 32 := Scf.iv c0_i32 c1_i32 k0_t1
  let v105 : Index := Scalar.indexCast arg11
  let c0_37 : Index := 0#32
  let c256 : Index := 256#32
  ![v105.toNat, 0, 256]
def k0_off8 (k0_t1 : Fin k0_t1_loop.trips) : Fin 3 → Nat :=
  let c0_i32 : BitVec 32 := 0#32
  let c1_i32 : BitVec 32 := 1#32
  let arg11 : BitVec 32 := Scf.iv c0_i32 c1_i32 k0_t1
  let v110 : Index := Scalar.indexCast arg11
  let c0_38 : Index := 0#32
  let c384 : Index := 384#32
  ![v110.toNat, 0, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x1_S64 : S64x1.ShapeCasts S64
  inb_S128x1_S128x1_0_0 : ∀ a, (![0, 0] : Fin 2 → Nat) a + S128x1.size a ≤ S128x1.size a
  h_S128x1 : 0 < S128x1.numel
  bitsLt_bf16_f32 : FTy.bits .bf16 < FTy.bits .f32
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  h_S1x1024x128 : 0 < S1x1024x128.numel
  shapeCasts_S1x1024x128_S1024x128 : S1x1024x128.ShapeCasts S1024x128
  h_S1x128x128 : 0 < S1x128x128.numel
  shapeCasts_S1x128x128_S128x128 : S1x128x128.ShapeCasts S128x128
  broadcasts_S1x128_S1024x128 : S1x128.Broadcasts S1024x128
  broadcasts_S1024x1_S1024x128 : S1024x1.Broadcasts S1024x128
  broadcasts_S128x1_S128x1024 : S128x1.Broadcasts S128x1024
  broadcasts_S1x1024_S128x1024 : S1x1024.Broadcasts S128x1024
  numel1_S1 : S1.numel = 1
  iota_S1x128_d1_w32 : S1x128.Iotas .tc 32 [1]
  natLt_1_32 : 1 < 32
  iota_S1x1024_d1_w32 : S1x1024.Iotas .tc 32 [1]
  reduces_S1024x128_S1024 : S1024x128.Reduces [1] S1024
  shapeCasts_S1024_S1024x1 : S1024.ShapeCasts S1024x1
  reduces_S128x1024_S128 : S128x1024.Reduces [1] S128
  shapeCasts_S128_S128x1 : S128.ShapeCasts S128x1
  shapeCasts_S1024x128_S1x1024x128 : S1024x128.ShapeCasts S1x1024x128
  h_S1x128x1024 : 0 < S1x128x1024.numel
  shapeCasts_S1x128x1024_S128x1024 : S1x128x1024.ShapeCasts S128x1024
  shapeCasts_S128x1024_S1x128x1024 : S128x1024.ShapeCasts S1x128x1024
  dot_S1024x128_S128x1_S1024x1_1_0_0_1_n_n_wf : DotDims.WF S1024x128 S128x1 S1024x1 [1] [0] [0] [1] [] []
  dot_S128x1_S1024x128_S1x1024_0_1_1_0_n_n_wf : DotDims.WF S128x1 S1024x128 S1x1024 [0] [1] [1] [0] [] []
  dot_S128x128_S128x1_S128x1_1_0_0_1_n_n_wf : DotDims.WF S128x128 S128x1 S128x1 [1] [0] [0] [1] [] []
  dot_S128x1_S128x128_S1x128_0_1_1_0_n_n_wf : DotDims.WF S128x1 S128x128 S1x128 [0] [1] [1] [0] [] []
  dot_S1024x128_S128x128_S1024x128_1_1_0_0_n_n_wf : DotDims.WF S1024x128 S128x128 S1024x128 [1] [1] [0] [0] [] []
  dot_S128x128_S1024x128_S128x1024_1_1_0_0_n_n_wf : DotDims.WF S128x128 S1024x128 S128x1024 [1] [1] [0] [0] [] []
  dot_S1024x128_S128x128_S1024x128_1_0_0_1_n_n_wf : DotDims.WF S1024x128 S128x128 S1024x128 [1] [0] [0] [1] [] []
  dot_S128x1024_S1024x128_S128x128_1_0_0_1_n_n_wf : DotDims.WF S128x1024 S1024x128 S128x128 [1] [0] [0] [1] [] []
  hrank0 : 0 < grid0.rank
  k0_t1_ok : k0_t1_loop.OK
  k0_off1_inb : ∀ k0_t1 : Fin k0_t1_loop.trips, ∀ a, (k0_off1 k0_t1) a + S1x1024x128.size a ≤ S4x1024x128.size a
  k0_off2_inb : ∀ k0_t1 : Fin k0_t1_loop.trips, ∀ a, (k0_off2 k0_t1) a + S1x128x128.size a ≤ S4x128x128.size a
  k0_off3_inb : ∀ (i : grid0.Coords) (k0_t1 : Fin k0_t1_loop.trips), ∀ a, (k0_off3 i k0_t1) a + S1.size a ≤ S64.size a
  k0_off4_inb : ∀ k0_t1 : Fin k0_t1_loop.trips, ∀ a, (k0_off4 k0_t1) a + S1x128x1024.size a ≤ S4x128x1024.size a
  k0_off5_inb : ∀ k0_t1 : Fin k0_t1_loop.trips, ∀ a, (k0_off5 k0_t1) a + S1x1024x128.size a ≤ S4x1024x512.size a
  k0_off6_inb : ∀ k0_t1 : Fin k0_t1_loop.trips, ∀ a, (k0_off6 k0_t1) a + S1x1024x128.size a ≤ S4x1024x512.size a
  k0_off7_inb : ∀ k0_t1 : Fin k0_t1_loop.trips, ∀ a, (k0_off7 k0_t1) a + S1x1024x128.size a ≤ S4x1024x512.size a
  k0_off8_inb : ∀ k0_t1 : Fin k0_t1_loop.trips, ∀ a, (k0_off8 k0_t1) a + S1x1024x128.size a ≤ S4x1024x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x128.size a ≤ S64x1024x128.size a
  hwx0_0 : ∀ i : grid0.Coords, EltTy.bits .f32 = 32 ∨ (Rect.block (s := S64x1024x128) S4x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x128.size a ≤ S64x128x128.size a
  hwx0_1 : ∀ i : grid0.Coords, EltTy.bits .f32 = 32 ∨ (Rect.block (s := S64x128x128) S4x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S1x1x128.size a
  hwx0_4 : ∀ i : grid0.Coords, EltTy.bits .f32 = 32 ∨ (Rect.block (s := S1x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1024x512.size a ≤ S64x1024x512.size a
  hwx0_5 : ∀ i : grid0.Coords, EltTy.bits .f32 = 32 ∨ (Rect.block (s := S64x1024x512) S4x1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1024x128.size a ≤ S64x1024x128.size a
  hwx0_6 : ∀ i : grid0.Coords, EltTy.bits .f32 = 32 ∨ (Rect.block (s := S64x1024x128) S4x1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x128x1024.size a ≤ S64x128x1024.size a
  hwx0_7 : ∀ i : grid0.Coords, EltTy.bits .f32 = 32 ∨ (Rect.block (s := S64x128x1024) S4x128x1024.size (cc0_transform_7 i) (hinb0_7 i)).WholeWords (EltTy.packing .f32)

variable [Facts₀]

def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S128x1_S1024x128_S1x1024_0_1_1_0_n_n : DotDims S128x1 S1024x128 S1x1024 where
  lhsContracting := [0]
  rhsContracting := [1]
  lhsNonContracting := [1]
  rhsNonContracting := [0]
  lhsBatch := []
  rhsBatch := []
  wf := dot_S128x1_S1024x128_S1x1024_0_1_1_0_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S128x1_S128x128_S1x128_0_1_1_0_n_n : DotDims S128x1 S128x128 S1x128 where
  lhsContracting := [0]
  rhsContracting := [1]
  lhsNonContracting := [1]
  rhsNonContracting := [0]
  lhsBatch := []
  rhsBatch := []
  wf := dot_S128x1_S128x128_S1x128_0_1_1_0_n_n_wf
def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf
def dot_S128x128_S1024x128_S128x1024_1_1_0_0_n_n : DotDims S128x128 S1024x128 S128x1024 where
  lhsContracting := [1]
  rhsContracting := [1]
  lhsNonContracting := [0]
  rhsNonContracting := [0]
  lhsBatch := []
  rhsBatch := []
  wf := dot_S128x128_S1024x128_S128x1024_1_1_0_0_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf

abbrev spec0_0 : Pipeline.WinSpec sig grid0.rank :=
  Pipeline.WinSpec.ofSpec (Memref.whole main_arg0) S4x1024x128.size reads0_0 false false 2 stage0_0 sem0_0 nbuf0_0 hstage0_0

abbrev spec0_1 : Pipeline.WinSpec sig grid0.rank :=
  Pipeline.WinSpec.ofSpec (Memref.whole main_arg1) S4x128x128.size reads0_1 false false 2 stage0_1 sem0_1 nbuf0_1 hstage0_1

abbrev spec0_2 : Pipeline.WinSpec sig grid0.rank :=
  Pipeline.WinSpec.ofSpec (Memref.whole main_arg2) S128x1.size reads0_2 false true 1 stage0_2 sem0_2 nbuf0_2 hstage0_2

abbrev spec0_3 : Pipeline.WinSpec sig grid0.rank :=
  Pipeline.WinSpec.ofSpec (Memref.whole main_arg3) S128x1.size reads0_3 false true 1 stage0_3 sem0_3 nbuf0_3 hstage0_3

abbrev spec0_4 : Pipeline.WinSpec sig grid0.rank :=
  Pipeline.WinSpec.ofSpec (Memref.whole main_arg4) S1x1x128.size reads0_4 false true 1 stage0_4 sem0_4 nbuf0_4 hstage0_4

abbrev spec0_5 : Pipeline.WinSpec sig grid0.rank :=
  Pipeline.WinSpec.ofSpec (Memref.whole main_v2_0) S4x1024x512.size reads0_5 true false 2 stage0_5 sem0_5 nbuf0_5 hstage0_5

abbrev spec0_6 : Pipeline.WinSpec sig grid0.rank :=
  Pipeline.WinSpec.ofSpec (Memref.whole main_v2_1) S4x1024x128.size reads0_6 true false 2 stage0_6 sem0_6 nbuf0_6 hstage0_6

abbrev spec0_7 : Pipeline.WinSpec sig grid0.rank :=
  Pipeline.WinSpec.ofSpec (Memref.whole main_v2_2) S4x128x1024.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S64x1024x128 : Shape := ⟨3, ![64, 1024, 128]⟩
abbrev S64x128x128 : Shape := ⟨3, ![64, 128, 128]⟩
abbrev S128x1 : Shape := ⟨2, ![128, 1]⟩
abbrev S1x1x128 : Shape := ⟨3, ![1, 1, 128]⟩
abbrev S64x1 : Shape := ⟨2, ![64, 1]⟩
abbrev S64x1024x1 : Shape := ⟨3, ![64, 1024, 1]⟩
abbrev S1x64x128 : Shape := ⟨3, ![1, 64, 128]⟩
abbrev S64x1x128 : Shape := ⟨3, ![64, 1, 128]⟩
abbrev S128 : Shape := ⟨1, ![128]⟩
abbrev S1x128 : Shape := ⟨2, ![1, 128]⟩
abbrev S64x128 : Shape := ⟨2, ![64, 128]⟩
abbrev S1024 : Shape := ⟨1, ![1024]⟩
abbrev S1x1024 : Shape := ⟨2, ![1, 1024]⟩
abbrev S64x1024 : Shape := ⟨2, ![64, 1024]⟩
abbrev S_ : Shape := ⟨0, ![]⟩
abbrev S64x128x1024 : Shape := ⟨3, ![64, 128, 1024]⟩
abbrev S64x1024x512 : Shape := ⟨3, ![64, 1024, 512]⟩

abbrev nBuf : Space → Nat
  | .hbm => 82
  | .vmem => 0
  | .smem => 0
  | _ => 0

abbrev bufTy : (tb : Table) → Fin (tcTables nBuf tb) → BufTy
  | .hbm, ⟨0, _⟩ => ⟨S64x1024x128, .f32⟩
  | .hbm, ⟨1, _⟩ => ⟨S64x128x128, .f32⟩
  | .hbm, ⟨2, _⟩ => ⟨S128x1, .f32⟩
  | .hbm, ⟨3, _⟩ => ⟨S128x1, .f32⟩
  | .hbm, ⟨4, _⟩ => ⟨S1x1x128, .f32⟩
  | .hbm, ⟨5, _⟩ => ⟨S64x1, .i32⟩
  | .hbm, ⟨6, _⟩ => ⟨S64x1, .i32⟩
  | .hbm, ⟨7, _⟩ => ⟨S64x1024x1, .f32⟩
  | .hbm, ⟨8, _⟩ => ⟨S1x64x128, .f32⟩
  | .hbm, ⟨9, _⟩ => ⟨S64x1x128, .f32⟩
  | .hbm, ⟨10, _⟩ => ⟨S64x1024x128, .f32⟩
  | .hbm, ⟨11, _⟩ => ⟨S64x1024x128, .f32⟩
  | .hbm, ⟨12, _⟩ => ⟨S64x1024x128, .f32⟩
  | .hbm, ⟨13, _⟩ => ⟨S64x1024x128, .f32⟩
  | .hbm, ⟨14, _⟩ => ⟨S64x1024x128, .f32⟩
  | .hbm, ⟨15, _⟩ => ⟨S64x1024x128, .f32⟩
  | .hbm, ⟨16, _⟩ => ⟨S64x1024x128, .f32⟩
  | .hbm, ⟨17, _⟩ => ⟨S128, .i32⟩
  | .hbm, ⟨18, _⟩ => ⟨S1x128, .i32⟩
  | .hbm, ⟨19, _⟩ => ⟨S64x128, .i32⟩
  | .hbm, ⟨20, _⟩ => ⟨S64x128, .i32⟩
  | .hbm, ⟨21, _⟩ => ⟨S64x128, .i1⟩
  | .hbm, ⟨22, _⟩ => ⟨S64x128, .f32⟩
  | .hbm, ⟨23, _⟩ => ⟨S1024, .i32⟩
  | .hbm, ⟨24, _⟩ => ⟨S1x1024, .i32⟩
  | .hbm, ⟨25, _⟩ => ⟨S64x1024, .i32⟩
  | .hbm, ⟨26, _⟩ => ⟨S64x1024, .i32⟩
  | .hbm, ⟨27, _⟩ => ⟨S64x1024, .i1⟩
  | .hbm, ⟨28, _⟩ => ⟨S64x1024, .f32⟩
  | .hbm, ⟨29, _⟩ => ⟨S_, .f32⟩
  | .hbm, ⟨30, _⟩ => ⟨S64x128, .f32⟩
  | .hbm, ⟨31, _⟩ => ⟨S64x128, .f32⟩
  | .hbm, ⟨32, _⟩ => ⟨S64x1x128, .f32⟩
  | .hbm, ⟨33, _⟩ => ⟨S_, .f32⟩
  | .hbm, ⟨34, _⟩ => ⟨S64x1x128, .f32⟩
  | .hbm, ⟨35, _⟩ => ⟨S64x1x128, .f32⟩
  | .hbm, ⟨36, _⟩ => ⟨S64x1024x128, .f32⟩
  | .hbm, ⟨37, _⟩ => ⟨S64x1024x128, .f32⟩
  | .hbm, ⟨38, _⟩ => ⟨S_, .f32⟩
  | .hbm, ⟨39, _⟩ => ⟨S64x1024, .f32⟩
  | .hbm, ⟨40, _⟩ => ⟨S_, .f32⟩
  | .hbm, ⟨41, _⟩ => ⟨S64x1024, .f32⟩
  | .hbm, ⟨42, _⟩ => ⟨S64x1024, .f32⟩
  | .hbm, ⟨43, _⟩ => ⟨S64x1024x1, .f32⟩
  | .hbm, ⟨44, _⟩ => ⟨S64x1024x128, .f32⟩
  | .hbm, ⟨45, _⟩ => ⟨S64x1024x128, .f32⟩
  | .hbm, ⟨46, _⟩ => ⟨S64x1024x128, .f32⟩
  | .hbm, ⟨47, _⟩ => ⟨S_, .f32⟩
  | .hbm, ⟨48, _⟩ => ⟨S64x1024, .f32⟩
  | .hbm, ⟨49, _⟩ => ⟨S64x1024x1, .f32⟩
  | .hbm, ⟨50, _⟩ => ⟨S64x1024x128, .f32⟩
  | .hbm, ⟨51, _⟩ => ⟨S64x1024x128, .f32⟩
  | .hbm, ⟨52, _⟩ => ⟨S_, .f32⟩
  | .hbm, ⟨53, _⟩ => ⟨S64x1024, .f32⟩
  | .hbm, ⟨54, _⟩ => ⟨S64x1024, .f32⟩
  | .hbm, ⟨55, _⟩ => ⟨S64x1024x1, .f32⟩
  | .hbm, ⟨56, _⟩ => ⟨S_, .f32⟩
  | .hbm, ⟨57, _⟩ => ⟨S64x1024x1, .f32⟩
  | .hbm, ⟨58, _⟩ => ⟨S64x1024x1, .f32⟩
  | .hbm, ⟨59, _⟩ => ⟨S64x1024x128, .f32⟩
  | .hbm, ⟨60, _⟩ => ⟨S64x1024x128, .f32⟩
  | .hbm, ⟨61, _⟩ => ⟨S_, .f32⟩
  | .hbm, ⟨62, _⟩ => ⟨S64x128, .f32⟩
  | .hbm, ⟨63, _⟩ => ⟨S_, .f32⟩
  | .hbm, ⟨64, _⟩ => ⟨S64x128, .f32⟩
  | .hbm, ⟨65, _⟩ => ⟨S64x128, .f32⟩
  | .hbm, ⟨66, _⟩ => ⟨S64x1x128, .f32⟩
  | .hbm, ⟨67, _⟩ => ⟨S64x1024x128, .f32⟩
  | .hbm, ⟨68, _⟩ => ⟨S64x1024x128, .f32⟩
  | .hbm, ⟨69, _⟩ => ⟨S64x1024x128, .f32⟩
  | .hbm, ⟨70, _⟩ => ⟨S_, .f32⟩
  | .hbm, ⟨71, _⟩ => ⟨S64x128, .f32⟩
  | .hbm, ⟨72, _⟩ => ⟨S64x1x128, .f32⟩
  | .hbm, ⟨73, _⟩ => ⟨S64x1024x128, .f32⟩
  | .hbm, ⟨74, _⟩ => ⟨S64x1024x128, .f32⟩
  | .hbm, ⟨75, _⟩ => ⟨S64x128x1024, .f32⟩
  | .hbm, ⟨76, _⟩ => ⟨S64x1024x128, .f32⟩
  | .hbm, ⟨77, _⟩ => ⟨S64x128x128, .f32⟩
  | .hbm, ⟨78, _⟩ => ⟨S64x1024x128, .f32⟩
  | .hbm, ⟨79, _⟩ => ⟨S64x1024x128, .f32⟩
  | .hbm, ⟨80, _⟩ => ⟨S64x1024x128, .f32⟩
  | .hbm, ⟨81, _⟩ => ⟨S64x1024x512, .f32⟩
  | _, _ => ⟨S64x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]

class Facts₀ : Prop where
  transposes_S1x64x128_S64x1x128_1_0_2 : S1x64x128.Transposes [1, 0, 2] S64x1x128
  bcast_S1x1x128_S64x1024x128_0_1_2 : S1x1x128.BroadcastsInDim S64x1024x128 (![0, 1, 2] : Fin 3 → Fin S64x1024x128.rank)
  bcast_S64x1024x1_S64x1024x128_0_1_2 : S64x1024x1.BroadcastsInDim S64x1024x128 (![0, 1, 2] : Fin 3 → Fin S64x1024x128.rank)
  bcast_S64x1x128_S64x1024x128_0_1_2 : S64x1x128.BroadcastsInDim S64x1024x128 (![0, 1, 2] : Fin 3 → Fin S64x1024x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S64x1_S64x128_0_1 : S64x1.BroadcastsInDim S64x128 (![0, 1] : Fin 2 → Fin S64x128.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S64x1_S64x1024_0_1 : S64x1.BroadcastsInDim S64x1024 (![0, 1] : Fin 2 → Fin S64x1024.rank)
  bcast_S_S64x128 : S_.BroadcastsInDim S64x128 (![] : Fin 0 → Fin S64x128.rank)
  bcast_S64x128_S64x1x128_0_2 : S64x128.BroadcastsInDim S64x1x128 (![0, 2] : Fin 2 → Fin S64x1x128.rank)
  bcast_S_S64x1x128 : S_.BroadcastsInDim S64x1x128 (![] : Fin 0 → Fin S64x1x128.rank)
  reducesTo_S64x1024x128_S64x1024_d2 : S64x1024x128.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  reducesTo_S64x1024x128_S64x128_d1 : S64x1024x128.ReducesTo [1] S64x128
  transposes_S64x1024x128_S64x128x1024_0_2_1 : S64x1024x128.Transposes [0, 2, 1] S64x128x1024
  concatenates_S64x1024x128_S64x1024x128_S64x1024x128_S64x1024x128_S64x1024x512_d2 : Shape.Concatenates [S64x1024x128, S64x1024x128, S64x1024x128, S64x1024x128] S64x1024x512 2
  dot_S64x1024x128_S128x1_S64x1024x1_2_0_01_1_n_n_wf : DotDims.WF S64x1024x128 S128x1 S64x1024x1 [2] [0] [0, 1] [1] [] []
  dot_S128x1_S64x128x128_S1x64x128_0_2_1_01_n_n_wf : DotDims.WF S128x1 S64x128x128 S1x64x128 [0] [2] [1] [0, 1] [] []
  dot_S64x1024x128_S64x128x128_S64x1024x128_2_2_1_1_0_0_wf : DotDims.WF S64x1024x128 S64x128x128 S64x1024x128 [2] [2] [1] [1] [0] [0]
  dot_S64x1024x128_S64x128x128_S64x1024x128_2_1_1_2_0_0_wf : DotDims.WF S64x1024x128 S64x128x128 S64x1024x128 [2] [1] [1] [2] [0] [0]
  dot_S64x1024x128_S64x128x1024_S64x128x128_1_2_2_1_0_0_wf : DotDims.WF S64x1024x128 S64x128x1024 S64x128x128 [1] [2] [2] [1] [0] [0]

variable [Facts₀]

def dot_S64x1024x128_S128x1_S64x1024x1_2_0_01_1_n_n : DotDims S64x1024x128 S128x1 S64x1024x1 where
  lhsContracting := [2]
  rhsContracting := [0]
  lhsNonContracting := [0, 1]
  rhsNonContracting := [1]
  lhsBatch := []
  rhsBatch := []
  wf := dot_S64x1024x128_S128x1_S64x1024x1_2_0_01_1_n_n_wf
def dot_S128x1_S64x128x128_S1x64x128_0_2_1_01_n_n : DotDims S128x1 S64x128x128 S1x64x128 where
  lhsContracting := [0]
  rhsContracting := [2]
  lhsNonContracting := [1]
  rhsNonContracting := [0, 1]
  lhsBatch := []
  rhsBatch := []
  wf := dot_S128x1_S64x128x128_S1x64x128_0_2_1_01_n_n_wf
def dot_S64x1024x128_S64x128x128_S64x1024x128_2_2_1_1_0_0 : DotDims S64x1024x128 S64x128x128 S64x1024x128 where
  lhsContracting := [2]
  rhsContracting := [2]
  lhsNonContracting := [1]
  rhsNonContracting := [1]
  lhsBatch := [0]
  rhsBatch := [0]
  wf := dot_S64x1024x128_S64x128x128_S64x1024x128_2_2_1_1_0_0_wf
def dot_S64x1024x128_S64x128x128_S64x1024x128_2_1_1_2_0_0 : DotDims S64x1024x128 S64x128x128 S64x1024x128 where
  lhsContracting := [2]
  rhsContracting := [1]
  lhsNonContracting := [1]
  rhsNonContracting := [2]
  lhsBatch := [0]
  rhsBatch := [0]
  wf := dot_S64x1024x128_S64x128x128_S64x1024x128_2_1_1_2_0_0_wf
def dot_S64x1024x128_S64x128x1024_S64x128x128_1_2_2_1_0_0 : DotDims S64x1024x128 S64x128x1024 S64x128x128 where
  lhsContracting := [1]
  rhsContracting := [2]
  lhsNonContracting := [2]
  rhsNonContracting := [1]
  lhsBatch := [0]
  rhsBatch := [0]
  wf := dot_S64x1024x128_S64x128x1024_S64x128x128_1_2_2_1_0_0_wf

class Facts : Prop extends Facts₀ where

variable [Facts]
-- ==== Proof.K.Body.lean ====
/-
  The kernel body at one grid point, as a statement about blocks.

  The body is handed a block of four batches: context rows x3 (4 × 1024 × 128), question rows x4 (4 × 128 × 128),
  the three weight vectors x5, x6, x7, and the two length tables. Its loop visits the four batches in turn; the
  trip for batch k reads rows k of x3 and x4 and the two lengths at position 4·g + k (g the grid coordinate),
  and writes row k of each of the three output blocks. So after the body each output block is a function of the
  inputs alone, batch row by batch row: the definitions below name those three functions through the body's own
  arithmetic (the payload terms of the generated skeleton), and `bodyRun` says the body computes them.
-/
import proofs.«417795_j72791105733170_3_alg».proof.Proof.Gen.Kernel.Launch
import proofs.«417795_j72791105733170_3_alg».proof.Proof.Gen.Kernel.Skeleton
import proofs.«417795_j72791105733170_3_alg».proof.Proof.Gen.Kernel.Loops
import Idealize.ShloMosaic.Lib.Pipeline.FrameBody
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two length tables as the body is handed them: whole scalar-memory buffers (context lengths, question lengths). -/
abbrev tbC : Memref sig .tc .smem S64 .i32 := Memref.whole main_v0
abbrev htbC : tbC.IsWhole := Memref.isWhole_whole _
abbrev tbQ : Memref sig .tc .smem S64 .i32 := Memref.whole main_v1
abbrev htbQ : tbQ.IsWhole := Memref.isWhole_whole _
/-- A table's buffer on core c, and the table held at half the full share at contents f (the pipeline keeps the other half). -/
abbrev TbBuf (c : Dev nD) (M : Memref sig .tc .smem S64 .i32) : Type := Buf (Elt F) (M.view.loc (c : Thread nD τ))
abbrev tbPt (c : Dev nD) (M : Memref sig .tc .smem S64 .i32) (f : TbBuf (F := F) c M) : sProp 𝕄 :=
  M.view.loc (c : Thread nD τ) ↦{fullShare.right} f

/-- Batch row k of a four-batch block of context rows, as a one-batch block. -/
def cRow (x3 : Vec F S4x1024x128 .f32) (k : Fin 4) : Vec F S1x1024x128 .f32 := fun j => x3 (ix3 k (j 1) (j 2))
/-- Batch row k of a four-batch block of question rows, as a one-batch block. -/
def qRow (x4 : Vec F S4x128x128 .f32) (k : Fin 4) : Vec F S1x128x128 .f32 := fun j => x4 (ix3 k (j 1) (j 2))
/-- The table's word for batch row k at grid coordinate i: position 4 · i₀ + k of the 64 words. -/
def lenAt (c : Dev nD) (M : Memref sig .tc .smem S64 .i32) (xt : TbBuf (F := F) c M) (i : grid0.Coords) (k : Fin 4) : Elt F .i32 :=
  M.view.read (Elt F) xt (ix1 (⟨(4 * (i 0).val + k.val) % 64, Nat.mod_lt _ (by decide)⟩ : Fin 64))

/-- The similarity scores of batch row k (context × question), and transposed (question × context). -/
def scoreRow (x3 : Vec F S4x1024x128 .f32) (x4 : Vec F S4x128x128 .f32) (x5 x6 : Vec F S128x1 .f32) (x7 : Vec F S1x1x128 .f32) (k : Fin 4) : FVec F S1024x128 .f32 :=
  k0_pay12 (k0_pay1 x5) (k0_pay2 x6) (k0_pay3 x7) (cRow x3 k) (qRow x4 k)
def scoreRowT (x3 : Vec F S4x1024x128 .f32) (x4 : Vec F S4x128x128 .f32) (x5 x6 : Vec F S128x1 .f32) (x7 : Vec F S1x1x128 .f32) (k : Fin 4) : FVec F S128x1024 .f32 :=
  k0_pay13 (k0_pay1 x5) (k0_pay2 x6) (k0_pay3 x7) (cRow x3 k) (qRow x4 k)

/-- What the body leaves in the block of softmaxes over the question axis. -/
def sbarBlk (x3 : Vec F S4x1024x128 .f32) (x4 : Vec F S4x128x128 .f32) (x5 x6 : Vec F S128x1 .f32) (x7 : Vec F S1x1x128 .f32) (wq : Fin 4 → Elt F .i32) : Vec F S4x1024x128 .f32 := fun j =>
  k0_pay18 (scoreRow x3 x4 x5 x6 x7 (j 0)) (k0_pay15 (wq (j 0))) (ix3 0 (j 1) (j 2))
/-- What the body leaves in the block of softmaxes over the context axis. -/
def stBlk (x3 : Vec F S4x1024x128 .f32) (x4 : Vec F S4x128x128 .f32) (x5 x6 : Vec F S128x1 .f32) (x7 : Vec F S1x1x128 .f32) (wc : Fin 4 → Elt F .i32) : Vec F S4x128x1024 .f32 := fun j =>
  k0_pay19 (scoreRowT x3 x4 x5 x6 x7 (j 0)) (k0_pay14 (wc (j 0))) (ix3 0 (j 1) (j 2))
/-- The two attention products of batch row k. -/
def c2qRow (x3 : Vec F S4x1024x128 .f32) (x4 : Vec F S4x128x128 .f32) (x5 x6 : Vec F S128x1 .f32) (x7 : Vec F S1x1x128 .f32) (wq : Fin 4 → Elt F .i32) (k : Fin 4) : FVec F S1024x128 .f32 :=
  k0_pay21 (k0_pay10 (qRow x4 k)) (scoreRow x3 x4 x5 x6 x7 k) (k0_pay15 (wq k))
def q2cRow (x3 : Vec F S4x1024x128 .f32) (x4 : Vec F S4x128x128 .f32) (x5 x6 : Vec F S128x1 .f32) (x7 : Vec F S1x1x128 .f32) (wc wq : Fin 4 → Elt F .i32) (k : Fin 4) : FVec F S1024x128 .f32 :=
  k0_pay22 (k0_pay9 (cRow x3 k)) (scoreRow x3 x4 x5 x6 x7 k) (scoreRowT x3 x4 x5 x6 x7 k) (k0_pay14 (wc k)) (k0_pay15 (wq k))
/-- What the body leaves in the result block: four groups of 128 columns. -/
def resBlk (x3 : Vec F S4x1024x128 .f32) (x4 : Vec F S4x128x128 .f32) (x5 x6 : Vec F S128x1 .f32) (x7 : Vec F S1x1x128 .f32) (wc wq : Fin 4 → Elt F .i32) : Vec F S4x1024x512 .f32 := fun j =>
  if h1 : (j 2).val < 128 then
    k0_pay4 (k0_pay8 (cRow x3 (j 0))) (ix3 0 (j 1) (⟨(j 2).val, h1⟩ : Fin 128))
  else if h2 : (j 2).val < 256 then
    k0_pay5 (c2qRow x3 x4 x5 x6 x7 wq (j 0)) (ix3 0 (j 1) (⟨(j 2).val - 128, by omega⟩ : Fin 128))
  else if h3 : (j 2).val < 384 then
    k0_pay6 (k0_pay8 (cRow x3 (j 0))) (c2qRow x3 x4 x5 x6 x7 wq (j 0)) (ix3 0 (j 1) (⟨(j 2).val - 256, by omega⟩ : Fin 128))
  else
    k0_pay7 (k0_pay8 (cRow x3 (j 0))) (q2cRow x3 x4 x5 x6 x7 wc wq (j 0))
      (ix3 0 (j 1) (⟨(j 2).val - 384, by have h512 : (j 2).val < 512 := (j 2).isLt; omega⟩ : Fin 128))

/-! ## The loop by its invariant, and its pieces read back

The body's loop makes four trips; trip k stores row k of each output block. The invariant before trip k holds the two
tables at half share, the two input blocks at their contents, and each output block at the pieces of the trips before k
written over whatever it held at loop entry. After the fourth trip the pieces cover each block, and piece by piece they
are the block functions above at the piece's indices, so each block reads as its function. -/

namespace Trip

/-- One trip's resources: the two tables at half share, the two input blocks at their contents, the three output blocks at any. -/
abbrev TripR (c : Dev nD) (arg3 : Memref sig .tc .vmem S4x1024x128 .f32) (arg4 : Memref sig .tc .vmem S4x128x128 .f32) (arg8 : Memref sig .tc .vmem S4x1024x512 .f32) (arg9 : Memref sig .tc .vmem S4x1024x128 .f32) (arg10 : Memref sig .tc .vmem S4x128x1024 .f32) (X1 : TbBuf (F := F) c tbC) (X2 : TbBuf (F := F) c tbQ) (X3 : BufTy.Contents (Elt F) arg3.view.ty) (X4 : BufTy.Contents (Elt F) arg4.view.ty) (f8 : BufTy.Contents (Elt F) arg8.view.ty) (f9 : BufTy.Contents (Elt F) arg9.view.ty) (f10 : BufTy.Contents (Elt F) arg10.view.ty) : sProp 𝕄 :=
  iprop(tbPt c tbC X1 ∗ tbPt c tbQ X2 ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

/-- Trip k's loads: row k of the context block, row k of the question block, and the two table words at position 4·g + k. -/
abbrev ldC (arg3 : Memref sig .tc .vmem S4x1024x128 .f32) (X3 : BufTy.Contents (Elt F) arg3.view.ty) (k : Fin k0_t1_loop.trips) : Vec F S1x1024x128 .f32 :=
  arg3.view.readAt (Elt F) (Rect.unit (s := S4x1024x128) (k0_off1 k) S1x1024x128.size (k0_off1_inb k)).toLoadRect X3
abbrev ldQ (arg4 : Memref sig .tc .vmem S4x128x128 .f32) (X4 : BufTy.Contents (Elt F) arg4.view.ty) (k : Fin k0_t1_loop.trips) : Vec F S1x128x128 .f32 :=
  arg4.view.readAt (Elt F) (Rect.unit (s := S4x128x128) (k0_off2 k) S1x128x128.size (k0_off2_inb k)).toLoadRect X4
abbrev ldW (c : Dev nD) (M : Memref sig .tc .smem S64 .i32) (X : TbBuf (F := F) c M) (i : grid0.Coords) (k : Fin k0_t1_loop.trips) : Elt F .i32 :=
  M.view.readAt (Elt F) (Rect.unit (s := S64) (k0_off3 i k) S1.size (k0_off3_inb i k)).toLoadRect X (Shape.Idx.first (numel1_S1.symm ▸ Nat.one_pos))

/-- The values one trip computes from its loads (the weights' three payloads p1 p2 p3, the rows v10 v13, the words wc wq). -/
abbrev tScore (p1 p2 : FVec F S128x1 .bf16) (p3 : FVec F S1x128 .f32) (v10 : Vec F S1x1024x128 .f32) (v13 : Vec F S1x128x128 .f32) : FVec F S1024x128 .f32 := k0_pay12 p1 p2 p3 v10 v13
abbrev tScoreT (p1 p2 : FVec F S128x1 .bf16) (p3 : FVec F S1x128 .f32) (v10 : Vec F S1x1024x128 .f32) (v13 : Vec F S1x128x128 .f32) : FVec F S128x1024 .f32 := k0_pay13 p1 p2 p3 v10 v13
abbrev tC2q (p1 p2 : FVec F S128x1 .bf16) (p3 : FVec F S1x128 .f32) (v10 : Vec F S1x1024x128 .f32) (v13 : Vec F S1x128x128 .f32) (wq : Elt F .i32) : FVec F S1024x128 .f32 :=
  k0_pay21 (k0_pay10 v13) (tScore p1 p2 p3 v10 v13) (k0_pay15 wq)
abbrev tQ2c (p1 p2 : FVec F S128x1 .bf16) (p3 : FVec F S1x128 .f32) (v10 : Vec F S1x1024x128 .f32) (v13 : Vec F S1x128x128 .f32) (wc wq : Elt F .i32) : FVec F S1024x128 .f32 :=
  k0_pay22 (k0_pay9 v10) (tScore p1 p2 p3 v10 v13) (tScoreT p1 p2 p3 v10 v13) (k0_pay14 wc) (k0_pay15 wq)

/-- Trip k's stores into the result block (the last store first): four groups of 128 columns of row k. -/
abbrev pcs8 (p1 p2 : FVec F S128x1 .bf16) (p3 : FVec F S1x128 .f32) (k : Fin k0_t1_loop.trips) (v10 : Vec F S1x1024x128 .f32) (v13 : Vec F S1x128x128 .f32) (wc wq : Elt F .i32) : List (View.Piece (Elt F) S4x1024x512 .f32) :=
  [⟨Rect.unit (s := S4x1024x512) (k0_off8 k) S1x1024x128.size (k0_off8_inb k), k0_pay7 (k0_pay8 v10) (tQ2c p1 p2 p3 v10 v13 wc wq)⟩,
   ⟨Rect.unit (s := S4x1024x512) (k0_off7 k) S1x1024x128.size (k0_off7_inb k), k0_pay6 (k0_pay8 v10) (tC2q p1 p2 p3 v10 v13 wq)⟩,
   ⟨Rect.unit (s := S4x1024x512) (k0_off6 k) S1x1024x128.size (k0_off6_inb k), k0_pay5 (tC2q p1 p2 p3 v10 v13 wq)⟩,
   ⟨Rect.unit (s := S4x1024x512) (k0_off5 k) S1x1024x128.size (k0_off5_inb k), k0_pay4 (k0_pay8 v10)⟩]
/-- Trip k's store into the block of softmaxes over the question axis: row k. -/
abbrev pcs9 (p1 p2 : FVec F S128x1 .bf16) (p3 : FVec F S1x128 .f32) (k : Fin k0_t1_loop.trips) (v10 : Vec F S1x1024x128 .f32) (v13 : Vec F S1x128x128 .f32) (wq : Elt F .i32) : List (View.Piece (Elt F) S4x1024x128 .f32) :=
  [⟨Rect.unit (s := S4x1024x128) (k0_off1 k) S1x1024x128.size (k0_off1_inb k), k0_pay18 (tScore p1 p2 p3 v10 v13) (k0_pay15 wq)⟩]
/-- Trip k's store into the block of softmaxes over the context axis: row k. -/
abbrev pcs10 (p1 p2 : FVec F S128x1 .bf16) (p3 : FVec F S1x128 .f32) (k : Fin k0_t1_loop.trips) (v10 : Vec F S1x1024x128 .f32) (v13 : Vec F S1x128x128 .f32) (wc : Elt F .i32) : List (View.Piece (Elt F) S4x128x1024 .f32) :=
  [⟨Rect.unit (s := S4x128x1024) (k0_off4 k) S1x128x1024.size (k0_off4_inb k), k0_pay19 (tScoreT p1 p2 p3 v10 v13) (k0_pay14 wc)⟩]

set_option maxHeartbeats 1000000 in
/-- ONE TRIP at a symbolic k: from the trip's resources with the output blocks at any contents, the region runs to the same
    resources with the trip's pieces written over those contents. -/
theorem tripRun (c : Dev nD) (i : grid0.Coords) (arg3 : Memref sig .tc .vmem S4x1024x128 .f32) (harg3 : arg3.IsWhole) (arg4 : Memref sig .tc .vmem S4x128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x1x128 .f32) (harg7 : arg7.IsWhole) (arg8 : Memref sig .tc .vmem S4x1024x512 .f32) (harg8 : arg8.IsWhole) (arg9 : Memref sig .tc .vmem S4x1024x128 .f32) (harg9 : arg9.IsWhole) (arg10 : Memref sig .tc .vmem S4x128x1024 .f32) (harg10 : arg10.IsWhole) (arg0 : BitVec 32) (v0 : Vec F S128x1 .f32) (v2 : Vec F S128x1 .f32) (v4 : Vec F S1x1x128 .f32) (X1 : TbBuf (F := F) c tbC) (X2 : TbBuf (F := F) c tbQ) (X3 : BufTy.Contents (Elt F) arg3.view.ty) (X4 : BufTy.Contents (Elt F) arg4.view.ty) (k : Fin k0_t1_loop.trips)
    (E : Set ℕ) (f8 : BufTy.Contents (Elt F) arg8.view.ty) (f9 : BufTy.Contents (Elt F) arg9.view.ty) (f10 : BufTy.Contents (Elt F) arg10.view.ty) :
      TripR (F := F) c arg3 arg4 arg8 arg9 arg10 X1 X2 X3 X4 f8 f9 f10
      ⊢ wp frame (wpE (defs₀ (F := F)) Variants.none (c : Thread nD τ) none) E (k0_t1_body (F := F) i tbC htbC tbQ htbQ arg3 harg3 arg4 harg4 arg5 harg5 arg6 harg6 arg7 harg7 arg8 harg8 arg9 harg9 arg10 harg10 arg0 v0 v2 v4 k PUnit.unit)
          (fun _ => TripR (F := F) c arg3 arg4 arg8 arg9 arg10 X1 X2 X3 X4
            (arg8.view.writes (Elt F) f8 (pcs8 (k0_pay1 v0) (k0_pay2 v2) (k0_pay3 v4) k (ldC arg3 X3 k) (ldQ arg4 X4 k) (ldW c tbC X1 i k) (ldW c tbQ X2 i k)))
            (arg9.view.writes (Elt F) f9 (pcs9 (k0_pay1 v0) (k0_pay2 v2) (k0_pay3 v4) k (ldC arg3 X3 k) (ldQ arg4 X4 k) (ldW c tbQ X2 i k)))
            (arg10.view.writes (Elt F) f10 (pcs10 (k0_pay1 v0) (k0_pay2 v2) (k0_pay3 v4) k (ldC arg3 X3 k) (ldQ arg4 X4 k) (ldW c tbC X1 i k)))) := by
  have hk : k.val < 4 := Nat.lt_of_lt_of_le k.isLt k0_t1_abs.2.1
  unfold k0_t1_body
  iintro ⟨HT1, HT2, HR3, HR4, HW8, HW9, HW10⟩
  sl_exec
  sl_step
  sl_close

/-- The pieces of the trips before n (the last trip's first), for a family of per-trip piece lists. -/
def piecesBefore {S : Shape} {e : EltTy} (P : Fin k0_t1_loop.trips → List (View.Piece (Elt F) S e)) : ℕ → List (View.Piece (Elt F) S e)
  | 0 => []
  | k + 1 => (if h : k < k0_t1_loop.trips then P ⟨k, h⟩ else []) ++ piecesBefore P k

theorem piecesBefore_succ {S : Shape} {e : EltTy} (P : Fin k0_t1_loop.trips → List (View.Piece (Elt F) S e)) (k : Fin k0_t1_loop.trips) :
    piecesBefore P (k.val + 1) = P k ++ piecesBefore P k.val := by
  rw [piecesBefore, dif_pos k.isLt]

/-- A piece of the trips before n is a piece of some trip k < n, and conversely. -/
theorem mem_piecesBefore {S : Shape} {e : EltTy} (P : Fin k0_t1_loop.trips → List (View.Piece (Elt F) S e)) (p : View.Piece (Elt F) S e) :
    ∀ n : ℕ, p ∈ piecesBefore P n ↔ ∃ k : Fin k0_t1_loop.trips, k.val < n ∧ p ∈ P k
  | 0 => by simp [piecesBefore]
  | n + 1 => by
    rw [piecesBefore, List.mem_append, mem_piecesBefore P p n]
    constructor
    · rintro (h | ⟨k, hk, hp⟩)
      · by_cases hn : n < k0_t1_loop.trips
        · rw [dif_pos hn] at h; exact ⟨⟨n, hn⟩, Nat.lt_succ_self n, h⟩
        · rw [dif_neg hn] at h; exact absurd h List.not_mem_nil
      · exact ⟨k, Nat.lt_succ_of_lt hk, hp⟩
    · rintro ⟨k, hk, hp⟩
      rcases Nat.lt_succ_iff_lt_or_eq.mp hk with hlt | heq
      · exact Or.inr ⟨k, hlt, hp⟩
      · left
        have hn : n < k0_t1_loop.trips := heq ▸ k.isLt
        rw [dif_pos hn]
        have : (⟨n, hn⟩ : Fin k0_t1_loop.trips) = k := Fin.ext heq.symm
        rw [this]; exact hp

/-- The per-trip piece lists of the three output blocks, over the loop's parameters. -/
abbrev P8 (c : Dev nD) (i : grid0.Coords) (arg3 : Memref sig .tc .vmem S4x1024x128 .f32) (arg4 : Memref sig .tc .vmem S4x128x128 .f32) (v0 v2 : Vec F S128x1 .f32) (v4 : Vec F S1x1x128 .f32) (X1 : TbBuf (F := F) c tbC) (X2 : TbBuf (F := F) c tbQ) (X3 : BufTy.Contents (Elt F) arg3.view.ty) (X4 : BufTy.Contents (Elt F) arg4.view.ty) (k : Fin k0_t1_loop.trips) : List (View.Piece (Elt F) S4x1024x512 .f32) :=
  pcs8 (k0_pay1 v0) (k0_pay2 v2) (k0_pay3 v4) k (ldC arg3 X3 k) (ldQ arg4 X4 k) (ldW c tbC X1 i k) (ldW c tbQ X2 i k)
abbrev P9 (c : Dev nD) (i : grid0.Coords) (arg3 : Memref sig .tc .vmem S4x1024x128 .f32) (arg4 : Memref sig .tc .vmem S4x128x128 .f32) (v0 v2 : Vec F S128x1 .f32) (v4 : Vec F S1x1x128 .f32) (X2 : TbBuf (F := F) c tbQ) (X3 : BufTy.Contents (Elt F) arg3.view.ty) (X4 : BufTy.Contents (Elt F) arg4.view.ty) (k : Fin k0_t1_loop.trips) : List (View.Piece (Elt F) S4x1024x128 .f32) :=
  pcs9 (k0_pay1 v0) (k0_pay2 v2) (k0_pay3 v4) k (ldC arg3 X3 k) (ldQ arg4 X4 k) (ldW c tbQ X2 i k)
abbrev P10 (c : Dev nD) (i : grid0.Coords) (arg3 : Memref sig .tc .vmem S4x1024x128 .f32) (arg4 : Memref sig .tc .vmem S4x128x128 .f32) (v0 v2 : Vec F S128x1 .f32) (v4 : Vec F S1x1x128 .f32) (X1 : TbBuf (F := F) c tbC) (X3 : BufTy.Contents (Elt F) arg3.view.ty) (X4 : BufTy.Contents (Elt F) arg4.view.ty) (k : Fin k0_t1_loop.trips) : List (View.Piece (Elt F) S4x128x1024 .f32) :=
  pcs10 (k0_pay1 v0) (k0_pay2 v2) (k0_pay3 v4) k (ldC arg3 X3 k) (ldQ arg4 X4 k) (ldW c tbC X1 i k)

/-- THE INVARIANT before trip k: the tables at half share and the two input blocks at their contents; each output block
    holding the pieces of the trips before k written over its contents at loop entry. -/
abbrev invR (c : Dev nD) (i : grid0.Coords) (arg3 : Memref sig .tc .vmem S4x1024x128 .f32) (arg4 : Memref sig .tc .vmem S4x128x128 .f32) (arg8 : Memref sig .tc .vmem S4x1024x512 .f32) (arg9 : Memref sig .tc .vmem S4x1024x128 .f32) (arg10 : Memref sig .tc .vmem S4x128x1024 .f32) (v0 v2 : Vec F S128x1 .f32) (v4 : Vec F S1x1x128 .f32) (X1 : TbBuf (F := F) c tbC) (X2 : TbBuf (F := F) c tbQ) (X3 : BufTy.Contents (Elt F) arg3.view.ty) (X4 : BufTy.Contents (Elt F) arg4.view.ty) (G8 : BufTy.Contents (Elt F) arg8.view.ty) (G9 : BufTy.Contents (Elt F) arg9.view.ty) (G10 : BufTy.Contents (Elt F) arg10.view.ty) (k : ℕ) (_u : PUnit) : sProp 𝕄 :=
  iprop(tbPt c tbC X1 ∗ tbPt c tbQ X2 ∗ (arg3.view.loc (c : Thread nD τ) ↦[arg3.view.set]{fullShare} X3) ∗ (arg4.view.loc (c : Thread nD τ) ↦[arg4.view.set]{fullShare} X4)
    ∗ (∃ f, (arg8.view.loc (c : Thread nD τ) ↦[arg8.view.set]{fullShare} f) ∗ ⌜f = arg8.view.writes (Elt F) G8 (piecesBefore (P8 c i arg3 arg4 v0 v2 v4 X1 X2 X3 X4) k)⌝)
    ∗ (∃ f, (arg9.view.loc (c : Thread nD τ) ↦[arg9.view.set]{fullShare} f) ∗ ⌜f = arg9.view.writes (Elt F) G9 (piecesBefore (P9 c i arg3 arg4 v0 v2 v4 X2 X3 X4) k)⌝)
    ∗ (∃ f, (arg10.view.loc (c : Thread nD τ) ↦[arg10.view.set]{fullShare} f) ∗ ⌜f = arg10.view.writes (Elt F) G10 (piecesBefore (P10 c i arg3 arg4 v0 v2 v4 X1 X3 X4) k)⌝))

set_option warn.classDefReducibility false in
/-- THE LOOP BY ITS INVARIANT, with the tables held at half share. -/
@[sl_loop] def loopInvR (c : Dev nD) (E : Set ℕ) (i : grid0.Coords) (arg3 : Memref sig .tc .vmem S4x1024x128 .f32) (harg3 : arg3.IsWhole) (arg4 : Memref sig .tc .vmem S4x128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x1x128 .f32) (harg7 : arg7.IsWhole) (arg8 : Memref sig .tc .vmem S4x1024x512 .f32) (harg8 : arg8.IsWhole) (arg9 : Memref sig .tc .vmem S4x1024x128 .f32) (harg9 : arg9.IsWhole) (arg10 : Memref sig .tc .vmem S4x128x1024 .f32) (harg10 : arg10.IsWhole) (arg0 : BitVec 32) (v0 : Vec F S128x1 .f32) (v2 : Vec F S128x1 .f32) (v4 : Vec F S1x1x128 .f32) (X1 : TbBuf (F := F) c tbC) (X2 : TbBuf (F := F) c tbQ) (X3 : BufTy.Contents (Elt F) arg3.view.ty) (X4 : BufTy.Contents (Elt F) arg4.view.ty) (G8 : BufTy.Contents (Elt F) arg8.view.ty) (G9 : BufTy.Contents (Elt F) arg9.view.ty) (G10 : BufTy.Contents (Elt F) arg10.view.ty) :
    LoopInvTy_k0_t1 (F := F) Unit ℕ (UR sig nD τ) ℕ Variants.none c none E i tbC htbC tbQ htbQ arg3 harg3 arg4 harg4 arg5 harg5 arg6 harg6 arg7 harg7 arg8 harg8 arg9 harg9 arg10 harg10 arg0 v0 v2 v4 where
  inv := invR (F := F) c i arg3 arg4 arg8 arg9 arg10 v0 v2 v4 X1 X2 X3 X4 G8 G9 G10
  step k acc := by
    iintro ⟨HT1, HT2, HR3, HR4, ⟨%f8, HW8, %h8⟩, ⟨%f9, HW9, %h9⟩, ⟨%f10, HW10, %h10⟩⟩
    iapply (wp_wand_r Idealize.ShloMosaic.frame (wpE (defs₀ (F := F)) Variants.none (c : Thread nD τ) none) E)
    isplitl [HT1 HT2 HR3 HR4 HW8 HW9 HW10]
    · iapply (tripRun (F := F) c i arg3 harg3 arg4 harg4 arg5 harg5 arg6 harg6 arg7 harg7 arg8 harg8 arg9 harg9 arg10 harg10 arg0 v0 v2 v4 X1 X2 X3 X4 k E f8 f9 f10)
      isplitl [HT1]; · iexact HT1
      isplitl [HT2]; · iexact HT2
      isplitl [HR3]; · iexact HR3
      isplitl [HR4]; · iexact HR4
      isplitl [HW8]; · iexact HW8
      isplitl [HW9]; · iexact HW9
      iexact HW10
    · iintro %_ ⟨HT1, HT2, HR3, HR4, HW8, HW9, HW10⟩
      isplitl [HT1]; · iexact HT1
      isplitl [HT2]; · iexact HT2
      isplitl [HR3]; · iexact HR3
      isplitl [HR4]; · iexact HR4
      isplitl [HW8]
      · iexists _; isplitl [HW8]; · iexact HW8
        ipureintro; rw [piecesBefore_succ, h8, ← View.writes_append]
      isplitl [HW9]
      · iexists _; isplitl [HW9]; · iexact HW9
        ipureintro; rw [piecesBefore_succ, h9, ← View.writes_append]
      iexists _; isplitl [HW10]; · iexact HW10
      ipureintro; rw [piecesBefore_succ, h10, ← View.writes_append]

/-! ### Reading the loop's pieces back -/

theorem trips_eq : k0_t1_loop.trips = 4 := by decide

theorem trip_lt (k : Fin k0_t1_loop.trips) : k.val < 4 := Nat.lt_of_lt_of_le k.isLt k0_t1_abs.2.1

/-- The trip as a batch row. -/
abbrev rowOf (k : Fin k0_t1_loop.trips) : Fin 4 := ⟨k.val, trip_lt k⟩

theorem off1_0 (k : Fin k0_t1_loop.trips) : k0_off1 k 0 = k.val := congrFun (k0_off1_eq k) 0
theorem off1_1 (k : Fin k0_t1_loop.trips) : k0_off1 k 1 = 0 := congrFun (k0_off1_eq k) 1
theorem off1_2 (k : Fin k0_t1_loop.trips) : k0_off1 k 2 = 0 := congrFun (k0_off1_eq k) 2
theorem off2_0 (k : Fin k0_t1_loop.trips) : k0_off2 k 0 = k.val := congrFun (k0_off2_eq k) 0
theorem off2_1 (k : Fin k0_t1_loop.trips) : k0_off2 k 1 = 0 := congrFun (k0_off2_eq k) 1
theorem off2_2 (k : Fin k0_t1_loop.trips) : k0_off2 k 2 = 0 := congrFun (k0_off2_eq k) 2
theorem off3_0 (i : grid0.Coords) (k : Fin k0_t1_loop.trips) : k0_off3 i k 0 = 4 * (i 0).val + k.val := congrFun (k0_off3_eq i k) 0
theorem off4_0 (k : Fin k0_t1_loop.trips) : k0_off4 k 0 = k.val := congrFun (k0_off4_eq k) 0
theorem off4_1 (k : Fin k0_t1_loop.trips) : k0_off4 k 1 = 0 := congrFun (k0_off4_eq k) 1
theorem off4_2 (k : Fin k0_t1_loop.trips) : k0_off4 k 2 = 0 := congrFun (k0_off4_eq k) 2
theorem off5_0 (k : Fin k0_t1_loop.trips) : k0_off5 k 0 = k.val := congrFun (k0_off5_eq k) 0
theorem off5_1 (k : Fin k0_t1_loop.trips) : k0_off5 k 1 = 0 := congrFun (k0_off5_eq k) 1
theorem off5_2 (k : Fin k0_t1_loop.trips) : k0_off5 k 2 = 0 := congrFun (k0_off5_eq k) 2
theorem off6_0 (k : Fin k0_t1_loop.trips) : k0_off6 k 0 = k.val := congrFun (k0_off6_eq k) 0
theorem off6_1 (k : Fin k0_t1_loop.trips) : k0_off6 k 1 = 0 := congrFun (k0_off6_eq k) 1
theorem off6_2 (k : Fin k0_t1_loop.trips) : k0_off6 k 2 = 128 := congrFun (k0_off6_eq k) 2
theorem off7_0 (k : Fin k0_t1_loop.trips) : k0_off7 k 0 = k.val := congrFun (k0_off7_eq k) 0
theorem off7_1 (k : Fin k0_t1_loop.trips) : k0_off7 k 1 = 0 := congrFun (k0_off7_eq k) 1
theorem off7_2 (k : Fin k0_t1_loop.trips) : k0_off7 k 2 = 256 := congrFun (k0_off7_eq k) 2
theorem off8_0 (k : Fin k0_t1_loop.trips) : k0_off8 k 0 = k.val := congrFun (k0_off8_eq k) 0
theorem off8_1 (k : Fin k0_t1_loop.trips) : k0_off8 k 1 = 0 := congrFun (k0_off8_eq k) 1
theorem off8_2 (k : Fin k0_t1_loop.trips) : k0_off8 k 2 = 384 := congrFun (k0_off8_eq k) 2

/-- A load of a whole block through the rectangle at zero offsets reads the block. -/
theorem ld_whole {S : Shape} {e : EltTy} (arg : Memref sig .tc .vmem S e) (h : arg.IsWhole) (x : S.Idx → Elt F e)
    {off : Fin S.rank → Nat} (hz : off = fun _ => 0) (inb : ∀ a, off a + S.size a ≤ S.size a) :
    arg.view.readAt (Elt F) (Rect.unit off S.size inb).toLoadRect (h.unread x) = x := by
  rw [View.readAt_eq_ld, h.read_unread]
  subst hz; funext y
  show x ((Rect.whole S).emb y) = x y
  rw [Rect.emb_whole_apply]

/-- Trip k's load of the context block is batch row k. -/
theorem ldC_eq (arg3 : Memref sig .tc .vmem S4x1024x128 .f32) (harg3 : arg3.IsWhole) (x3 : Vec F S4x1024x128 .f32) (k : Fin k0_t1_loop.trips) :
    ldC arg3 (harg3.unread x3) k = cRow x3 (rowOf k) := by
  show arg3.view.readAt (Elt F) (Rect.unit (s := S4x1024x128) (k0_off1 k) S1x1024x128.size (k0_off1_inb k)).toLoadRect (harg3.unread x3) = _
  rw [View.readAt_eq_ld, harg3.read_unread]
  funext x
  show x3 ((Rect.unit (s := S4x1024x128) (k0_off1 k) S1x1024x128.size (k0_off1_inb k)).idx x) = x3 (ix3 (rowOf k) (x 1) (x 2))
  congr 1
  funext a
  match a with
  | ⟨0, _⟩ =>
    apply Fin.ext
    show k0_off1 k 0 + 1 * (x 0).val = k.val
    have h0 : (x 0).val < 1 := (x 0).isLt
    rw [off1_0]; omega
  | ⟨1, _⟩ =>
    apply Fin.ext
    show k0_off1 k 1 + 1 * (x 1).val = (x 1).val
    rw [off1_1]; omega
  | ⟨2, _⟩ =>
    apply Fin.ext
    show k0_off1 k 2 + 1 * (x 2).val = (x 2).val
    rw [off1_2]; omega

/-- Trip k's load of the question block is batch row k. -/
theorem ldQ_eq (arg4 : Memref sig .tc .vmem S4x128x128 .f32) (harg4 : arg4.IsWhole) (x4 : Vec F S4x128x128 .f32) (k : Fin k0_t1_loop.trips) :
    ldQ arg4 (harg4.unread x4) k = qRow x4 (rowOf k) := by
  show arg4.view.readAt (Elt F) (Rect.unit (s := S4x128x128) (k0_off2 k) S1x128x128.size (k0_off2_inb k)).toLoadRect (harg4.unread x4) = _
  rw [View.readAt_eq_ld, harg4.read_unread]
  funext x
  show x4 ((Rect.unit (s := S4x128x128) (k0_off2 k) S1x128x128.size (k0_off2_inb k)).idx x) = x4 (ix3 (rowOf k) (x 1) (x 2))
  congr 1
  funext a
  match a with
  | ⟨0, _⟩ =>
    apply Fin.ext
    show k0_off2 k 0 + 1 * (x 0).val = k.val
    have h0 : (x 0).val < 1 := (x 0).isLt
    rw [off2_0]; omega
  | ⟨1, _⟩ =>
    apply Fin.ext
    show k0_off2 k 1 + 1 * (x 1).val = (x 1).val
    rw [off2_1]; omega
  | ⟨2, _⟩ =>
    apply Fin.ext
    show k0_off2 k 2 + 1 * (x 2).val = (x 2).val
    rw [off2_2]; omega

/-- Trip k's word of a table is the table's word for batch row k at the grid coordinate. -/
theorem ldW_eq (c : Dev nD) (M : Memref sig .tc .smem S64 .i32) (X : TbBuf (F := F) c M) (i : grid0.Coords) (k : Fin k0_t1_loop.trips) :
    ldW c M X i k = lenAt c M X i (rowOf k) := by
  show M.view.readAt (Elt F) (Rect.unit (s := S64) (k0_off3 i k) S1.size (k0_off3_inb i k)).toLoadRect X (Shape.Idx.first (numel1_S1.symm ▸ Nat.one_pos)) = _
  rw [View.readAt_eq_ld]
  show M.view.read (Elt F) X ((Rect.unit (s := S64) (k0_off3 i k) S1.size (k0_off3_inb i k)).idx (Shape.Idx.first (numel1_S1.symm ▸ Nat.one_pos))) = M.view.read (Elt F) X (ix1 (⟨(4 * (i 0).val + (rowOf k).val) % 64, Nat.mod_lt _ (by decide)⟩ : Fin 64))
  congr 1
  funext a
  match a with
  | ⟨0, _⟩ =>
    apply Fin.ext
    show k0_off3 i k 0 + 1 * 0 = (4 * (i 0).val + k.val) % 64
    have hi : (i 0).val < 16 := (i 0).isLt
    have hk := trip_lt k
    rw [off3_0, Nat.mod_eq_of_lt (by omega)]; omega

/-- The block of softmaxes over the question axis at an index of batch row kk is the trip's payload at the index inside the row. -/
theorem sbar_at (x3 : Vec F S4x1024x128 .f32) (x4 : Vec F S4x128x128 .f32) (x5 x6 : Vec F S128x1 .f32) (x7 : Vec F S1x1x128 .f32) (wq : Fin 4 → Elt F .i32)
    (kk : Fin 4) (j : S4x1024x128.Idx) (x : S1x1024x128.Idx) (h0 : (j 0).val = kk.val) (h1 : (j 1).val = (x 1).val) (h2 : (j 2).val = (x 2).val) :
    k0_pay18 (scoreRow x3 x4 x5 x6 x7 kk) (k0_pay15 (wq kk)) x = sbarBlk x3 x4 x5 x6 x7 wq j := by
  have e : j 0 = kk := Fin.ext h0
  show _ = k0_pay18 (scoreRow x3 x4 x5 x6 x7 (j 0)) (k0_pay15 (wq (j 0))) (ix3 0 (j 1) (j 2))
  rw [e]
  refine congrArg (k0_pay18 (scoreRow x3 x4 x5 x6 x7 kk) (k0_pay15 (wq kk))) ?_
  funext a
  match a with
  | ⟨0, _⟩ => apply Fin.ext; show (x 0).val = 0; have h : (x 0).val < 1 := (x 0).isLt; omega
  | ⟨1, _⟩ => apply Fin.ext; exact h1.symm
  | ⟨2, _⟩ => apply Fin.ext; exact h2.symm

/-- The same for the block of softmaxes over the context axis. -/
theorem st_at (x3 : Vec F S4x1024x128 .f32) (x4 : Vec F S4x128x128 .f32) (x5 x6 : Vec F S128x1 .f32) (x7 : Vec F S1x1x128 .f32) (wc : Fin 4 → Elt F .i32)
    (kk : Fin 4) (j : S4x128x1024.Idx) (x : S1x128x1024.Idx) (h0 : (j 0).val = kk.val) (h1 : (j 1).val = (x 1).val) (h2 : (j 2).val = (x 2).val) :
    k0_pay19 (scoreRowT x3 x4 x5 x6 x7 kk) (k0_pay14 (wc kk)) x = stBlk x3 x4 x5 x6 x7 wc j := by
  have e : j 0 = kk := Fin.ext h0
  show _ = k0_pay19 (scoreRowT x3 x4 x5 x6 x7 (j 0)) (k0_pay14 (wc (j 0))) (ix3 0 (j 1) (j 2))
  rw [e]
  refine congrArg (k0_pay19 (scoreRowT x3 x4 x5 x6 x7 kk) (k0_pay14 (wc kk))) ?_
  funext a
  match a with
  | ⟨0, _⟩ => apply Fin.ext; show (x 0).val = 0; have h : (x 0).val < 1 := (x 0).isLt; omega
  | ⟨1, _⟩ => apply Fin.ext; exact h1.symm
  | ⟨2, _⟩ => apply Fin.ext; exact h2.symm

/-- An index inside a row from an index of the block whose last coordinate is shifted by g. -/
theorem ix_sub (j : S4x1024x512.Idx) (x : S1x1024x128.Idx) (g : ℕ) (h1 : (j 1).val = (x 1).val) (h2 : (j 2).val = g + (x 2).val) (hb : (j 2).val - g < 128) :
    x = ix3 (0 : Fin 1) (j 1) (⟨(j 2).val - g, hb⟩ : Fin 128) := by
  funext a
  match a with
  | ⟨0, _⟩ => apply Fin.ext; show (x 0).val = 0; have h : (x 0).val < 1 := (x 0).isLt; omega
  | ⟨1, _⟩ => apply Fin.ext; exact h1.symm
  | ⟨2, _⟩ => apply Fin.ext; show (x 2).val = (j 2).val - g; omega

/-- The result block at an index of batch row kk in each of its four column groups. -/
theorem res_at0 (x3 : Vec F S4x1024x128 .f32) (x4 : Vec F S4x128x128 .f32) (x5 x6 : Vec F S128x1 .f32) (x7 : Vec F S1x1x128 .f32) (wc wq : Fin 4 → Elt F .i32)
    (kk : Fin 4) (j : S4x1024x512.Idx) (x : S1x1024x128.Idx) (h0 : (j 0).val = kk.val) (h1 : (j 1).val = (x 1).val) (h2 : (j 2).val = 0 + (x 2).val) :
    k0_pay4 (k0_pay8 (cRow x3 kk)) x = resBlk x3 x4 x5 x6 x7 wc wq j := by
  have e : j 0 = kk := Fin.ext h0
  have hx : (x 2).val < 128 := (x 2).isLt
  have c1 : (j 2).val < 128 := by omega
  unfold resBlk
  rw [dif_pos c1, e]
  exact congrArg (k0_pay4 (k0_pay8 (cRow x3 kk))) (ix_sub j x 0 h1 h2 (by omega))

theorem res_at1 (x3 : Vec F S4x1024x128 .f32) (x4 : Vec F S4x128x128 .f32) (x5 x6 : Vec F S128x1 .f32) (x7 : Vec F S1x1x128 .f32) (wc wq : Fin 4 → Elt F .i32)
    (kk : Fin 4) (j : S4x1024x512.Idx) (x : S1x1024x128.Idx) (h0 : (j 0).val = kk.val) (h1 : (j 1).val = (x 1).val) (h2 : (j 2).val = 128 + (x 2).val) :
    k0_pay5 (c2qRow x3 x4 x5 x6 x7 wq kk) x = resBlk x3 x4 x5 x6 x7 wc wq j := by
  have e : j 0 = kk := Fin.ext h0
  have hx : (x 2).val < 128 := (x 2).isLt
  have c1 : ¬ (j 2).val < 128 := by omega
  have c2 : (j 2).val < 256 := by omega
  unfold resBlk
  rw [dif_neg c1, dif_pos c2, e]
  exact congrArg (k0_pay5 (c2qRow x3 x4 x5 x6 x7 wq kk)) (ix_sub j x 128 h1 h2 (by omega))

theorem res_at2 (x3 : Vec F S4x1024x128 .f32) (x4 : Vec F S4x128x128 .f32) (x5 x6 : Vec F S128x1 .f32) (x7 : Vec F S1x1x128 .f32) (wc wq : Fin 4 → Elt F .i32)
    (kk : Fin 4) (j : S4x1024x512.Idx) (x : S1x1024x128.Idx) (h0 : (j 0).val = kk.val) (h1 : (j 1).val = (x 1).val) (h2 : (j 2).val = 256 + (x 2).val) :
    k0_pay6 (k0_pay8 (cRow x3 kk)) (c2qRow x3 x4 x5 x6 x7 wq kk) x = resBlk x3 x4 x5 x6 x7 wc wq j := by
  have e : j 0 = kk := Fin.ext h0
  have hx : (x 2).val < 128 := (x 2).isLt
  have c1 : ¬ (j 2).val < 128 := by omega
  have c2 : ¬ (j 2).val < 256 := by omega
  have c3 : (j 2).val < 384 := by omega
  unfold resBlk
  rw [dif_neg c1, dif_neg c2, dif_pos c3, e]
  exact congrArg (k0_pay6 (k0_pay8 (cRow x3 kk)) (c2qRow x3 x4 x5 x6 x7 wq kk)) (ix_sub j x 256 h1 h2 (by omega))

theorem res_at3 (x3 : Vec F S4x1024x128 .f32) (x4 : Vec F S4x128x128 .f32) (x5 x6 : Vec F S128x1 .f32) (x7 : Vec F S1x1x128 .f32) (wc wq : Fin 4 → Elt F .i32)
    (kk : Fin 4) (j : S4x1024x512.Idx) (x : S1x1024x128.Idx) (h0 : (j 0).val = kk.val) (h1 : (j 1).val = (x 1).val) (h2 : (j 2).val = 384 + (x 2).val) :
    k0_pay7 (k0_pay8 (cRow x3 kk)) (q2cRow x3 x4 x5 x6 x7 wc wq kk) x = resBlk x3 x4 x5 x6 x7 wc wq j := by
  have e : j 0 = kk := Fin.ext h0
  have hx : (x 2).val < 128 := (x 2).isLt
  have c1 : ¬ (j 2).val < 128 := by omega
  have c2 : ¬ (j 2).val < 256 := by omega
  have c3 : ¬ (j 2).val < 384 := by omega
  unfold resBlk
  rw [dif_neg c1, dif_neg c2, dif_neg c3, e]
  exact congrArg (k0_pay7 (k0_pay8 (cRow x3 kk)) (q2cRow x3 x4 x5 x6 x7 wc wq kk)) (ix_sub j x 384 h1 h2 (by omega))

/-- Every piece of trip k into the block of softmaxes over the question axis is that block's function at the piece's indices. -/
theorem P9_pieces (c : Dev nD) (i : grid0.Coords) (arg3 : Memref sig .tc .vmem S4x1024x128 .f32) (harg3 : arg3.IsWhole) (arg4 : Memref sig .tc .vmem S4x128x128 .f32) (harg4 : arg4.IsWhole)
    (v0 v2 : Vec F S128x1 .f32) (v4 : Vec F S1x1x128 .f32) (X2 : TbBuf (F := F) c tbQ) (x3 : Vec F S4x1024x128 .f32) (x4 : Vec F S4x128x128 .f32) (k : Fin k0_t1_loop.trips) :
    ∀ p ∈ P9 c i arg3 arg4 v0 v2 v4 X2 (harg3.unread x3) (harg4.unread x4) k, ∀ x : p.1.shape.Idx,
      p.2 x = sbarBlk x3 x4 v0 v2 v4 (lenAt c tbQ X2 i) (p.1.emb x) := by
  intro p hp
  rw [List.mem_singleton] at hp
  subst hp
  intro x
  show k0_pay18 (k0_pay12 (k0_pay1 v0) (k0_pay2 v2) (k0_pay3 v4) (ldC arg3 (harg3.unread x3) k) (ldQ arg4 (harg4.unread x4) k)) (k0_pay15 (ldW c tbQ X2 i k)) x = _
  rw [ldC_eq, ldQ_eq, ldW_eq]
  refine sbar_at x3 x4 v0 v2 v4 (lenAt c tbQ X2 i) (rowOf k) _ x ?_ ?_ ?_
  · show k0_off1 k 0 + 1 * (x 0).val = k.val
    have h : (x 0).val < 1 := (x 0).isLt
    rw [off1_0]; omega
  · show k0_off1 k 1 + 1 * (x 1).val = (x 1).val
    rw [off1_1]; omega
  · show k0_off1 k 2 + 1 * (x 2).val = (x 2).val
    rw [off1_2]; omega

theorem P10_pieces (c : Dev nD) (i : grid0.Coords) (arg3 : Memref sig .tc .vmem S4x1024x128 .f32) (harg3 : arg3.IsWhole) (arg4 : Memref sig .tc .vmem S4x128x128 .f32) (harg4 : arg4.IsWhole)
    (v0 v2 : Vec F S128x1 .f32) (v4 : Vec F S1x1x128 .f32) (X1 : TbBuf (F := F) c tbC) (x3 : Vec F S4x1024x128 .f32) (x4 : Vec F S4x128x128 .f32) (k : Fin k0_t1_loop.trips) :
    ∀ p ∈ P10 c i arg3 arg4 v0 v2 v4 X1 (harg3.unread x3) (harg4.unread x4) k, ∀ x : p.1.shape.Idx,
      p.2 x = stBlk x3 x4 v0 v2 v4 (lenAt c tbC X1 i) (p.1.emb x) := by
  intro p hp
  rw [List.mem_singleton] at hp
  subst hp
  intro x
  show k0_pay19 (k0_pay13 (k0_pay1 v0) (k0_pay2 v2) (k0_pay3 v4) (ldC arg3 (harg3.unread x3) k) (ldQ arg4 (harg4.unread x4) k)) (k0_pay14 (ldW c tbC X1 i k)) x = _
  rw [ldC_eq, ldQ_eq, ldW_eq]
  refine st_at x3 x4 v0 v2 v4 (lenAt c tbC X1 i) (rowOf k) _ x ?_ ?_ ?_
  · show k0_off4 k 0 + 1 * (x 0).val = k.val
    have h : (x 0).val < 1 := (x 0).isLt
    rw [off4_0]; omega
  · show k0_off4 k 1 + 1 * (x 1).val = (x 1).val
    rw [off4_1]; omega
  · show k0_off4 k 2 + 1 * (x 2).val = (x 2).val
    rw [off4_2]; omega

theorem P8_pieces (c : Dev nD) (i : grid0.Coords) (arg3 : Memref sig .tc .vmem S4x1024x128 .f32) (harg3 : arg3.IsWhole) (arg4 : Memref sig .tc .vmem S4x128x128 .f32) (harg4 : arg4.IsWhole)
    (v0 v2 : Vec F S128x1 .f32) (v4 : Vec F S1x1x128 .f32) (X1 : TbBuf (F := F) c tbC) (X2 : TbBuf (F := F) c tbQ) (x3 : Vec F S4x1024x128 .f32) (x4 : Vec F S4x128x128 .f32) (k : Fin k0_t1_loop.trips) :
    ∀ p ∈ P8 c i arg3 arg4 v0 v2 v4 X1 X2 (harg3.unread x3) (harg4.unread x4) k, ∀ x : p.1.shape.Idx,
      p.2 x = resBlk x3 x4 v0 v2 v4 (lenAt c tbC X1 i) (lenAt c tbQ X2 i) (p.1.emb x) := by
  intro p hp
  simp only [List.mem_cons, List.not_mem_nil, or_false] at hp
  rcases hp with rfl | rfl | rfl | rfl
  · intro x
    show k0_pay7 (k0_pay8 (ldC arg3 (harg3.unread x3) k)) (k0_pay22 (k0_pay9 (ldC arg3 (harg3.unread x3) k)) (k0_pay12 (k0_pay1 v0) (k0_pay2 v2) (k0_pay3 v4) (ldC arg3 (harg3.unread x3) k) (ldQ arg4 (harg4.unread x4) k)) (k0_pay13 (k0_pay1 v0) (k0_pay2 v2) (k0_pay3 v4) (ldC arg3 (harg3.unread x3) k) (ldQ arg4 (harg4.unread x4) k)) (k0_pay14 (ldW c tbC X1 i k)) (k0_pay15 (ldW c tbQ X2 i k))) x = _
    rw [ldC_eq, ldQ_eq, ldW_eq, ldW_eq]
    refine res_at3 x3 x4 v0 v2 v4 (lenAt c tbC X1 i) (lenAt c tbQ X2 i) (rowOf k) _ x ?_ ?_ ?_
    · show k0_off8 k 0 + 1 * (x 0).val = k.val
      have h : (x 0).val < 1 := (x 0).isLt
      rw [off8_0]; omega
    · show k0_off8 k 1 + 1 * (x 1).val = (x 1).val
      rw [off8_1]; omega
    · show k0_off8 k 2 + 1 * (x 2).val = 384 + (x 2).val
      rw [off8_2]; omega
  · intro x
    show k0_pay6 (k0_pay8 (ldC arg3 (harg3.unread x3) k)) (k0_pay21 (k0_pay10 (ldQ arg4 (harg4.unread x4) k)) (k0_pay12 (k0_pay1 v0) (k0_pay2 v2) (k0_pay3 v4) (ldC arg3 (harg3.unread x3) k) (ldQ arg4 (harg4.unread x4) k)) (k0_pay15 (ldW c tbQ X2 i k))) x = _
    rw [ldC_eq, ldQ_eq, ldW_eq]
    refine res_at2 x3 x4 v0 v2 v4 (lenAt c tbC X1 i) (lenAt c tbQ X2 i) (rowOf k) _ x ?_ ?_ ?_
    · show k0_off7 k 0 + 1 * (x 0).val = k.val
      have h : (x 0).val < 1 := (x 0).isLt
      rw [off7_0]; omega
    · show k0_off7 k 1 + 1 * (x 1).val = (x 1).val
      rw [off7_1]; omega
    · show k0_off7 k 2 + 1 * (x 2).val = 256 + (x 2).val
      rw [off7_2]; omega
  · intro x
    show k0_pay5 (k0_pay21 (k0_pay10 (ldQ arg4 (harg4.unread x4) k)) (k0_pay12 (k0_pay1 v0) (k0_pay2 v2) (k0_pay3 v4) (ldC arg3 (harg3.unread x3) k) (ldQ arg4 (harg4.unread x4) k)) (k0_pay15 (ldW c tbQ X2 i k))) x = _
    rw [ldC_eq, ldQ_eq, ldW_eq]
    refine res_at1 x3 x4 v0 v2 v4 (lenAt c tbC X1 i) (lenAt c tbQ X2 i) (rowOf k) _ x ?_ ?_ ?_
    · show k0_off6 k 0 + 1 * (x 0).val = k.val
      have h : (x 0).val < 1 := (x 0).isLt
      rw [off6_0]; omega
    · show k0_off6 k 1 + 1 * (x 1).val = (x 1).val
      rw [off6_1]; omega
    · show k0_off6 k 2 + 1 * (x 2).val = 128 + (x 2).val
      rw [off6_2]; omega
  · intro x
    show k0_pay4 (k0_pay8 (ldC arg3 (harg3.unread x3) k)) x = _
    rw [ldC_eq]
    refine res_at0 x3 x4 v0 v2 v4 (lenAt c tbC X1 i) (lenAt c tbQ X2 i) (rowOf k) _ x ?_ ?_ ?_
    · show k0_off5 k 0 + 1 * (x 0).val = k.val
      have h : (x 0).val < 1 := (x 0).isLt
      rw [off5_0]; omega
    · show k0_off5 k 1 + 1 * (x 1).val = (x 1).val
      rw [off5_1]; omega
    · show k0_off5 k 2 + 1 * (x 2).val = 0 + (x 2).val
      rw [off5_2]; omega

/-- The batch row of an index, as a trip. -/
def tripOf (n : ℕ) (h : n < 4) : Fin k0_t1_loop.trips := ⟨n, by rw [trips_eq]; exact h⟩

/-- The four trips' pieces cover each output block: an index of batch row r lies in trip r's piece (for the result block,
    in the piece of its column group). -/
theorem P9_cover (c : Dev nD) (i : grid0.Coords) (arg3 : Memref sig .tc .vmem S4x1024x128 .f32) (arg4 : Memref sig .tc .vmem S4x128x128 .f32)
    (v0 v2 : Vec F S128x1 .f32) (v4 : Vec F S1x1x128 .f32) (X2 : TbBuf (F := F) c tbQ) (X3 : BufTy.Contents (Elt F) arg3.view.ty) (X4 : BufTy.Contents (Elt F) arg4.view.ty) (y : S4x1024x128.Idx) :
    ∃ p ∈ piecesBefore (P9 c i arg3 arg4 v0 v2 v4 X2 X3 X4) k0_t1_loop.trips, y ∈ p.1.set := by
  have hy0 : (y 0).val < 4 := (y 0).isLt
  have hy1 : (y 1).val < 1024 := (y 1).isLt
  have hy2 : (y 2).val < 128 := (y 2).isLt
  refine ⟨_, (mem_piecesBefore _ _ _).mpr ⟨tripOf (y 0).val hy0, (tripOf (y 0).val hy0).isLt, List.mem_singleton_self _⟩, ?_⟩
  rw [Rect.mem_set_unit]
  intro a
  match a with
  | ⟨0, _⟩ =>
    show k0_off1 (tripOf (y 0).val hy0) 0 ≤ (y 0).val ∧ (y 0).val < k0_off1 (tripOf (y 0).val hy0) 0 + 1
    rw [off1_0]; show (y 0).val ≤ (y 0).val ∧ (y 0).val < (y 0).val + 1; omega
  | ⟨1, _⟩ =>
    show k0_off1 (tripOf (y 0).val hy0) 1 ≤ (y 1).val ∧ (y 1).val < k0_off1 (tripOf (y 0).val hy0) 1 + 1024
    rw [off1_1]; omega
  | ⟨2, _⟩ =>
    show k0_off1 (tripOf (y 0).val hy0) 2 ≤ (y 2).val ∧ (y 2).val < k0_off1 (tripOf (y 0).val hy0) 2 + 128
    rw [off1_2]; omega

theorem P10_cover (c : Dev nD) (i : grid0.Coords) (arg3 : Memref sig .tc .vmem S4x1024x128 .f32) (arg4 : Memref sig .tc .vmem S4x128x128 .f32)
    (v0 v2 : Vec F S128x1 .f32) (v4 : Vec F S1x1x128 .f32) (X1 : TbBuf (F := F) c tbC) (X3 : BufTy.Contents (Elt F) arg3.view.ty) (X4 : BufTy.Contents (Elt F) arg4.view.ty) (y : S4x128x1024.Idx) :
    ∃ p ∈ piecesBefore (P10 c i arg3 arg4 v0 v2 v4 X1 X3 X4) k0_t1_loop.trips, y ∈ p.1.set := by
  have hy0 : (y 0).val < 4 := (y 0).isLt
  have hy1 : (y 1).val < 128 := (y 1).isLt
  have hy2 : (y 2).val < 1024 := (y 2).isLt
  refine ⟨_, (mem_piecesBefore _ _ _).mpr ⟨tripOf (y 0).val hy0, (tripOf (y 0).val hy0).isLt, List.mem_singleton_self _⟩, ?_⟩
  rw [Rect.mem_set_unit]
  intro a
  match a with
  | ⟨0, _⟩ =>
    show k0_off4 (tripOf (y 0).val hy0) 0 ≤ (y 0).val ∧ (y 0).val < k0_off4 (tripOf (y 0).val hy0) 0 + 1
    rw [off4_0]; show (y 0).val ≤ (y 0).val ∧ (y 0).val < (y 0).val + 1; omega
  | ⟨1, _⟩ =>
    show k0_off4 (tripOf (y 0).val hy0) 1 ≤ (y 1).val ∧ (y 1).val < k0_off4 (tripOf (y 0).val hy0) 1 + 128
    rw [off4_1]; omega
  | ⟨2, _⟩ =>
    show k0_off4 (tripOf (y 0).val hy0) 2 ≤ (y 2).val ∧ (y 2).val < k0_off4 (tripOf (y 0).val hy0) 2 + 1024
    rw [off4_2]; omega

theorem P8_cover (c : Dev nD) (i : grid0.Coords) (arg3 : Memref sig .tc .vmem S4x1024x128 .f32) (arg4 : Memref sig .tc .vmem S4x128x128 .f32)
    (v0 v2 : Vec F S128x1 .f32) (v4 : Vec F S1x1x128 .f32) (X1 : TbBuf (F := F) c tbC) (X2 : TbBuf (F := F) c tbQ) (X3 : BufTy.Contents (Elt F) arg3.view.ty) (X4 : BufTy.Contents (Elt F) arg4.view.ty) (y : S4x1024x512.Idx) :
    ∃ p ∈ piecesBefore (P8 c i arg3 arg4 v0 v2 v4 X1 X2 X3 X4) k0_t1_loop.trips, y ∈ p.1.set := by
  have hy0 : (y 0).val < 4 := (y 0).isLt
  have hy1 : (y 1).val < 1024 := (y 1).isLt
  have hy2 : (y 2).val < 512 := (y 2).isLt
  by_cases c1 : (y 2).val < 128
  · refine ⟨_, (mem_piecesBefore _ _ _).mpr ⟨tripOf (y 0).val hy0, (tripOf (y 0).val hy0).isLt,
      List.mem_cons_of_mem _ (List.mem_cons_of_mem _ (List.mem_cons_of_mem _ (List.mem_singleton_self _)))⟩, ?_⟩
    rw [Rect.mem_set_unit]
    intro a
    match a with
    | ⟨0, _⟩ =>
      show k0_off5 (tripOf (y 0).val hy0) 0 ≤ (y 0).val ∧ (y 0).val < k0_off5 (tripOf (y 0).val hy0) 0 + 1
      rw [off5_0]; show (y 0).val ≤ (y 0).val ∧ (y 0).val < (y 0).val + 1; omega
    | ⟨1, _⟩ =>
      show k0_off5 (tripOf (y 0).val hy0) 1 ≤ (y 1).val ∧ (y 1).val < k0_off5 (tripOf (y 0).val hy0) 1 + 1024
      rw [off5_1]; omega
    | ⟨2, _⟩ =>
      show k0_off5 (tripOf (y 0).val hy0) 2 ≤ (y 2).val ∧ (y 2).val < k0_off5 (tripOf (y 0).val hy0) 2 + 128
      rw [off5_2]; omega
  by_cases c2 : (y 2).val < 256
  · refine ⟨_, (mem_piecesBefore _ _ _).mpr ⟨tripOf (y 0).val hy0, (tripOf (y 0).val hy0).isLt,
      List.mem_cons_of_mem _ (List.mem_cons_of_mem _ List.mem_cons_self)⟩, ?_⟩
    rw [Rect.mem_set_unit]
    intro a
    match a with
    | ⟨0, _⟩ =>
      show k0_off6 (tripOf (y 0).val hy0) 0 ≤ (y 0).val ∧ (y 0).val < k0_off6 (tripOf (y 0).val hy0) 0 + 1
      rw [off6_0]; show (y 0).val ≤ (y 0).val ∧ (y 0).val < (y 0).val + 1; omega
    | ⟨1, _⟩ =>
      show k0_off6 (tripOf (y 0).val hy0) 1 ≤ (y 1).val ∧ (y 1).val < k0_off6 (tripOf (y 0).val hy0) 1 + 1024
      rw [off6_1]; omega
    | ⟨2, _⟩ =>
      show k0_off6 (tripOf (y 0).val hy0) 2 ≤ (y 2).val ∧ (y 2).val < k0_off6 (tripOf (y 0).val hy0) 2 + 128
      rw [off6_2]; omega
  by_cases c3 : (y 2).val < 384
  · refine ⟨_, (mem_piecesBefore _ _ _).mpr ⟨tripOf (y 0).val hy0, (tripOf (y 0).val hy0).isLt,
      List.mem_cons_of_mem _ List.mem_cons_self⟩, ?_⟩
    rw [Rect.mem_set_unit]
    intro a
    match a with
    | ⟨0, _⟩ =>
      show k0_off7 (tripOf (y 0).val hy0) 0 ≤ (y 0).val ∧ (y 0).val < k0_off7 (tripOf (y 0).val hy0) 0 + 1
      rw [off7_0]; show (y 0).val ≤ (y 0).val ∧ (y 0).val < (y 0).val + 1; omega
    | ⟨1, _⟩ =>
      show k0_off7 (tripOf (y 0).val hy0) 1 ≤ (y 1).val ∧ (y 1).val < k0_off7 (tripOf (y 0).val hy0) 1 + 1024
      rw [off7_1]; omega
    | ⟨2, _⟩ =>
      show k0_off7 (tripOf (y 0).val hy0) 2 ≤ (y 2).val ∧ (y 2).val < k0_off7 (tripOf (y 0).val hy0) 2 + 128
      rw [off7_2]; omega
  · refine ⟨_, (mem_piecesBefore _ _ _).mpr ⟨tripOf (y 0).val hy0, (tripOf (y 0).val hy0).isLt, List.mem_cons_self⟩, ?_⟩
    rw [Rect.mem_set_unit]
    intro a
    match a with
    | ⟨0, _⟩ =>
      show k0_off8 (tripOf (y 0).val hy0) 0 ≤ (y 0).val ∧ (y 0).val < k0_off8 (tripOf (y 0).val hy0) 0 + 1
      rw [off8_0]; show (y 0).val ≤ (y 0).val ∧ (y 0).val < (y 0).val + 1; omega
    | ⟨1, _⟩ =>
      show k0_off8 (tripOf (y 0).val hy0) 1 ≤ (y 1).val ∧ (y 1).val < k0_off8 (tripOf (y 0).val hy0) 1 + 1024
      rw [off8_1]; omega
    | ⟨2, _⟩ =>
      show k0_off8 (tripOf (y 0).val hy0) 2 ≤ (y 2).val ∧ (y 2).val < k0_off8 (tripOf (y 0).val hy0) 2 + 128
      rw [off8_2]; omega

/-- What the loop leaves in each output block reads as the block's function, whatever the block held before. -/
theorem read9 (c : Dev nD) (i : grid0.Coords) (arg3 : Memref sig .tc .vmem S4x1024x128 .f32) (harg3 : arg3.IsWhole) (arg4 : Memref sig .tc .vmem S4x128x128 .f32) (harg4 : arg4.IsWhole)
    (arg9 : Memref sig .tc .vmem S4x1024x128 .f32) (v0 v2 : Vec F S128x1 .f32) (v4 : Vec F S1x1x128 .f32) (X2 : TbBuf (F := F) c tbQ) (x3 : Vec F S4x1024x128 .f32) (x4 : Vec F S4x128x128 .f32)
    (G9 : BufTy.Contents (Elt F) arg9.view.ty) :
    arg9.view.read (Elt F) (arg9.view.writes (Elt F) G9 (piecesBefore (P9 c i arg3 arg4 v0 v2 v4 X2 (harg3.unread x3) (harg4.unread x4)) k0_t1_loop.trips))
      = sbarBlk x3 x4 v0 v2 v4 (lenAt c tbQ X2 i) := by
  funext y
  refine View.read_writes_apply_of_pieces arg9.view G9 (sbarBlk x3 x4 v0 v2 v4 (lenAt c tbQ X2 i)) _ ?_ y (P9_cover c i arg3 arg4 v0 v2 v4 X2 _ _ y)
  intro p hp
  obtain ⟨k, -, hpk⟩ := (mem_piecesBefore _ _ _).mp hp
  exact P9_pieces c i arg3 harg3 arg4 harg4 v0 v2 v4 X2 x3 x4 k p hpk

theorem read10 (c : Dev nD) (i : grid0.Coords) (arg3 : Memref sig .tc .vmem S4x1024x128 .f32) (harg3 : arg3.IsWhole) (arg4 : Memref sig .tc .vmem S4x128x128 .f32) (harg4 : arg4.IsWhole)
    (arg10 : Memref sig .tc .vmem S4x128x1024 .f32) (v0 v2 : Vec F S128x1 .f32) (v4 : Vec F S1x1x128 .f32) (X1 : TbBuf (F := F) c tbC) (x3 : Vec F S4x1024x128 .f32) (x4 : Vec F S4x128x128 .f32)
    (G10 : BufTy.Contents (Elt F) arg10.view.ty) :
    arg10.view.read (Elt F) (arg10.view.writes (Elt F) G10 (piecesBefore (P10 c i arg3 arg4 v0 v2 v4 X1 (harg3.unread x3) (harg4.unread x4)) k0_t1_loop.trips))
      = stBlk x3 x4 v0 v2 v4 (lenAt c tbC X1 i) := by
  funext y
  refine View.read_writes_apply_of_pieces arg10.view G10 (stBlk x3 x4 v0 v2 v4 (lenAt c tbC X1 i)) _ ?_ y (P10_cover c i arg3 arg4 v0 v2 v4 X1 _ _ y)
  intro p hp
  obtain ⟨k, -, hpk⟩ := (mem_piecesBefore _ _ _).mp hp
  exact P10_pieces c i arg3 harg3 arg4 harg4 v0 v2 v4 X1 x3 x4 k p hpk

theorem read8 (c : Dev nD) (i : grid0.Coords) (arg3 : Memref sig .tc .vmem S4x1024x128 .f32) (harg3 : arg3.IsWhole) (arg4 : Memref sig .tc .vmem S4x128x128 .f32) (harg4 : arg4.IsWhole)
    (arg8 : Memref sig .tc .vmem S4x1024x512 .f32) (v0 v2 : Vec F S128x1 .f32) (v4 : Vec F S1x1x128 .f32) (X1 : TbBuf (F := F) c tbC) (X2 : TbBuf (F := F) c tbQ) (x3 : Vec F S4x1024x128 .f32) (x4 : Vec F S4x128x128 .f32)
    (G8 : BufTy.Contents (Elt F) arg8.view.ty) :
    arg8.view.read (Elt F) (arg8.view.writes (Elt F) G8 (piecesBefore (P8 c i arg3 arg4 v0 v2 v4 X1 X2 (harg3.unread x3) (harg4.unread x4)) k0_t1_loop.trips))
      = resBlk x3 x4 v0 v2 v4 (lenAt c tbC X1 i) (lenAt c tbQ X2 i) := by
  funext y
  refine View.read_writes_apply_of_pieces arg8.view G8 (resBlk x3 x4 v0 v2 v4 (lenAt c tbC X1 i) (lenAt c tbQ X2 i)) _ ?_ y (P8_cover c i arg3 arg4 v0 v2 v4 X1 X2 _ _ y)
  intro p hp
  obtain ⟨k, -, hpk⟩ := (mem_piecesBefore _ _ _).mp hp
  exact P8_pieces c i arg3 harg3 arg4 harg4 v0 v2 v4 X1 X2 x3 x4 k p hpk

end Trip

open Trip

set_option maxHeartbeats 1000000 in
/-- THE BODY at grid coordinate i on any whole staging memrefs: holding the five input blocks at their contents, the
    three output blocks at anything and the two tables at half share, it runs to its end holding the inputs and the
    tables as they were and the outputs at the three block functions above. -/
theorem bodyRun (c : Dev nD) (i : grid0.Coords) (arg3 : Memref sig .tc .vmem S4x1024x128 .f32) (harg3 : arg3.IsWhole) (arg4 : Memref sig .tc .vmem S4x128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x1x128 .f32) (harg7 : arg7.IsWhole) (arg8 : Memref sig .tc .vmem S4x1024x512 .f32) (harg8 : arg8.IsWhole) (arg9 : Memref sig .tc .vmem S4x1024x128 .f32) (harg9 : arg9.IsWhole) (arg10 : Memref sig .tc .vmem S4x128x1024 .f32) (harg10 : arg10.IsWhole)
    (x3 : Vec F S4x1024x128 .f32) (x4 : Vec F S4x128x128 .f32) (x5 x6 : Vec F S128x1 .f32) (x7 : Vec F S1x1x128 .f32) (xtC : TbBuf (F := F) c tbC) (xtQ : TbBuf (F := F) c tbQ) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ tbPt c tbC xtC ∗ tbPt c tbQ xtQ
        ∗ (iprop(owns (c : Thread nD τ) arg3 fullShare x3 ∗ owns (c : Thread nD τ) arg4 fullShare x4 ∗ owns (c : Thread nD τ) arg5 fullShare x5
              ∗ owns (c : Thread nD τ) arg6 fullShare x6 ∗ owns (c : Thread nD τ) arg7 fullShare x7
              ∗ owns (c : Thread nD τ) arg8 fullShare (resBlk x3 x4 x5 x6 x7 (lenAt c tbC xtC i) (lenAt c tbQ xtQ i))
              ∗ owns (c : Thread nD τ) arg9 fullShare (sbarBlk x3 x4 x5 x6 x7 (lenAt c tbQ xtQ i))
              ∗ owns (c : Thread nD τ) arg10 fullShare (stBlk x3 x4 x5 x6 x7 (lenAt c tbC xtC i))
              ∗ tbPt c tbC xtC ∗ tbPt c tbQ xtQ) -∗ K ⟨⟩))
      ⊢ wp frame (wpE (defs₀ (F := F)) Variants.none c none) E
          (cc0__cq_kernel i tbC htbC tbQ htbQ arg3 harg3 arg4 harg4 arg5 harg5 arg6 harg6 arg7 harg7 arg8 harg8 arg9 harg9 arg10 harg10) K := by
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HT1, HT2, Hk⟩
  obtain rfl := harg3.eq_unread hf3
  obtain rfl := harg4.eq_unread hf4
  obtain rfl := harg5.eq_unread hf5
  obtain rfl := harg6.eq_unread hf6
  obtain rfl := harg7.eq_unread hf7
  simp only [cc0__cq_kernel_eq_skeleton]; unfold cc0__cq_kernel_skel
  sl_exec
  sl_step
  have e5 := ld_whole (F := F) arg5 harg5 x5 (off := ![0, 0]) (funext fun a => by fin_cases a <;> rfl) inb_S128x1_S128x1_0_0
  have e6 := ld_whole (F := F) arg6 harg6 x6 (off := ![0, 0]) (funext fun a => by fin_cases a <;> rfl) inb_S128x1_S128x1_0_0
  have e7 := ld_whole (F := F) arg7 harg7 x7 (off := ![0, 0, 0]) (funext fun a => by fin_cases a <;> rfl) inb_S1x1x128_S1x1x128_0_0_0
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    rw [e5, e6, e7]
    exact read8 c i arg3 harg3 arg4 harg4 arg8 x5 x6 x7 xtC xtQ x3 x4 f8
  isplitl [H9]
  · iexists _; isplitr
    swap; · iexact H9
    ipureintro
    rw [e5, e6, e7]
    exact read9 c i arg3 harg3 arg4 harg4 arg9 x5 x6 x7 xtQ x3 x4 f9
  isplitl [H10]
  · iexists _; isplitr
    swap; · iexact H10
    ipureintro
    rw [e5, e6, e7]
    exact read10 c i arg3 harg3 arg4 harg4 arg10 x5 x6 x7 xtC x3 x4 f10
  isplitl [HT1]; · iexact HT1
  iexact HT2

end Cert.Kernel.Hand

end
-- ==== Proof.K.Sched.lean ====
/-
  The launch of the one pallas_call, seen from its body.

  @main reshapes the two length arrays ([64,1] to [64]) into scalar memory and then enters the region, whose
  pipeline walks a grid of 16 points; at point t it stages block t (four batches) of the context and question rows,
  keeps the three weight blocks staged from the first point on, and writes the three output blocks back after
  the body. This module states what the region finds (the arrays after the two reshapes, the tables' words),
  which staging buffers the body is called on at each point, the block each window holds there, and that every
  input window's buffer holds its block whenever the body runs.
-/
import proofs.«417795_j72791105733170_3_alg».proof.Proof.Gen.Kernel.Launch
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core c's buffers when the region is entered: the launch memory after the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two reshapes and then the region. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Neither reshape writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- Neither reshape writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Neither reshape writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- Neither reshape writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- Neither reshape writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- Neither reshape writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
/-- Neither reshape writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-! ## The two length tables -/

/-- The tables' contents when the region is entered (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No window's block index reads a table, so every contents of the tables is admissible. -/
abbrev adm : (pcfg0 (F := F)).Adm := ⟨tbl m, by show ok0 (F := F) (tbl m); rw [ok0.eq_1]; trivial⟩
/-- The pipeline at the tables' contents. -/
abbrev cfgM : Pipeline.Cfg sig Λ₀ := cfg0 (adm m)

/-! ## The body's buffers at a point -/

abbrev ms0 (t : Fin (cfgM m).N) : Memref sig .tc .vmem S4x1024x128 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S4x128x128 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S128x1 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S128x1 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x1x128 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S4x1024x512 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S4x1024x128 .f32 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S4x128x1024 .f32 := spec0_7.stage ((cfgM m).slots t 7)
abbrev hs7 (t : Fin (cfgM m).N) : (ms7 m t).IsWhole := hstage0_7 (((cfgM m).slots t 7).cast nbuf0_7)

/-- Window w's block at point t, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-! ## An input window's buffer holds its block whenever the body runs

  Fetched at the point, or not (the weight blocks are fetched once; their index never moves). -/

theorem before_in0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.K.Data.lean ====
/-
  The proof data of the pipeline and its run.

  After the body at grid point t each input window's buffer still holds its block, and the three output
  windows' buffers hold the three block functions of the body (rows 4t … 4t+3 of the three results, computed from
  the point's input blocks and the four length words of those rows). Nothing is carried from point to point,
  so the pipeline's invariant is only the unused scoped buffers, the generator register and the two tables at
  half share. With the body's triple this gives the body obligation at every point, the launch theorem gives the
  run, and the run's post read at the argument arrays is the frame claim.
-/
import proofs.«417795_j72791105733170_3_alg».proof.Proof.K.Body
import proofs.«417795_j72791105733170_3_alg».proof.Proof.K.Sched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables' halves the region hands the body, table by table. -/
theorem PhiT_eq (c : Dev nD) :
    (Pipeline.ΦT pre0 (tbl m) c : sProp 𝕄) = iprop(tbPt c tbC (tbl m 0) ∗ tbPt c tbQ (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The proof data on core c. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resBlk (iblk m c 0 t) (iblk m c 1 t) (iblk m c 2 t) (iblk m c 3 t) (iblk m c 4 t) (lenAt c tbC (tbl m 0) (grid0.coords t)) (lenAt c tbQ (tbl m 1) (grid0.coords t))
    | ⟨6, _⟩ => sbarBlk (iblk m c 0 t) (iblk m c 1 t) (iblk m c 2 t) (iblk m c 3 t) (iblk m c 4 t) (lenAt c tbQ (tbl m 1) (grid0.coords t))
    | ⟨7, _⟩ => stBlk (iblk m c 0 t) (iblk m c 1 t) (iblk m c 2 t) (iblk m c 3 t) (iblk m c 4 t) (lenAt c tbC (tbl m 0) (grid0.coords t))
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = resBlk (iblk m c 0 t) (iblk m c 1 t) (iblk m c 2 t) (iblk m c 3 t) (iblk m c 4 t) (lenAt c tbC (tbl m 0) (grid0.coords t)) (lenAt c tbQ (tbl m 1) (grid0.coords t)) := by dsimp only [dats]; try rfl
theorem after6 (c : Dev nD) (t : Fin (cfgM m).N) : (dats m 0 c).after 6 t = sbarBlk (iblk m c 0 t) (iblk m c 1 t) (iblk m c 2 t) (iblk m c 3 t) (iblk m c 4 t) (lenAt c tbQ (tbl m 1) (grid0.coords t)) := by dsimp only [dats]; try rfl
theorem after7 (c : Dev nD) (t : Fin (cfgM m).N) : (dats m 0 c).after 7 t = stBlk (iblk m c 0 t) (iblk m c 1 t) (iblk m c 2 t) (iblk m c 3 t) (iblk m c 4 t) (lenAt c tbC (tbl m 0) (grid0.coords t)) := by dsimp only [dats]; try rfl

theorem before0 (c : Dev nD) (t : Fin (cfgM m).N) (d) : (dats m 0 c).before 0 t d = iblk m c 0 t :=
  before_in0 m (dats m 0 c) (A_eq m c 0) (after0 m c) t d
theorem before1 (c : Dev nD) (t : Fin (cfgM m).N) (d) : (dats m 0 c).before 1 t d = iblk m c 1 t :=
  before_in1 m (dats m 0 c) (A_eq m c 1) (after1 m c) t d
theorem before2 (c : Dev nD) (t : Fin (cfgM m).N) (d) : (dats m 0 c).before 2 t d = iblk m c 2 t :=
  before_in2 m (dats m 0 c) (A_eq m c 2) (after2 m c) t d
theorem before3 (c : Dev nD) (t : Fin (cfgM m).N) (d) : (dats m 0 c).before 3 t d = iblk m c 3 t :=
  before_in3 m (dats m 0 c) (A_eq m c 3) (after3 m c) t d
theorem before4 (c : Dev nD) (t : Fin (cfgM m).N) (d) : (dats m 0 c).before 4 t d = iblk m c 4 t :=
  before_in4 m (dats m 0 c) (A_eq m c 4) (after4 m c) t d

/-! ## The body obligation -/

/-- The body as the pipeline calls it at point t. -/
abbrev bodyAt (t : Fin (cfgM m).N) : Prog (TpuEff nD τ sig (Elt F) Λ₀ .tc) PUnit :=
  cc0__cq_kernel (grid0.coords t) tbC htbC tbQ htbQ (ms0 m t) (hs0 m t) (ms1 m t) (hs1 m t) (ms2 m t) (hs2 m t) (ms3 m t) (hs3 m t)
    (ms4 m t) (hs4 m t) (ms5 m t) (hs5 m t) (ms6 m t) (hs6 m t) (ms7 m t) (hs7 m t)

/-- What the body is called with at point t, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t)
    ∗ owns (c : Thread nD τ) (ms7 m t) fullShare ((dats m 0 c).after 7 t))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = iprop(Pipeline.ΦA spec0 c ∗ Pipeline.ΦT pre0 (tbl m) c) from rfl, PhiT_eq]
  iintro ⟨⟨HΦ, ⟨HTC, HTQ⟩⟩, Ho, H0, H1, H2, H3, H4, ⟨%d5, H5⟩, ⟨%d6, H6⟩, ⟨%d7, H7⟩⟩
  icases H0 with ⟨%e0, H0⟩
  icases H1 with ⟨%e1, H1⟩
  icases H2 with ⟨%e2, H2⟩
  icases H3 with ⟨%e3, H3⟩
  icases H4 with ⟨%e4, H4⟩
  iapply (bodyRun c (grid0.coords t) (ms0 m t) (hs0 m t) (ms1 m t) (hs1 m t) (ms2 m t) (hs2 m t) (ms3 m t) (hs3 m t)
    (ms4 m t) (hs4 m t) (ms5 m t) (hs5 m t) (ms6 m t) (hs6 m t) (ms7 m t) (hs7 m t)
    (iblk m c 0 t) (iblk m c 1 t) (iblk m c 2 t) (iblk m c 3 t) (iblk m c 4 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HTC]; · iexact HTC
  isplitl [HTQ]; · iexact HTQ
  iintro ⟨H0, H1, H2, H3, H4, H5, H6, H7, HTC, HTQ⟩
  isplitl [HΦ HTC HTQ]
  · isplitl [HΦ]; · iexact HΦ
    isplitl [HTC]; · iexact HTC
    iexact HTQ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline holds what
    the write-backs of the proof data leave and every other unscoped buffer what the region found. -/
theorem run_main : θ_run defs (onTc (τ := τ) (main (F := F))) (s₀ m ρ)
    (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The seven argument arrays end as launched: the five staged inputs by the pipeline's account of an input array,
    the two length arrays as buffers that bypass the region; none is written by the two reshapes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) (run_main m ρ)

end Cert.Kernel.Hand

end
-- ==== Proof.KI.Body.lean ====
/-
  The kernel body at one grid point, as a statement about blocks.

  The body is handed a block of four batches: context rows x3 (4 × 1024 × 128), question rows x4 (4 × 128 × 128),
  the three weight vectors x5, x6, x7, and the two length tables. Its loop visits the four batches in turn; the
  trip for batch k reads rows k of x3 and x4 and the two lengths at position 4·g + k (g the grid coordinate),
  and writes row k of each of the three output blocks. So after the body each output block is a function of the
  inputs alone, batch row by batch row: the definitions below name those three functions through the body's own
  arithmetic (the payload terms of the generated skeleton), and `bodyRun` says the body computes them.
-/
import proofs.«417795_j72791105733170_3_alg».proof.Proof.Gen.KernelIdeal.Launch
import proofs.«417795_j72791105733170_3_alg».proof.Proof.Gen.KernelIdeal.Skeleton
import proofs.«417795_j72791105733170_3_alg».proof.Proof.Gen.KernelIdeal.Loops
import Idealize.ShloMosaic.Lib.Pipeline.FrameBody
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two length tables as the body is handed them: whole scalar-memory buffers (context lengths, question lengths). -/
abbrev tbC : Memref sig .tc .smem S64 .i32 := Memref.whole main_v0
abbrev htbC : tbC.IsWhole := Memref.isWhole_whole _
abbrev tbQ : Memref sig .tc .smem S64 .i32 := Memref.whole main_v1
abbrev htbQ : tbQ.IsWhole := Memref.isWhole_whole _
/-- A table's buffer on core c, and the table held at half the full share at contents f (the pipeline keeps the other half). -/
abbrev TbBuf (c : Dev nD) (M : Memref sig .tc .smem S64 .i32) : Type := Buf (Elt F) (M.view.loc (c : Thread nD τ))
abbrev tbPt (c : Dev nD) (M : Memref sig .tc .smem S64 .i32) (f : TbBuf (F := F) c M) : sProp 𝕄 :=
  M.view.loc (c : Thread nD τ) ↦{fullShare.right} f

/-- Batch row k of a four-batch block of context rows, as a one-batch block. -/
def cRow (x3 : Vec F S4x1024x128 .f32) (k : Fin 4) : Vec F S1x1024x128 .f32 := fun j => x3 (ix3 k (j 1) (j 2))
/-- Batch row k of a four-batch block of question rows, as a one-batch block. -/
def qRow (x4 : Vec F S4x128x128 .f32) (k : Fin 4) : Vec F S1x128x128 .f32 := fun j => x4 (ix3 k (j 1) (j 2))
/-- The table's word for batch row k at grid coordinate i: position 4 · i₀ + k of the 64 words. -/
def lenAt (c : Dev nD) (M : Memref sig .tc .smem S64 .i32) (xt : TbBuf (F := F) c M) (i : grid0.Coords) (k : Fin 4) : Elt F .i32 :=
  M.view.read (Elt F) xt (ix1 (⟨(4 * (i 0).val + k.val) % 64, Nat.mod_lt _ (by decide)⟩ : Fin 64))

/-- The similarity scores of batch row k (context × question), and transposed (question × context). -/
def scoreRow (x3 : Vec F S4x1024x128 .f32) (x4 : Vec F S4x128x128 .f32) (x5 x6 : Vec F S128x1 .f32) (x7 : Vec F S1x1x128 .f32) (k : Fin 4) : FVec F S1024x128 .f32 :=
  k0_pay12 (k0_pay1 x5) (k0_pay2 x6) (k0_pay3 x7) (cRow x3 k) (qRow x4 k)
def scoreRowT (x3 : Vec F S4x1024x128 .f32) (x4 : Vec F S4x128x128 .f32) (x5 x6 : Vec F S128x1 .f32) (x7 : Vec F S1x1x128 .f32) (k : Fin 4) : FVec F S128x1024 .f32 :=
  k0_pay13 (k0_pay1 x5) (k0_pay2 x6) (k0_pay3 x7) (cRow x3 k) (qRow x4 k)

/-- What the body leaves in the block of softmaxes over the question axis. -/
def sbarBlk (x3 : Vec F S4x1024x128 .f32) (x4 : Vec F S4x128x128 .f32) (x5 x6 : Vec F S128x1 .f32) (x7 : Vec F S1x1x128 .f32) (wq : Fin 4 → Elt F .i32) : Vec F S4x1024x128 .f32 := fun j =>
  k0_pay18 (scoreRow x3 x4 x5 x6 x7 (j 0)) (k0_pay15 (wq (j 0))) (ix3 0 (j 1) (j 2))
/-- What the body leaves in the block of softmaxes over the context axis. -/
def stBlk (x3 : Vec F S4x1024x128 .f32) (x4 : Vec F S4x128x128 .f32) (x5 x6 : Vec F S128x1 .f32) (x7 : Vec F S1x1x128 .f32) (wc : Fin 4 → Elt F .i32) : Vec F S4x128x1024 .f32 := fun j =>
  k0_pay19 (scoreRowT x3 x4 x5 x6 x7 (j 0)) (k0_pay14 (wc (j 0))) (ix3 0 (j 1) (j 2))
/-- The two attention products of batch row k. -/
def c2qRow (x3 : Vec F S4x1024x128 .f32) (x4 : Vec F S4x128x128 .f32) (x5 x6 : Vec F S128x1 .f32) (x7 : Vec F S1x1x128 .f32) (wq : Fin 4 → Elt F .i32) (k : Fin 4) : FVec F S1024x128 .f32 :=
  k0_pay21 (k0_pay10 (qRow x4 k)) (scoreRow x3 x4 x5 x6 x7 k) (k0_pay15 (wq k))
def q2cRow (x3 : Vec F S4x1024x128 .f32) (x4 : Vec F S4x128x128 .f32) (x5 x6 : Vec F S128x1 .f32) (x7 : Vec F S1x1x128 .f32) (wc wq : Fin 4 → Elt F .i32) (k : Fin 4) : FVec F S1024x128 .f32 :=
  k0_pay22 (k0_pay9 (cRow x3 k)) (scoreRow x3 x4 x5 x6 x7 k) (scoreRowT x3 x4 x5 x6 x7 k) (k0_pay14 (wc k)) (k0_pay15 (wq k))
/-- What the body leaves in the result block: four groups of 128 columns. -/
def resBlk (x3 : Vec F S4x1024x128 .f32) (x4 : Vec F S4x128x128 .f32) (x5 x6 : Vec F S128x1 .f32) (x7 : Vec F S1x1x128 .f32) (wc wq : Fin 4 → Elt F .i32) : Vec F S4x1024x512 .f32 := fun j =>
  if h1 : (j 2).val < 128 then
    k0_pay4 (k0_pay8 (cRow x3 (j 0))) (ix3 0 (j 1) (⟨(j 2).val, h1⟩ : Fin 128))
  else if h2 : (j 2).val < 256 then
    k0_pay5 (c2qRow x3 x4 x5 x6 x7 wq (j 0)) (ix3 0 (j 1) (⟨(j 2).val - 128, by omega⟩ : Fin 128))
  else if h3 : (j 2).val < 384 then
    k0_pay6 (k0_pay8 (cRow x3 (j 0))) (c2qRow x3 x4 x5 x6 x7 wq (j 0)) (ix3 0 (j 1) (⟨(j 2).val - 256, by omega⟩ : Fin 128))
  else
    k0_pay7 (k0_pay8 (cRow x3 (j 0))) (q2cRow x3 x4 x5 x6 x7 wc wq (j 0))
      (ix3 0 (j 1) (⟨(j 2).val - 384, by have h512 : (j 2).val < 512 := (j 2).isLt; omega⟩ : Fin 128))

/-! ## The loop by its invariant, and its pieces read back

The body's loop makes four trips; trip k stores row k of each output block. The invariant before trip k holds the two
tables at half share, the two input blocks at their contents, and each output block at the pieces of the trips before k
written over whatever it held at loop entry. After the fourth trip the pieces cover each block, and piece by piece they
are the block functions above at the piece's indices, so each block reads as its function. -/

namespace Trip

/-- One trip's resources: the two tables at half share, the two input blocks at their contents, the three output blocks at any. -/
abbrev TripR (c : Dev nD) (arg3 : Memref sig .tc .vmem S4x1024x128 .f32) (arg4 : Memref sig .tc .vmem S4x128x128 .f32) (arg8 : Memref sig .tc .vmem S4x1024x512 .f32) (arg9 : Memref sig .tc .vmem S4x1024x128 .f32) (arg10 : Memref sig .tc .vmem S4x128x1024 .f32) (X1 : TbBuf (F := F) c tbC) (X2 : TbBuf (F := F) c tbQ) (X3 : BufTy.Contents (Elt F) arg3.view.ty) (X4 : BufTy.Contents (Elt F) arg4.view.ty) (f8 : BufTy.Contents (Elt F) arg8.view.ty) (f9 : BufTy.Contents (Elt F) arg9.view.ty) (f10 : BufTy.Contents (Elt F) arg10.view.ty) : sProp 𝕄 :=
  iprop(tbPt c tbC X1 ∗ tbPt c tbQ X2 ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

/-- Trip k's loads: row k of the context block, row k of the question block, and the two table words at position 4·g + k. -/
abbrev ldC (arg3 : Memref sig .tc .vmem S4x1024x128 .f32) (X3 : BufTy.Contents (Elt F) arg3.view.ty) (k : Fin k0_t1_loop.trips) : Vec F S1x1024x128 .f32 :=
  arg3.view.readAt (Elt F) (Rect.unit (s := S4x1024x128) (k0_off1 k) S1x1024x128.size (k0_off1_inb k)).toLoadRect X3
abbrev ldQ (arg4 : Memref sig .tc .vmem S4x128x128 .f32) (X4 : BufTy.Contents (Elt F) arg4.view.ty) (k : Fin k0_t1_loop.trips) : Vec F S1x128x128 .f32 :=
  arg4.view.readAt (Elt F) (Rect.unit (s := S4x128x128) (k0_off2 k) S1x128x128.size (k0_off2_inb k)).toLoadRect X4
abbrev ldW (c : Dev nD) (M : Memref sig .tc .smem S64 .i32) (X : TbBuf (F := F) c M) (i : grid0.Coords) (k : Fin k0_t1_loop.trips) : Elt F .i32 :=
  M.view.readAt (Elt F) (Rect.unit (s := S64) (k0_off3 i k) S1.size (k0_off3_inb i k)).toLoadRect X (Shape.Idx.first (numel1_S1.symm ▸ Nat.one_pos))

/-- The values one trip computes from its loads (the weights' three payloads p1 p2 p3, the rows v10 v13, the words wc wq). -/
abbrev tScore (p1 p2 : FVec F S128x1 .bf16) (p3 : FVec F S1x128 .f32) (v10 : Vec F S1x1024x128 .f32) (v13 : Vec F S1x128x128 .f32) : FVec F S1024x128 .f32 := k0_pay12 p1 p2 p3 v10 v13
abbrev tScoreT (p1 p2 : FVec F S128x1 .bf16) (p3 : FVec F S1x128 .f32) (v10 : Vec F S1x1024x128 .f32) (v13 : Vec F S1x128x128 .f32) : FVec F S128x1024 .f32 := k0_pay13 p1 p2 p3 v10 v13
abbrev tC2q (p1 p2 : FVec F S128x1 .bf16) (p3 : FVec F S1x128 .f32) (v10 : Vec F S1x1024x128 .f32) (v13 : Vec F S1x128x128 .f32) (wq : Elt F .i32) : FVec F S1024x128 .f32 :=
  k0_pay21 (k0_pay10 v13) (tScore p1 p2 p3 v10 v13) (k0_pay15 wq)
abbrev tQ2c (p1 p2 : FVec F S128x1 .bf16) (p3 : FVec F S1x128 .f32) (v10 : Vec F S1x1024x128 .f32) (v13 : Vec F S1x128x128 .f32) (wc wq : Elt F .i32) : FVec F S1024x128 .f32 :=
  k0_pay22 (k0_pay9 v10) (tScore p1 p2 p3 v10 v13) (tScoreT p1 p2 p3 v10 v13) (k0_pay14 wc) (k0_pay15 wq)

/-- Trip k's stores into the result block (the last store first): four groups of 128 columns of row k. -/
abbrev pcs8 (p1 p2 : FVec F S128x1 .bf16) (p3 : FVec F S1x128 .f32) (k : Fin k0_t1_loop.trips) (v10 : Vec F S1x1024x128 .f32) (v13 : Vec F S1x128x128 .f32) (wc wq : Elt F .i32) : List (View.Piece (Elt F) S4x1024x512 .f32) :=
  [⟨Rect.unit (s := S4x1024x512) (k0_off8 k) S1x1024x128.size (k0_off8_inb k), k0_pay7 (k0_pay8 v10) (tQ2c p1 p2 p3 v10 v13 wc wq)⟩,
   ⟨Rect.unit (s := S4x1024x512) (k0_off7 k) S1x1024x128.size (k0_off7_inb k), k0_pay6 (k0_pay8 v10) (tC2q p1 p2 p3 v10 v13 wq)⟩,
   ⟨Rect.unit (s := S4x1024x512) (k0_off6 k) S1x1024x128.size (k0_off6_inb k), k0_pay5 (tC2q p1 p2 p3 v10 v13 wq)⟩,
   ⟨Rect.unit (s := S4x1024x512) (k0_off5 k) S1x1024x128.size (k0_off5_inb k), k0_pay4 (k0_pay8 v10)⟩]
/-- Trip k's store into the block of softmaxes over the question axis: row k. -/
abbrev pcs9 (p1 p2 : FVec F S128x1 .bf16) (p3 : FVec F S1x128 .f32) (k : Fin k0_t1_loop.trips) (v10 : Vec F S1x1024x128 .f32) (v13 : Vec F S1x128x128 .f32) (wq : Elt F .i32) : List (View.Piece (Elt F) S4x1024x128 .f32) :=
  [⟨Rect.unit (s := S4x1024x128) (k0_off1 k) S1x1024x128.size (k0_off1_inb k), k0_pay18 (tScore p1 p2 p3 v10 v13) (k0_pay15 wq)⟩]
/-- Trip k's store into the block of softmaxes over the context axis: row k. -/
abbrev pcs10 (p1 p2 : FVec F S128x1 .bf16) (p3 : FVec F S1x128 .f32) (k : Fin k0_t1_loop.trips) (v10 : Vec F S1x1024x128 .f32) (v13 : Vec F S1x128x128 .f32) (wc : Elt F .i32) : List (View.Piece (Elt F) S4x128x1024 .f32) :=
  [⟨Rect.unit (s := S4x128x1024) (k0_off4 k) S1x128x1024.size (k0_off4_inb k), k0_pay19 (tScoreT p1 p2 p3 v10 v13) (k0_pay14 wc)⟩]

set_option maxHeartbeats 1000000 in
/-- ONE TRIP at a symbolic k: from the trip's resources with the output blocks at any contents, the region runs to the same
    resources with the trip's pieces written over those contents. -/
theorem tripRun (c : Dev nD) (i : grid0.Coords) (arg3 : Memref sig .tc .vmem S4x1024x128 .f32) (harg3 : arg3.IsWhole) (arg4 : Memref sig .tc .vmem S4x128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x1x128 .f32) (harg7 : arg7.IsWhole) (arg8 : Memref sig .tc .vmem S4x1024x512 .f32) (harg8 : arg8.IsWhole) (arg9 : Memref sig .tc .vmem S4x1024x128 .f32) (harg9 : arg9.IsWhole) (arg10 : Memref sig .tc .vmem S4x128x1024 .f32) (harg10 : arg10.IsWhole) (arg0 : BitVec 32) (v0 : Vec F S128x1 .f32) (v2 : Vec F S128x1 .f32) (v4 : Vec F S1x1x128 .f32) (X1 : TbBuf (F := F) c tbC) (X2 : TbBuf (F := F) c tbQ) (X3 : BufTy.Contents (Elt F) arg3.view.ty) (X4 : BufTy.Contents (Elt F) arg4.view.ty) (k : Fin k0_t1_loop.trips)
    (E : Set ℕ) (f8 : BufTy.Contents (Elt F) arg8.view.ty) (f9 : BufTy.Contents (Elt F) arg9.view.ty) (f10 : BufTy.Contents (Elt F) arg10.view.ty) :
      TripR (F := F) c arg3 arg4 arg8 arg9 arg10 X1 X2 X3 X4 f8 f9 f10
      ⊢ wp frame (wpE (defs₀ (F := F)) Variants.none (c : Thread nD τ) none) E (k0_t1_body (F := F) i tbC htbC tbQ htbQ arg3 harg3 arg4 harg4 arg5 harg5 arg6 harg6 arg7 harg7 arg8 harg8 arg9 harg9 arg10 harg10 arg0 v0 v2 v4 k PUnit.unit)
          (fun _ => TripR (F := F) c arg3 arg4 arg8 arg9 arg10 X1 X2 X3 X4
            (arg8.view.writes (Elt F) f8 (pcs8 (k0_pay1 v0) (k0_pay2 v2) (k0_pay3 v4) k (ldC arg3 X3 k) (ldQ arg4 X4 k) (ldW c tbC X1 i k) (ldW c tbQ X2 i k)))
            (arg9.view.writes (Elt F) f9 (pcs9 (k0_pay1 v0) (k0_pay2 v2) (k0_pay3 v4) k (ldC arg3 X3 k) (ldQ arg4 X4 k) (ldW c tbQ X2 i k)))
            (arg10.view.writes (Elt F) f10 (pcs10 (k0_pay1 v0) (k0_pay2 v2) (k0_pay3 v4) k (ldC arg3 X3 k) (ldQ arg4 X4 k) (ldW c tbC X1 i k)))) := by
  have hk : k.val < 4 := Nat.lt_of_lt_of_le k.isLt k0_t1_abs.2.1
  unfold k0_t1_body
  iintro ⟨HT1, HT2, HR3, HR4, HW8, HW9, HW10⟩
  sl_exec
  sl_step
  sl_close

/-- The pieces of the trips before n (the last trip's first), for a family of per-trip piece lists. -/
def piecesBefore {S : Shape} {e : EltTy} (P : Fin k0_t1_loop.trips → List (View.Piece (Elt F) S e)) : ℕ → List (View.Piece (Elt F) S e)
  | 0 => []
  | k + 1 => (if h : k < k0_t1_loop.trips then P ⟨k, h⟩ else []) ++ piecesBefore P k

theorem piecesBefore_succ {S : Shape} {e : EltTy} (P : Fin k0_t1_loop.trips → List (View.Piece (Elt F) S e)) (k : Fin k0_t1_loop.trips) :
    piecesBefore P (k.val + 1) = P k ++ piecesBefore P k.val := by
  rw [piecesBefore, dif_pos k.isLt]

/-- A piece of the trips before n is a piece of some trip k < n, and conversely. -/
theorem mem_piecesBefore {S : Shape} {e : EltTy} (P : Fin k0_t1_loop.trips → List (View.Piece (Elt F) S e)) (p : View.Piece (Elt F) S e) :
    ∀ n : ℕ, p ∈ piecesBefore P n ↔ ∃ k : Fin k0_t1_loop.trips, k.val < n ∧ p ∈ P k
  | 0 => by simp [piecesBefore]
  | n + 1 => by
    rw [piecesBefore, List.mem_append, mem_piecesBefore P p n]
    constructor
    · rintro (h | ⟨k, hk, hp⟩)
      · by_cases hn : n < k0_t1_loop.trips
        · rw [dif_pos hn] at h; exact ⟨⟨n, hn⟩, Nat.lt_succ_self n, h⟩
        · rw [dif_neg hn] at h; exact absurd h List.not_mem_nil
      · exact ⟨k, Nat.lt_succ_of_lt hk, hp⟩
    · rintro ⟨k, hk, hp⟩
      rcases Nat.lt_succ_iff_lt_or_eq.mp hk with hlt | heq
      · exact Or.inr ⟨k, hlt, hp⟩
      · left
        have hn : n < k0_t1_loop.trips := heq ▸ k.isLt
        rw [dif_pos hn]
        have : (⟨n, hn⟩ : Fin k0_t1_loop.trips) = k := Fin.ext heq.symm
        rw [this]; exact hp

/-- The per-trip piece lists of the three output blocks, over the loop's parameters. -/
abbrev P8 (c : Dev nD) (i : grid0.Coords) (arg3 : Memref sig .tc .vmem S4x1024x128 .f32) (arg4 : Memref sig .tc .vmem S4x128x128 .f32) (v0 v2 : Vec F S128x1 .f32) (v4 : Vec F S1x1x128 .f32) (X1 : TbBuf (F := F) c tbC) (X2 : TbBuf (F := F) c tbQ) (X3 : BufTy.Contents (Elt F) arg3.view.ty) (X4 : BufTy.Contents (Elt F) arg4.view.ty) (k : Fin k0_t1_loop.trips) : List (View.Piece (Elt F) S4x1024x512 .f32) :=
  pcs8 (k0_pay1 v0) (k0_pay2 v2) (k0_pay3 v4) k (ldC arg3 X3 k) (ldQ arg4 X4 k) (ldW c tbC X1 i k) (ldW c tbQ X2 i k)
abbrev P9 (c : Dev nD) (i : grid0.Coords) (arg3 : Memref sig .tc .vmem S4x1024x128 .f32) (arg4 : Memref sig .tc .vmem S4x128x128 .f32) (v0 v2 : Vec F S128x1 .f32) (v4 : Vec F S1x1x128 .f32) (X2 : TbBuf (F := F) c tbQ) (X3 : BufTy.Contents (Elt F) arg3.view.ty) (X4 : BufTy.Contents (Elt F) arg4.view.ty) (k : Fin k0_t1_loop.trips) : List (View.Piece (Elt F) S4x1024x128 .f32) :=
  pcs9 (k0_pay1 v0) (k0_pay2 v2) (k0_pay3 v4) k (ldC arg3 X3 k) (ldQ arg4 X4 k) (ldW c tbQ X2 i k)
abbrev P10 (c : Dev nD) (i : grid0.Coords) (arg3 : Memref sig .tc .vmem S4x1024x128 .f32) (arg4 : Memref sig .tc .vmem S4x128x128 .f32) (v0 v2 : Vec F S128x1 .f32) (v4 : Vec F S1x1x128 .f32) (X1 : TbBuf (F := F) c tbC) (X3 : BufTy.Contents (Elt F) arg3.view.ty) (X4 : BufTy.Contents (Elt F) arg4.view.ty) (k : Fin k0_t1_loop.trips) : List (View.Piece (Elt F) S4x128x1024 .f32) :=
  pcs10 (k0_pay1 v0) (k0_pay2 v2) (k0_pay3 v4) k (ldC arg3 X3 k) (ldQ arg4 X4 k) (ldW c tbC X1 i k)

/-- THE INVARIANT before trip k: the tables at half share and the two input blocks at their contents; each output block
    holding the pieces of the trips before k written over its contents at loop entry. -/
abbrev invR (c : Dev nD) (i : grid0.Coords) (arg3 : Memref sig .tc .vmem S4x1024x128 .f32) (arg4 : Memref sig .tc .vmem S4x128x128 .f32) (arg8 : Memref sig .tc .vmem S4x1024x512 .f32) (arg9 : Memref sig .tc .vmem S4x1024x128 .f32) (arg10 : Memref sig .tc .vmem S4x128x1024 .f32) (v0 v2 : Vec F S128x1 .f32) (v4 : Vec F S1x1x128 .f32) (X1 : TbBuf (F := F) c tbC) (X2 : TbBuf (F := F) c tbQ) (X3 : BufTy.Contents (Elt F) arg3.view.ty) (X4 : BufTy.Contents (Elt F) arg4.view.ty) (G8 : BufTy.Contents (Elt F) arg8.view.ty) (G9 : BufTy.Contents (Elt F) arg9.view.ty) (G10 : BufTy.Contents (Elt F) arg10.view.ty) (k : ℕ) (_u : PUnit) : sProp 𝕄 :=
  iprop(tbPt c tbC X1 ∗ tbPt c tbQ X2 ∗ (arg3.view.loc (c : Thread nD τ) ↦[arg3.view.set]{fullShare} X3) ∗ (arg4.view.loc (c : Thread nD τ) ↦[arg4.view.set]{fullShare} X4)
    ∗ (∃ f, (arg8.view.loc (c : Thread nD τ) ↦[arg8.view.set]{fullShare} f) ∗ ⌜f = arg8.view.writes (Elt F) G8 (piecesBefore (P8 c i arg3 arg4 v0 v2 v4 X1 X2 X3 X4) k)⌝)
    ∗ (∃ f, (arg9.view.loc (c : Thread nD τ) ↦[arg9.view.set]{fullShare} f) ∗ ⌜f = arg9.view.writes (Elt F) G9 (piecesBefore (P9 c i arg3 arg4 v0 v2 v4 X2 X3 X4) k)⌝)
    ∗ (∃ f, (arg10.view.loc (c : Thread nD τ) ↦[arg10.view.set]{fullShare} f) ∗ ⌜f = arg10.view.writes (Elt F) G10 (piecesBefore (P10 c i arg3 arg4 v0 v2 v4 X1 X3 X4) k)⌝))

set_option warn.classDefReducibility false in
/-- THE LOOP BY ITS INVARIANT, with the tables held at half share. -/
@[sl_loop] def loopInvR (c : Dev nD) (E : Set ℕ) (i : grid0.Coords) (arg3 : Memref sig .tc .vmem S4x1024x128 .f32) (harg3 : arg3.IsWhole) (arg4 : Memref sig .tc .vmem S4x128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x1x128 .f32) (harg7 : arg7.IsWhole) (arg8 : Memref sig .tc .vmem S4x1024x512 .f32) (harg8 : arg8.IsWhole) (arg9 : Memref sig .tc .vmem S4x1024x128 .f32) (harg9 : arg9.IsWhole) (arg10 : Memref sig .tc .vmem S4x128x1024 .f32) (harg10 : arg10.IsWhole) (arg0 : BitVec 32) (v0 : Vec F S128x1 .f32) (v2 : Vec F S128x1 .f32) (v4 : Vec F S1x1x128 .f32) (X1 : TbBuf (F := F) c tbC) (X2 : TbBuf (F := F) c tbQ) (X3 : BufTy.Contents (Elt F) arg3.view.ty) (X4 : BufTy.Contents (Elt F) arg4.view.ty) (G8 : BufTy.Contents (Elt F) arg8.view.ty) (G9 : BufTy.Contents (Elt F) arg9.view.ty) (G10 : BufTy.Contents (Elt F) arg10.view.ty) :
    LoopInvTy_k0_t1 (F := F) Unit ℕ (UR sig nD τ) ℕ Variants.none c none E i tbC htbC tbQ htbQ arg3 harg3 arg4 harg4 arg5 harg5 arg6 harg6 arg7 harg7 arg8 harg8 arg9 harg9 arg10 harg10 arg0 v0 v2 v4 where
  inv := invR (F := F) c i arg3 arg4 arg8 arg9 arg10 v0 v2 v4 X1 X2 X3 X4 G8 G9 G10
  step k acc := by
    iintro ⟨HT1, HT2, HR3, HR4, ⟨%f8, HW8, %h8⟩, ⟨%f9, HW9, %h9⟩, ⟨%f10, HW10, %h10⟩⟩
    iapply (wp_wand_r Idealize.ShloMosaic.frame (wpE (defs₀ (F := F)) Variants.none (c : Thread nD τ) none) E)
    isplitl [HT1 HT2 HR3 HR4 HW8 HW9 HW10]
    · iapply (tripRun (F := F) c i arg3 harg3 arg4 harg4 arg5 harg5 arg6 harg6 arg7 harg7 arg8 harg8 arg9 harg9 arg10 harg10 arg0 v0 v2 v4 X1 X2 X3 X4 k E f8 f9 f10)
      isplitl [HT1]; · iexact HT1
      isplitl [HT2]; · iexact HT2
      isplitl [HR3]; · iexact HR3
      isplitl [HR4]; · iexact HR4
      isplitl [HW8]; · iexact HW8
      isplitl [HW9]; · iexact HW9
      iexact HW10
    · iintro %_ ⟨HT1, HT2, HR3, HR4, HW8, HW9, HW10⟩
      isplitl [HT1]; · iexact HT1
      isplitl [HT2]; · iexact HT2
      isplitl [HR3]; · iexact HR3
      isplitl [HR4]; · iexact HR4
      isplitl [HW8]
      · iexists _; isplitl [HW8]; · iexact HW8
        ipureintro; rw [piecesBefore_succ, h8, ← View.writes_append]
      isplitl [HW9]
      · iexists _; isplitl [HW9]; · iexact HW9
        ipureintro; rw [piecesBefore_succ, h9, ← View.writes_append]
      iexists _; isplitl [HW10]; · iexact HW10
      ipureintro; rw [piecesBefore_succ, h10, ← View.writes_append]

/-! ### Reading the loop's pieces back -/

theorem trips_eq : k0_t1_loop.trips = 4 := by decide

theorem trip_lt (k : Fin k0_t1_loop.trips) : k.val < 4 := Nat.lt_of_lt_of_le k.isLt k0_t1_abs.2.1

/-- The trip as a batch row. -/
abbrev rowOf (k : Fin k0_t1_loop.trips) : Fin 4 := ⟨k.val, trip_lt k⟩

theorem off1_0 (k : Fin k0_t1_loop.trips) : k0_off1 k 0 = k.val := congrFun (k0_off1_eq k) 0
theorem off1_1 (k : Fin k0_t1_loop.trips) : k0_off1 k 1 = 0 := congrFun (k0_off1_eq k) 1
theorem off1_2 (k : Fin k0_t1_loop.trips) : k0_off1 k 2 = 0 := congrFun (k0_off1_eq k) 2
theorem off2_0 (k : Fin k0_t1_loop.trips) : k0_off2 k 0 = k.val := congrFun (k0_off2_eq k) 0
theorem off2_1 (k : Fin k0_t1_loop.trips) : k0_off2 k 1 = 0 := congrFun (k0_off2_eq k) 1
theorem off2_2 (k : Fin k0_t1_loop.trips) : k0_off2 k 2 = 0 := congrFun (k0_off2_eq k) 2
theorem off3_0 (i : grid0.Coords) (k : Fin k0_t1_loop.trips) : k0_off3 i k 0 = 4 * (i 0).val + k.val := congrFun (k0_off3_eq i k) 0
theorem off4_0 (k : Fin k0_t1_loop.trips) : k0_off4 k 0 = k.val := congrFun (k0_off4_eq k) 0
theorem off4_1 (k : Fin k0_t1_loop.trips) : k0_off4 k 1 = 0 := congrFun (k0_off4_eq k) 1
theorem off4_2 (k : Fin k0_t1_loop.trips) : k0_off4 k 2 = 0 := congrFun (k0_off4_eq k) 2
theorem off5_0 (k : Fin k0_t1_loop.trips) : k0_off5 k 0 = k.val := congrFun (k0_off5_eq k) 0
theorem off5_1 (k : Fin k0_t1_loop.trips) : k0_off5 k 1 = 0 := congrFun (k0_off5_eq k) 1
theorem off5_2 (k : Fin k0_t1_loop.trips) : k0_off5 k 2 = 0 := congrFun (k0_off5_eq k) 2
theorem off6_0 (k : Fin k0_t1_loop.trips) : k0_off6 k 0 = k.val := congrFun (k0_off6_eq k) 0
theorem off6_1 (k : Fin k0_t1_loop.trips) : k0_off6 k 1 = 0 := congrFun (k0_off6_eq k) 1
theorem off6_2 (k : Fin k0_t1_loop.trips) : k0_off6 k 2 = 128 := congrFun (k0_off6_eq k) 2
theorem off7_0 (k : Fin k0_t1_loop.trips) : k0_off7 k 0 = k.val := congrFun (k0_off7_eq k) 0
theorem off7_1 (k : Fin k0_t1_loop.trips) : k0_off7 k 1 = 0 := congrFun (k0_off7_eq k) 1
theorem off7_2 (k : Fin k0_t1_loop.trips) : k0_off7 k 2 = 256 := congrFun (k0_off7_eq k) 2
theorem off8_0 (k : Fin k0_t1_loop.trips) : k0_off8 k 0 = k.val := congrFun (k0_off8_eq k) 0
theorem off8_1 (k : Fin k0_t1_loop.trips) : k0_off8 k 1 = 0 := congrFun (k0_off8_eq k) 1
theorem off8_2 (k : Fin k0_t1_loop.trips) : k0_off8 k 2 = 384 := congrFun (k0_off8_eq k) 2

/-- A load of a whole block through the rectangle at zero offsets reads the block. -/
theorem ld_whole {S : Shape} {e : EltTy} (arg : Memref sig .tc .vmem S e) (h : arg.IsWhole) (x : S.Idx → Elt F e)
    {off : Fin S.rank → Nat} (hz : off = fun _ => 0) (inb : ∀ a, off a + S.size a ≤ S.size a) :
    arg.view.readAt (Elt F) (Rect.unit off S.size inb).toLoadRect (h.unread x) = x := by
  rw [View.readAt_eq_ld, h.read_unread]
  subst hz; funext y
  show x ((Rect.whole S).emb y) = x y
  rw [Rect.emb_whole_apply]

/-- Trip k's load of the context block is batch row k. -/
theorem ldC_eq (arg3 : Memref sig .tc .vmem S4x1024x128 .f32) (harg3 : arg3.IsWhole) (x3 : Vec F S4x1024x128 .f32) (k : Fin k0_t1_loop.trips) :
    ldC arg3 (harg3.unread x3) k = cRow x3 (rowOf k) := by
  show arg3.view.readAt (Elt F) (Rect.unit (s := S4x1024x128) (k0_off1 k) S1x1024x128.size (k0_off1_inb k)).toLoadRect (harg3.unread x3) = _
  rw [View.readAt_eq_ld, harg3.read_unread]
  funext x
  show x3 ((Rect.unit (s := S4x1024x128) (k0_off1 k) S1x1024x128.size (k0_off1_inb k)).idx x) = x3 (ix3 (rowOf k) (x 1) (x 2))
  congr 1
  funext a
  match a with
  | ⟨0, _⟩ =>
    apply Fin.ext
    show k0_off1 k 0 + 1 * (x 0).val = k.val
    have h0 : (x 0).val < 1 := (x 0).isLt
    rw [off1_0]; omega
  | ⟨1, _⟩ =>
    apply Fin.ext
    show k0_off1 k 1 + 1 * (x 1).val = (x 1).val
    rw [off1_1]; omega
  | ⟨2, _⟩ =>
    apply Fin.ext
    show k0_off1 k 2 + 1 * (x 2).val = (x 2).val
    rw [off1_2]; omega

/-- Trip k's load of the question block is batch row k. -/
theorem ldQ_eq (arg4 : Memref sig .tc .vmem S4x128x128 .f32) (harg4 : arg4.IsWhole) (x4 : Vec F S4x128x128 .f32) (k : Fin k0_t1_loop.trips) :
    ldQ arg4 (harg4.unread x4) k = qRow x4 (rowOf k) := by
  show arg4.view.readAt (Elt F) (Rect.unit (s := S4x128x128) (k0_off2 k) S1x128x128.size (k0_off2_inb k)).toLoadRect (harg4.unread x4) = _
  rw [View.readAt_eq_ld, harg4.read_unread]
  funext x
  show x4 ((Rect.unit (s := S4x128x128) (k0_off2 k) S1x128x128.size (k0_off2_inb k)).idx x) = x4 (ix3 (rowOf k) (x 1) (x 2))
  congr 1
  funext a
  match a with
  | ⟨0, _⟩ =>
    apply Fin.ext
    show k0_off2 k 0 + 1 * (x 0).val = k.val
    have h0 : (x 0).val < 1 := (x 0).isLt
    rw [off2_0]; omega
  | ⟨1, _⟩ =>
    apply Fin.ext
    show k0_off2 k 1 + 1 * (x 1).val = (x 1).val
    rw [off2_1]; omega
  | ⟨2, _⟩ =>
    apply Fin.ext
    show k0_off2 k 2 + 1 * (x 2).val = (x 2).val
    rw [off2_2]; omega

/-- Trip k's word of a table is the table's word for batch row k at the grid coordinate. -/
theorem ldW_eq (c : Dev nD) (M : Memref sig .tc .smem S64 .i32) (X : TbBuf (F := F) c M) (i : grid0.Coords) (k : Fin k0_t1_loop.trips) :
    ldW c M X i k = lenAt c M X i (rowOf k) := by
  show M.view.readAt (Elt F) (Rect.unit (s := S64) (k0_off3 i k) S1.size (k0_off3_inb i k)).toLoadRect X (Shape.Idx.first (numel1_S1.symm ▸ Nat.one_pos)) = _
  rw [View.readAt_eq_ld]
  show M.view.read (Elt F) X ((Rect.unit (s := S64) (k0_off3 i k) S1.size (k0_off3_inb i k)).idx (Shape.Idx.first (numel1_S1.symm ▸ Nat.one_pos))) = M.view.read (Elt F) X (ix1 (⟨(4 * (i 0).val + (rowOf k).val) % 64, Nat.mod_lt _ (by decide)⟩ : Fin 64))
  congr 1
  funext a
  match a with
  | ⟨0, _⟩ =>
    apply Fin.ext
    show k0_off3 i k 0 + 1 * 0 = (4 * (i 0).val + k.val) % 64
    have hi : (i 0).val < 16 := (i 0).isLt
    have hk := trip_lt k
    rw [off3_0, Nat.mod_eq_of_lt (by omega)]; omega

/-- The block of softmaxes over the question axis at an index of batch row kk is the trip's payload at the index inside the row. -/
theorem sbar_at (x3 : Vec F S4x1024x128 .f32) (x4 : Vec F S4x128x128 .f32) (x5 x6 : Vec F S128x1 .f32) (x7 : Vec F S1x1x128 .f32) (wq : Fin 4 → Elt F .i32)
    (kk : Fin 4) (j : S4x1024x128.Idx) (x : S1x1024x128.Idx) (h0 : (j 0).val = kk.val) (h1 : (j 1).val = (x 1).val) (h2 : (j 2).val = (x 2).val) :
    k0_pay18 (scoreRow x3 x4 x5 x6 x7 kk) (k0_pay15 (wq kk)) x = sbarBlk x3 x4 x5 x6 x7 wq j := by
  have e : j 0 = kk := Fin.ext h0
  show _ = k0_pay18 (scoreRow x3 x4 x5 x6 x7 (j 0)) (k0_pay15 (wq (j 0))) (ix3 0 (j 1) (j 2))
  rw [e]
  refine congrArg (k0_pay18 (scoreRow x3 x4 x5 x6 x7 kk) (k0_pay15 (wq kk))) ?_
  funext a
  match a with
  | ⟨0, _⟩ => apply Fin.ext; show (x 0).val = 0; have h : (x 0).val < 1 := (x 0).isLt; omega
  | ⟨1, _⟩ => apply Fin.ext; exact h1.symm
  | ⟨2, _⟩ => apply Fin.ext; exact h2.symm

/-- The same for the block of softmaxes over the context axis. -/
theorem st_at (x3 : Vec F S4x1024x128 .f32) (x4 : Vec F S4x128x128 .f32) (x5 x6 : Vec F S128x1 .f32) (x7 : Vec F S1x1x128 .f32) (wc : Fin 4 → Elt F .i32)
    (kk : Fin 4) (j : S4x128x1024.Idx) (x : S1x128x1024.Idx) (h0 : (j 0).val = kk.val) (h1 : (j 1).val = (x 1).val) (h2 : (j 2).val = (x 2).val) :
    k0_pay19 (scoreRowT x3 x4 x5 x6 x7 kk) (k0_pay14 (wc kk)) x = stBlk x3 x4 x5 x6 x7 wc j := by
  have e : j 0 = kk := Fin.ext h0
  show _ = k0_pay19 (scoreRowT x3 x4 x5 x6 x7 (j 0)) (k0_pay14 (wc (j 0))) (ix3 0 (j 1) (j 2))
  rw [e]
  refine congrArg (k0_pay19 (scoreRowT x3 x4 x5 x6 x7 kk) (k0_pay14 (wc kk))) ?_
  funext a
  match a with
  | ⟨0, _⟩ => apply Fin.ext; show (x 0).val = 0; have h : (x 0).val < 1 := (x 0).isLt; omega
  | ⟨1, _⟩ => apply Fin.ext; exact h1.symm
  | ⟨2, _⟩ => apply Fin.ext; exact h2.symm

/-- An index inside a row from an index of the block whose last coordinate is shifted by g. -/
theorem ix_sub (j : S4x1024x512.Idx) (x : S1x1024x128.Idx) (g : ℕ) (h1 : (j 1).val = (x 1).val) (h2 : (j 2).val = g + (x 2).val) (hb : (j 2).val - g < 128) :
    x = ix3 (0 : Fin 1) (j 1) (⟨(j 2).val - g, hb⟩ : Fin 128) := by
  funext a
  match a with
  | ⟨0, _⟩ => apply Fin.ext; show (x 0).val = 0; have h : (x 0).val < 1 := (x 0).isLt; omega
  | ⟨1, _⟩ => apply Fin.ext; exact h1.symm
  | ⟨2, _⟩ => apply Fin.ext; show (x 2).val = (j 2).val - g; omega

/-- The result block at an index of batch row kk in each of its four column groups. -/
theorem res_at0 (x3 : Vec F S4x1024x128 .f32) (x4 : Vec F S4x128x128 .f32) (x5 x6 : Vec F S128x1 .f32) (x7 : Vec F S1x1x128 .f32) (wc wq : Fin 4 → Elt F .i32)
    (kk : Fin 4) (j : S4x1024x512.Idx) (x : S1x1024x128.Idx) (h0 : (j 0).val = kk.val) (h1 : (j 1).val = (x 1).val) (h2 : (j 2).val = 0 + (x 2).val) :
    k0_pay4 (k0_pay8 (cRow x3 kk)) x = resBlk x3 x4 x5 x6 x7 wc wq j := by
  have e : j 0 = kk := Fin.ext h0
  have hx : (x 2).val < 128 := (x 2).isLt
  have c1 : (j 2).val < 128 := by omega
  unfold resBlk
  rw [dif_pos c1, e]
  exact congrArg (k0_pay4 (k0_pay8 (cRow x3 kk))) (ix_sub j x 0 h1 h2 (by omega))

theorem res_at1 (x3 : Vec F S4x1024x128 .f32) (x4 : Vec F S4x128x128 .f32) (x5 x6 : Vec F S128x1 .f32) (x7 : Vec F S1x1x128 .f32) (wc wq : Fin 4 → Elt F .i32)
    (kk : Fin 4) (j : S4x1024x512.Idx) (x : S1x1024x128.Idx) (h0 : (j 0).val = kk.val) (h1 : (j 1).val = (x 1).val) (h2 : (j 2).val = 128 + (x 2).val) :
    k0_pay5 (c2qRow x3 x4 x5 x6 x7 wq kk) x = resBlk x3 x4 x5 x6 x7 wc wq j := by
  have e : j 0 = kk := Fin.ext h0
  have hx : (x 2).val < 128 := (x 2).isLt
  have c1 : ¬ (j 2).val < 128 := by omega
  have c2 : (j 2).val < 256 := by omega
  unfold resBlk
  rw [dif_neg c1, dif_pos c2, e]
  exact congrArg (k0_pay5 (c2qRow x3 x4 x5 x6 x7 wq kk)) (ix_sub j x 128 h1 h2 (by omega))

theorem res_at2 (x3 : Vec F S4x1024x128 .f32) (x4 : Vec F S4x128x128 .f32) (x5 x6 : Vec F S128x1 .f32) (x7 : Vec F S1x1x128 .f32) (wc wq : Fin 4 → Elt F .i32)
    (kk : Fin 4) (j : S4x1024x512.Idx) (x : S1x1024x128.Idx) (h0 : (j 0).val = kk.val) (h1 : (j 1).val = (x 1).val) (h2 : (j 2).val = 256 + (x 2).val) :
    k0_pay6 (k0_pay8 (cRow x3 kk)) (c2qRow x3 x4 x5 x6 x7 wq kk) x = resBlk x3 x4 x5 x6 x7 wc wq j := by
  have e : j 0 = kk := Fin.ext h0
  have hx : (x 2).val < 128 := (x 2).isLt
  have c1 : ¬ (j 2).val < 128 := by omega
  have c2 : ¬ (j 2).val < 256 := by omega
  have c3 : (j 2).val < 384 := by omega
  unfold resBlk
  rw [dif_neg c1, dif_neg c2, dif_pos c3, e]
  exact congrArg (k0_pay6 (k0_pay8 (cRow x3 kk)) (c2qRow x3 x4 x5 x6 x7 wq kk)) (ix_sub j x 256 h1 h2 (by omega))

theorem res_at3 (x3 : Vec F S4x1024x128 .f32) (x4 : Vec F S4x128x128 .f32) (x5 x6 : Vec F S128x1 .f32) (x7 : Vec F S1x1x128 .f32) (wc wq : Fin 4 → Elt F .i32)
    (kk : Fin 4) (j : S4x1024x512.Idx) (x : S1x1024x128.Idx) (h0 : (j 0).val = kk.val) (h1 : (j 1).val = (x 1).val) (h2 : (j 2).val = 384 + (x 2).val) :
    k0_pay7 (k0_pay8 (cRow x3 kk)) (q2cRow x3 x4 x5 x6 x7 wc wq kk) x = resBlk x3 x4 x5 x6 x7 wc wq j := by
  have e : j 0 = kk := Fin.ext h0
  have hx : (x 2).val < 128 := (x 2).isLt
  have c1 : ¬ (j 2).val < 128 := by omega
  have c2 : ¬ (j 2).val < 256 := by omega
  have c3 : ¬ (j 2).val < 384 := by omega
  unfold resBlk
  rw [dif_neg c1, dif_neg c2, dif_neg c3, e]
  exact congrArg (k0_pay7 (k0_pay8 (cRow x3 kk)) (q2cRow x3 x4 x5 x6 x7 wc wq kk)) (ix_sub j x 384 h1 h2 (by omega))

/-- Every piece of trip k into the block of softmaxes over the question axis is that block's function at the piece's indices. -/
theorem P9_pieces (c : Dev nD) (i : grid0.Coords) (arg3 : Memref sig .tc .vmem S4x1024x128 .f32) (harg3 : arg3.IsWhole) (arg4 : Memref sig .tc .vmem S4x128x128 .f32) (harg4 : arg4.IsWhole)
    (v0 v2 : Vec F S128x1 .f32) (v4 : Vec F S1x1x128 .f32) (X2 : TbBuf (F := F) c tbQ) (x3 : Vec F S4x1024x128 .f32) (x4 : Vec F S4x128x128 .f32) (k : Fin k0_t1_loop.trips) :
    ∀ p ∈ P9 c i arg3 arg4 v0 v2 v4 X2 (harg3.unread x3) (harg4.unread x4) k, ∀ x : p.1.shape.Idx,
      p.2 x = sbarBlk x3 x4 v0 v2 v4 (lenAt c tbQ X2 i) (p.1.emb x) := by
  intro p hp
  rw [List.mem_singleton] at hp
  subst hp
  intro x
  show k0_pay18 (k0_pay12 (k0_pay1 v0) (k0_pay2 v2) (k0_pay3 v4) (ldC arg3 (harg3.unread x3) k) (ldQ arg4 (harg4.unread x4) k)) (k0_pay15 (ldW c tbQ X2 i k)) x = _
  rw [ldC_eq, ldQ_eq, ldW_eq]
  refine sbar_at x3 x4 v0 v2 v4 (lenAt c tbQ X2 i) (rowOf k) _ x ?_ ?_ ?_
  · show k0_off1 k 0 + 1 * (x 0).val = k.val
    have h : (x 0).val < 1 := (x 0).isLt
    rw [off1_0]; omega
  · show k0_off1 k 1 + 1 * (x 1).val = (x 1).val
    rw [off1_1]; omega
  · show k0_off1 k 2 + 1 * (x 2).val = (x 2).val
    rw [off1_2]; omega

theorem P10_pieces (c : Dev nD) (i : grid0.Coords) (arg3 : Memref sig .tc .vmem S4x1024x128 .f32) (harg3 : arg3.IsWhole) (arg4 : Memref sig .tc .vmem S4x128x128 .f32) (harg4 : arg4.IsWhole)
    (v0 v2 : Vec F S128x1 .f32) (v4 : Vec F S1x1x128 .f32) (X1 : TbBuf (F := F) c tbC) (x3 : Vec F S4x1024x128 .f32) (x4 : Vec F S4x128x128 .f32) (k : Fin k0_t1_loop.trips) :
    ∀ p ∈ P10 c i arg3 arg4 v0 v2 v4 X1 (harg3.unread x3) (harg4.unread x4) k, ∀ x : p.1.shape.Idx,
      p.2 x = stBlk x3 x4 v0 v2 v4 (lenAt c tbC X1 i) (p.1.emb x) := by
  intro p hp
  rw [List.mem_singleton] at hp
  subst hp
  intro x
  show k0_pay19 (k0_pay13 (k0_pay1 v0) (k0_pay2 v2) (k0_pay3 v4) (ldC arg3 (harg3.unread x3) k) (ldQ arg4 (harg4.unread x4) k)) (k0_pay14 (ldW c tbC X1 i k)) x = _
  rw [ldC_eq, ldQ_eq, ldW_eq]
  refine st_at x3 x4 v0 v2 v4 (lenAt c tbC X1 i) (rowOf k) _ x ?_ ?_ ?_
  · show k0_off4 k 0 + 1 * (x 0).val = k.val
    have h : (x 0).val < 1 := (x 0).isLt
    rw [off4_0]; omega
  · show k0_off4 k 1 + 1 * (x 1).val = (x 1).val
    rw [off4_1]; omega
  · show k0_off4 k 2 + 1 * (x 2).val = (x 2).val
    rw [off4_2]; omega

theorem P8_pieces (c : Dev nD) (i : grid0.Coords) (arg3 : Memref sig .tc .vmem S4x1024x128 .f32) (harg3 : arg3.IsWhole) (arg4 : Memref sig .tc .vmem S4x128x128 .f32) (harg4 : arg4.IsWhole)
    (v0 v2 : Vec F S128x1 .f32) (v4 : Vec F S1x1x128 .f32) (X1 : TbBuf (F := F) c tbC) (X2 : TbBuf (F := F) c tbQ) (x3 : Vec F S4x1024x128 .f32) (x4 : Vec F S4x128x128 .f32) (k : Fin k0_t1_loop.trips) :
    ∀ p ∈ P8 c i arg3 arg4 v0 v2 v4 X1 X2 (harg3.unread x3) (harg4.unread x4) k, ∀ x : p.1.shape.Idx,
      p.2 x = resBlk x3 x4 v0 v2 v4 (lenAt c tbC X1 i) (lenAt c tbQ X2 i) (p.1.emb x) := by
  intro p hp
  simp only [List.mem_cons, List.not_mem_nil, or_false] at hp
  rcases hp with rfl | rfl | rfl | rfl
  · intro x
    show k0_pay7 (k0_pay8 (ldC arg3 (harg3.unread x3) k)) (k0_pay22 (k0_pay9 (ldC arg3 (harg3.unread x3) k)) (k0_pay12 (k0_pay1 v0) (k0_pay2 v2) (k0_pay3 v4) (ldC arg3 (harg3.unread x3) k) (ldQ arg4 (harg4.unread x4) k)) (k0_pay13 (k0_pay1 v0) (k0_pay2 v2) (k0_pay3 v4) (ldC arg3 (harg3.unread x3) k) (ldQ arg4 (harg4.unread x4) k)) (k0_pay14 (ldW c tbC X1 i k)) (k0_pay15 (ldW c tbQ X2 i k))) x = _
    rw [ldC_eq, ldQ_eq, ldW_eq, ldW_eq]
    refine res_at3 x3 x4 v0 v2 v4 (lenAt c tbC X1 i) (lenAt c tbQ X2 i) (rowOf k) _ x ?_ ?_ ?_
    · show k0_off8 k 0 + 1 * (x 0).val = k.val
      have h : (x 0).val < 1 := (x 0).isLt
      rw [off8_0]; omega
    · show k0_off8 k 1 + 1 * (x 1).val = (x 1).val
      rw [off8_1]; omega
    · show k0_off8 k 2 + 1 * (x 2).val = 384 + (x 2).val
      rw [off8_2]; omega
  · intro x
    show k0_pay6 (k0_pay8 (ldC arg3 (harg3.unread x3) k)) (k0_pay21 (k0_pay10 (ldQ arg4 (harg4.unread x4) k)) (k0_pay12 (k0_pay1 v0) (k0_pay2 v2) (k0_pay3 v4) (ldC arg3 (harg3.unread x3) k) (ldQ arg4 (harg4.unread x4) k)) (k0_pay15 (ldW c tbQ X2 i k))) x = _
    rw [ldC_eq, ldQ_eq, ldW_eq]
    refine res_at2 x3 x4 v0 v2 v4 (lenAt c tbC X1 i) (lenAt c tbQ X2 i) (rowOf k) _ x ?_ ?_ ?_
    · show k0_off7 k 0 + 1 * (x 0).val = k.val
      have h : (x 0).val < 1 := (x 0).isLt
      rw [off7_0]; omega
    · show k0_off7 k 1 + 1 * (x 1).val = (x 1).val
      rw [off7_1]; omega
    · show k0_off7 k 2 + 1 * (x 2).val = 256 + (x 2).val
      rw [off7_2]; omega
  · intro x
    show k0_pay5 (k0_pay21 (k0_pay10 (ldQ arg4 (harg4.unread x4) k)) (k0_pay12 (k0_pay1 v0) (k0_pay2 v2) (k0_pay3 v4) (ldC arg3 (harg3.unread x3) k) (ldQ arg4 (harg4.unread x4) k)) (k0_pay15 (ldW c tbQ X2 i k))) x = _
    rw [ldC_eq, ldQ_eq, ldW_eq]
    refine res_at1 x3 x4 v0 v2 v4 (lenAt c tbC X1 i) (lenAt c tbQ X2 i) (rowOf k) _ x ?_ ?_ ?_
    · show k0_off6 k 0 + 1 * (x 0).val = k.val
      have h : (x 0).val < 1 := (x 0).isLt
      rw [off6_0]; omega
    · show k0_off6 k 1 + 1 * (x 1).val = (x 1).val
      rw [off6_1]; omega
    · show k0_off6 k 2 + 1 * (x 2).val = 128 + (x 2).val
      rw [off6_2]; omega
  · intro x
    show k0_pay4 (k0_pay8 (ldC arg3 (harg3.unread x3) k)) x = _
    rw [ldC_eq]
    refine res_at0 x3 x4 v0 v2 v4 (lenAt c tbC X1 i) (lenAt c tbQ X2 i) (rowOf k) _ x ?_ ?_ ?_
    · show k0_off5 k 0 + 1 * (x 0).val = k.val
      have h : (x 0).val < 1 := (x 0).isLt
      rw [off5_0]; omega
    · show k0_off5 k 1 + 1 * (x 1).val = (x 1).val
      rw [off5_1]; omega
    · show k0_off5 k 2 + 1 * (x 2).val = 0 + (x 2).val
      rw [off5_2]; omega

/-- The batch row of an index, as a trip. -/
def tripOf (n : ℕ) (h : n < 4) : Fin k0_t1_loop.trips := ⟨n, by rw [trips_eq]; exact h⟩

/-- The four trips' pieces cover each output block: an index of batch row r lies in trip r's piece (for the result block,
    in the piece of its column group). -/
theorem P9_cover (c : Dev nD) (i : grid0.Coords) (arg3 : Memref sig .tc .vmem S4x1024x128 .f32) (arg4 : Memref sig .tc .vmem S4x128x128 .f32)
    (v0 v2 : Vec F S128x1 .f32) (v4 : Vec F S1x1x128 .f32) (X2 : TbBuf (F := F) c tbQ) (X3 : BufTy.Contents (Elt F) arg3.view.ty) (X4 : BufTy.Contents (Elt F) arg4.view.ty) (y : S4x1024x128.Idx) :
    ∃ p ∈ piecesBefore (P9 c i arg3 arg4 v0 v2 v4 X2 X3 X4) k0_t1_loop.trips, y ∈ p.1.set := by
  have hy0 : (y 0).val < 4 := (y 0).isLt
  have hy1 : (y 1).val < 1024 := (y 1).isLt
  have hy2 : (y 2).val < 128 := (y 2).isLt
  refine ⟨_, (mem_piecesBefore _ _ _).mpr ⟨tripOf (y 0).val hy0, (tripOf (y 0).val hy0).isLt, List.mem_singleton_self _⟩, ?_⟩
  rw [Rect.mem_set_unit]
  intro a
  match a with
  | ⟨0, _⟩ =>
    show k0_off1 (tripOf (y 0).val hy0) 0 ≤ (y 0).val ∧ (y 0).val < k0_off1 (tripOf (y 0).val hy0) 0 + 1
    rw [off1_0]; show (y 0).val ≤ (y 0).val ∧ (y 0).val < (y 0).val + 1; omega
  | ⟨1, _⟩ =>
    show k0_off1 (tripOf (y 0).val hy0) 1 ≤ (y 1).val ∧ (y 1).val < k0_off1 (tripOf (y 0).val hy0) 1 + 1024
    rw [off1_1]; omega
  | ⟨2, _⟩ =>
    show k0_off1 (tripOf (y 0).val hy0) 2 ≤ (y 2).val ∧ (y 2).val < k0_off1 (tripOf (y 0).val hy0) 2 + 128
    rw [off1_2]; omega

theorem P10_cover (c : Dev nD) (i : grid0.Coords) (arg3 : Memref sig .tc .vmem S4x1024x128 .f32) (arg4 : Memref sig .tc .vmem S4x128x128 .f32)
    (v0 v2 : Vec F S128x1 .f32) (v4 : Vec F S1x1x128 .f32) (X1 : TbBuf (F := F) c tbC) (X3 : BufTy.Contents (Elt F) arg3.view.ty) (X4 : BufTy.Contents (Elt F) arg4.view.ty) (y : S4x128x1024.Idx) :
    ∃ p ∈ piecesBefore (P10 c i arg3 arg4 v0 v2 v4 X1 X3 X4) k0_t1_loop.trips, y ∈ p.1.set := by
  have hy0 : (y 0).val < 4 := (y 0).isLt
  have hy1 : (y 1).val < 128 := (y 1).isLt
  have hy2 : (y 2).val < 1024 := (y 2).isLt
  refine ⟨_, (mem_piecesBefore _ _ _).mpr ⟨tripOf (y 0).val hy0, (tripOf (y 0).val hy0).isLt, List.mem_singleton_self _⟩, ?_⟩
  rw [Rect.mem_set_unit]
  intro a
  match a with
  | ⟨0, _⟩ =>
    show k0_off4 (tripOf (y 0).val hy0) 0 ≤ (y 0).val ∧ (y 0).val < k0_off4 (tripOf (y 0).val hy0) 0 + 1
    rw [off4_0]; show (y 0).val ≤ (y 0).val ∧ (y 0).val < (y 0).val + 1; omega
  | ⟨1, _⟩ =>
    show k0_off4 (tripOf (y 0).val hy0) 1 ≤ (y 1).val ∧ (y 1).val < k0_off4 (tripOf (y 0).val hy0) 1 + 128
    rw [off4_1]; omega
  | ⟨2, _⟩ =>
    show k0_off4 (tripOf (y 0).val hy0) 2 ≤ (y 2).val ∧ (y 2).val < k0_off4 (tripOf (y 0).val hy0) 2 + 1024
    rw [off4_2]; omega

theorem P8_cover (c : Dev nD) (i : grid0.Coords) (arg3 : Memref sig .tc .vmem S4x1024x128 .f32) (arg4 : Memref sig .tc .vmem S4x128x128 .f32)
    (v0 v2 : Vec F S128x1 .f32) (v4 : Vec F S1x1x128 .f32) (X1 : TbBuf (F := F) c tbC) (X2 : TbBuf (F := F) c tbQ) (X3 : BufTy.Contents (Elt F) arg3.view.ty) (X4 : BufTy.Contents (Elt F) arg4.view.ty) (y : S4x1024x512.Idx) :
    ∃ p ∈ piecesBefore (P8 c i arg3 arg4 v0 v2 v4 X1 X2 X3 X4) k0_t1_loop.trips, y ∈ p.1.set := by
  have hy0 : (y 0).val < 4 := (y 0).isLt
  have hy1 : (y 1).val < 1024 := (y 1).isLt
  have hy2 : (y 2).val < 512 := (y 2).isLt
  by_cases c1 : (y 2).val < 128
  · refine ⟨_, (mem_piecesBefore _ _ _).mpr ⟨tripOf (y 0).val hy0, (tripOf (y 0).val hy0).isLt,
      List.mem_cons_of_mem _ (List.mem_cons_of_mem _ (List.mem_cons_of_mem _ (List.mem_singleton_self _)))⟩, ?_⟩
    rw [Rect.mem_set_unit]
    intro a
    match a with
    | ⟨0, _⟩ =>
      show k0_off5 (tripOf (y 0).val hy0) 0 ≤ (y 0).val ∧ (y 0).val < k0_off5 (tripOf (y 0).val hy0) 0 + 1
      rw [off5_0]; show (y 0).val ≤ (y 0).val ∧ (y 0).val < (y 0).val + 1; omega
    | ⟨1, _⟩ =>
      show k0_off5 (tripOf (y 0).val hy0) 1 ≤ (y 1).val ∧ (y 1).val < k0_off5 (tripOf (y 0).val hy0) 1 + 1024
      rw [off5_1]; omega
    | ⟨2, _⟩ =>
      show k0_off5 (tripOf (y 0).val hy0) 2 ≤ (y 2).val ∧ (y 2).val < k0_off5 (tripOf (y 0).val hy0) 2 + 128
      rw [off5_2]; omega
  by_cases c2 : (y 2).val < 256
  · refine ⟨_, (mem_piecesBefore _ _ _).mpr ⟨tripOf (y 0).val hy0, (tripOf (y 0).val hy0).isLt,
      List.mem_cons_of_mem _ (List.mem_cons_of_mem _ List.mem_cons_self)⟩, ?_⟩
    rw [Rect.mem_set_unit]
    intro a
    match a with
    | ⟨0, _⟩ =>
      show k0_off6 (tripOf (y 0).val hy0) 0 ≤ (y 0).val ∧ (y 0).val < k0_off6 (tripOf (y 0).val hy0) 0 + 1
      rw [off6_0]; show (y 0).val ≤ (y 0).val ∧ (y 0).val < (y 0).val + 1; omega
    | ⟨1, _⟩ =>
      show k0_off6 (tripOf (y 0).val hy0) 1 ≤ (y 1).val ∧ (y 1).val < k0_off6 (tripOf (y 0).val hy0) 1 + 1024
      rw [off6_1]; omega
    | ⟨2, _⟩ =>
      show k0_off6 (tripOf (y 0).val hy0) 2 ≤ (y 2).val ∧ (y 2).val < k0_off6 (tripOf (y 0).val hy0) 2 + 128
      rw [off6_2]; omega
  by_cases c3 : (y 2).val < 384
  · refine ⟨_, (mem_piecesBefore _ _ _).mpr ⟨tripOf (y 0).val hy0, (tripOf (y 0).val hy0).isLt,
      List.mem_cons_of_mem _ List.mem_cons_self⟩, ?_⟩
    rw [Rect.mem_set_unit]
    intro a
    match a with
    | ⟨0, _⟩ =>
      show k0_off7 (tripOf (y 0).val hy0) 0 ≤ (y 0).val ∧ (y 0).val < k0_off7 (tripOf (y 0).val hy0) 0 + 1
      rw [off7_0]; show (y 0).val ≤ (y 0).val ∧ (y 0).val < (y 0).val + 1; omega
    | ⟨1, _⟩ =>
      show k0_off7 (tripOf (y 0).val hy0) 1 ≤ (y 1).val ∧ (y 1).val < k0_off7 (tripOf (y 0).val hy0) 1 + 1024
      rw [off7_1]; omega
    | ⟨2, _⟩ =>
      show k0_off7 (tripOf (y 0).val hy0) 2 ≤ (y 2).val ∧ (y 2).val < k0_off7 (tripOf (y 0).val hy0) 2 + 128
      rw [off7_2]; omega
  · refine ⟨_, (mem_piecesBefore _ _ _).mpr ⟨tripOf (y 0).val hy0, (tripOf (y 0).val hy0).isLt, List.mem_cons_self⟩, ?_⟩
    rw [Rect.mem_set_unit]
    intro a
    match a with
    | ⟨0, _⟩ =>
      show k0_off8 (tripOf (y 0).val hy0) 0 ≤ (y 0).val ∧ (y 0).val < k0_off8 (tripOf (y 0).val hy0) 0 + 1
      rw [off8_0]; show (y 0).val ≤ (y 0).val ∧ (y 0).val < (y 0).val + 1; omega
    | ⟨1, _⟩ =>
      show k0_off8 (tripOf (y 0).val hy0) 1 ≤ (y 1).val ∧ (y 1).val < k0_off8 (tripOf (y 0).val hy0) 1 + 1024
      rw [off8_1]; omega
    | ⟨2, _⟩ =>
      show k0_off8 (tripOf (y 0).val hy0) 2 ≤ (y 2).val ∧ (y 2).val < k0_off8 (tripOf (y 0).val hy0) 2 + 128
      rw [off8_2]; omega

/-- What the loop leaves in each output block reads as the block's function, whatever the block held before. -/
theorem read9 (c : Dev nD) (i : grid0.Coords) (arg3 : Memref sig .tc .vmem S4x1024x128 .f32) (harg3 : arg3.IsWhole) (arg4 : Memref sig .tc .vmem S4x128x128 .f32) (harg4 : arg4.IsWhole)
    (arg9 : Memref sig .tc .vmem S4x1024x128 .f32) (v0 v2 : Vec F S128x1 .f32) (v4 : Vec F S1x1x128 .f32) (X2 : TbBuf (F := F) c tbQ) (x3 : Vec F S4x1024x128 .f32) (x4 : Vec F S4x128x128 .f32)
    (G9 : BufTy.Contents (Elt F) arg9.view.ty) :
    arg9.view.read (Elt F) (arg9.view.writes (Elt F) G9 (piecesBefore (P9 c i arg3 arg4 v0 v2 v4 X2 (harg3.unread x3) (harg4.unread x4)) k0_t1_loop.trips))
      = sbarBlk x3 x4 v0 v2 v4 (lenAt c tbQ X2 i) := by
  funext y
  refine View.read_writes_apply_of_pieces arg9.view G9 (sbarBlk x3 x4 v0 v2 v4 (lenAt c tbQ X2 i)) _ ?_ y (P9_cover c i arg3 arg4 v0 v2 v4 X2 _ _ y)
  intro p hp
  obtain ⟨k, -, hpk⟩ := (mem_piecesBefore _ _ _).mp hp
  exact P9_pieces c i arg3 harg3 arg4 harg4 v0 v2 v4 X2 x3 x4 k p hpk

theorem read10 (c : Dev nD) (i : grid0.Coords) (arg3 : Memref sig .tc .vmem S4x1024x128 .f32) (harg3 : arg3.IsWhole) (arg4 : Memref sig .tc .vmem S4x128x128 .f32) (harg4 : arg4.IsWhole)
    (arg10 : Memref sig .tc .vmem S4x128x1024 .f32) (v0 v2 : Vec F S128x1 .f32) (v4 : Vec F S1x1x128 .f32) (X1 : TbBuf (F := F) c tbC) (x3 : Vec F S4x1024x128 .f32) (x4 : Vec F S4x128x128 .f32)
    (G10 : BufTy.Contents (Elt F) arg10.view.ty) :
    arg10.view.read (Elt F) (arg10.view.writes (Elt F) G10 (piecesBefore (P10 c i arg3 arg4 v0 v2 v4 X1 (harg3.unread x3) (harg4.unread x4)) k0_t1_loop.trips))
      = stBlk x3 x4 v0 v2 v4 (lenAt c tbC X1 i) := by
  funext y
  refine View.read_writes_apply_of_pieces arg10.view G10 (stBlk x3 x4 v0 v2 v4 (lenAt c tbC X1 i)) _ ?_ y (P10_cover c i arg3 arg4 v0 v2 v4 X1 _ _ y)
  intro p hp
  obtain ⟨k, -, hpk⟩ := (mem_piecesBefore _ _ _).mp hp
  exact P10_pieces c i arg3 harg3 arg4 harg4 v0 v2 v4 X1 x3 x4 k p hpk

theorem read8 (c : Dev nD) (i : grid0.Coords) (arg3 : Memref sig .tc .vmem S4x1024x128 .f32) (harg3 : arg3.IsWhole) (arg4 : Memref sig .tc .vmem S4x128x128 .f32) (harg4 : arg4.IsWhole)
    (arg8 : Memref sig .tc .vmem S4x1024x512 .f32) (v0 v2 : Vec F S128x1 .f32) (v4 : Vec F S1x1x128 .f32) (X1 : TbBuf (F := F) c tbC) (X2 : TbBuf (F := F) c tbQ) (x3 : Vec F S4x1024x128 .f32) (x4 : Vec F S4x128x128 .f32)
    (G8 : BufTy.Contents (Elt F) arg8.view.ty) :
    arg8.view.read (Elt F) (arg8.view.writes (Elt F) G8 (piecesBefore (P8 c i arg3 arg4 v0 v2 v4 X1 X2 (harg3.unread x3) (harg4.unread x4)) k0_t1_loop.trips))
      = resBlk x3 x4 v0 v2 v4 (lenAt c tbC X1 i) (lenAt c tbQ X2 i) := by
  funext y
  refine View.read_writes_apply_of_pieces arg8.view G8 (resBlk x3 x4 v0 v2 v4 (lenAt c tbC X1 i) (lenAt c tbQ X2 i)) _ ?_ y (P8_cover c i arg3 arg4 v0 v2 v4 X1 X2 _ _ y)
  intro p hp
  obtain ⟨k, -, hpk⟩ := (mem_piecesBefore _ _ _).mp hp
  exact P8_pieces c i arg3 harg3 arg4 harg4 v0 v2 v4 X1 X2 x3 x4 k p hpk

end Trip

open Trip

set_option maxHeartbeats 1000000 in
/-- THE BODY at grid coordinate i on any whole staging memrefs: holding the five input blocks at their contents, the
    three output blocks at anything and the two tables at half share, it runs to its end holding the inputs and the
    tables as they were and the outputs at the three block functions above. -/
theorem bodyRun (c : Dev nD) (i : grid0.Coords) (arg3 : Memref sig .tc .vmem S4x1024x128 .f32) (harg3 : arg3.IsWhole) (arg4 : Memref sig .tc .vmem S4x128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x1x128 .f32) (harg7 : arg7.IsWhole) (arg8 : Memref sig .tc .vmem S4x1024x512 .f32) (harg8 : arg8.IsWhole) (arg9 : Memref sig .tc .vmem S4x1024x128 .f32) (harg9 : arg9.IsWhole) (arg10 : Memref sig .tc .vmem S4x128x1024 .f32) (harg10 : arg10.IsWhole)
    (x3 : Vec F S4x1024x128 .f32) (x4 : Vec F S4x128x128 .f32) (x5 x6 : Vec F S128x1 .f32) (x7 : Vec F S1x1x128 .f32) (xtC : TbBuf (F := F) c tbC) (xtQ : TbBuf (F := F) c tbQ) (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ tbPt c tbC xtC ∗ tbPt c tbQ xtQ
        ∗ (iprop(owns (c : Thread nD τ) arg3 fullShare x3 ∗ owns (c : Thread nD τ) arg4 fullShare x4 ∗ owns (c : Thread nD τ) arg5 fullShare x5
              ∗ owns (c : Thread nD τ) arg6 fullShare x6 ∗ owns (c : Thread nD τ) arg7 fullShare x7
              ∗ owns (c : Thread nD τ) arg8 fullShare (resBlk x3 x4 x5 x6 x7 (lenAt c tbC xtC i) (lenAt c tbQ xtQ i))
              ∗ owns (c : Thread nD τ) arg9 fullShare (sbarBlk x3 x4 x5 x6 x7 (lenAt c tbQ xtQ i))
              ∗ owns (c : Thread nD τ) arg10 fullShare (stBlk x3 x4 x5 x6 x7 (lenAt c tbC xtC i))
              ∗ tbPt c tbC xtC ∗ tbPt c tbQ xtQ) -∗ K ⟨⟩))
      ⊢ wp frame (wpE (defs₀ (F := F)) Variants.none c none) E
          (cc0__cq_kernel i tbC htbC tbQ htbQ arg3 harg3 arg4 harg4 arg5 harg5 arg6 harg6 arg7 harg7 arg8 harg8 arg9 harg9 arg10 harg10) K := by
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HT1, HT2, Hk⟩
  obtain rfl := harg3.eq_unread hf3
  obtain rfl := harg4.eq_unread hf4
  obtain rfl := harg5.eq_unread hf5
  obtain rfl := harg6.eq_unread hf6
  obtain rfl := harg7.eq_unread hf7
  simp only [cc0__cq_kernel_eq_skeleton]; unfold cc0__cq_kernel_skel
  sl_exec
  sl_step
  have e5 := ld_whole (F := F) arg5 harg5 x5 (off := ![0, 0]) (funext fun a => by fin_cases a <;> rfl) inb_S128x1_S128x1_0_0
  have e6 := ld_whole (F := F) arg6 harg6 x6 (off := ![0, 0]) (funext fun a => by fin_cases a <;> rfl) inb_S128x1_S128x1_0_0
  have e7 := ld_whole (F := F) arg7 harg7 x7 (off := ![0, 0, 0]) (funext fun a => by fin_cases a <;> rfl) inb_S1x1x128_S1x1x128_0_0_0
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    rw [e5, e6, e7]
    exact read8 c i arg3 harg3 arg4 harg4 arg8 x5 x6 x7 xtC xtQ x3 x4 f8
  isplitl [H9]
  · iexists _; isplitr
    swap; · iexact H9
    ipureintro
    rw [e5, e6, e7]
    exact read9 c i arg3 harg3 arg4 harg4 arg9 x5 x6 x7 xtQ x3 x4 f9
  isplitl [H10]
  · iexists _; isplitr
    swap; · iexact H10
    ipureintro
    rw [e5, e6, e7]
    exact read10 c i arg3 harg3 arg4 harg4 arg10 x5 x6 x7 xtC x3 x4 f10
  isplitl [HT1]; · iexact HT1
  iexact HT2

end Cert.KernelIdeal.Hand

end
-- ==== Proof.KI.Sched.lean ====
/-
  The launch of the one pallas_call, seen from its body.

  @main reshapes the two length arrays ([64,1] to [64]) into scalar memory and then enters the region, whose
  pipeline walks a grid of 16 points; at point t it stages block t (four batches) of the context and question rows,
  keeps the three weight blocks staged from the first point on, and writes the three output blocks back after
  the body. This module states what the region finds (the arrays after the two reshapes, the tables' words),
  which staging buffers the body is called on at each point, the block each window holds there, and that every
  input window's buffer holds its block whenever the body runs.
-/
import proofs.«417795_j72791105733170_3_alg».proof.Proof.Gen.KernelIdeal.Launch
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core c's buffers when the region is entered: the launch memory after the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two reshapes and then the region. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Neither reshape writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- Neither reshape writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Neither reshape writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- Neither reshape writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- Neither reshape writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- Neither reshape writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
/-- Neither reshape writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-! ## The two length tables -/

/-- The tables' contents when the region is entered (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No window's block index reads a table, so every contents of the tables is admissible. -/
abbrev adm : (pcfg0 (F := F)).Adm := ⟨tbl m, by show ok0 (F := F) (tbl m); rw [ok0.eq_1]; trivial⟩
/-- The pipeline at the tables' contents. -/
abbrev cfgM : Pipeline.Cfg sig Λ₀ := cfg0 (adm m)

/-! ## The body's buffers at a point -/

abbrev ms0 (t : Fin (cfgM m).N) : Memref sig .tc .vmem S4x1024x128 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S4x128x128 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S128x1 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S128x1 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x1x128 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S4x1024x512 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S4x1024x128 .f32 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S4x128x1024 .f32 := spec0_7.stage ((cfgM m).slots t 7)
abbrev hs7 (t : Fin (cfgM m).N) : (ms7 m t).IsWhole := hstage0_7 (((cfgM m).slots t 7).cast nbuf0_7)

/-- Window w's block at point t, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-! ## An input window's buffer holds its block whenever the body runs

  Fetched at the point, or not (the weight blocks are fetched once; their index never moves). -/

theorem before_in0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KI.Data.lean ====
/-
  The proof data of the pipeline and its run.

  After the body at grid point t each input window's buffer still holds its block, and the three output
  windows' buffers hold the three block functions of the body (rows 4t … 4t+3 of the three results, computed from
  the point's input blocks and the four length words of those rows). Nothing is carried from point to point,
  so the pipeline's invariant is only the unused scoped buffers, the generator register and the two tables at
  half share. With the body's triple this gives the body obligation at every point, the launch theorem gives the
  run, and the run's post read at the argument arrays is the frame claim.
-/
import proofs.«417795_j72791105733170_3_alg».proof.Proof.KI.Body
import proofs.«417795_j72791105733170_3_alg».proof.Proof.KI.Sched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables' halves the region hands the body, table by table. -/
theorem PhiT_eq (c : Dev nD) :
    (Pipeline.ΦT pre0 (tbl m) c : sProp 𝕄) = iprop(tbPt c tbC (tbl m 0) ∗ tbPt c tbQ (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The proof data on core c. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resBlk (iblk m c 0 t) (iblk m c 1 t) (iblk m c 2 t) (iblk m c 3 t) (iblk m c 4 t) (lenAt c tbC (tbl m 0) (grid0.coords t)) (lenAt c tbQ (tbl m 1) (grid0.coords t))
    | ⟨6, _⟩ => sbarBlk (iblk m c 0 t) (iblk m c 1 t) (iblk m c 2 t) (iblk m c 3 t) (iblk m c 4 t) (lenAt c tbQ (tbl m 1) (grid0.coords t))
    | ⟨7, _⟩ => stBlk (iblk m c 0 t) (iblk m c 1 t) (iblk m c 2 t) (iblk m c 3 t) (iblk m c 4 t) (lenAt c tbC (tbl m 0) (grid0.coords t))
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = resBlk (iblk m c 0 t) (iblk m c 1 t) (iblk m c 2 t) (iblk m c 3 t) (iblk m c 4 t) (lenAt c tbC (tbl m 0) (grid0.coords t)) (lenAt c tbQ (tbl m 1) (grid0.coords t)) := by dsimp only [dats]; try rfl
theorem after6 (c : Dev nD) (t : Fin (cfgM m).N) : (dats m 0 c).after 6 t = sbarBlk (iblk m c 0 t) (iblk m c 1 t) (iblk m c 2 t) (iblk m c 3 t) (iblk m c 4 t) (lenAt c tbQ (tbl m 1) (grid0.coords t)) := by dsimp only [dats]; try rfl
theorem after7 (c : Dev nD) (t : Fin (cfgM m).N) : (dats m 0 c).after 7 t = stBlk (iblk m c 0 t) (iblk m c 1 t) (iblk m c 2 t) (iblk m c 3 t) (iblk m c 4 t) (lenAt c tbC (tbl m 0) (grid0.coords t)) := by dsimp only [dats]; try rfl

theorem before0 (c : Dev nD) (t : Fin (cfgM m).N) (d) : (dats m 0 c).before 0 t d = iblk m c 0 t :=
  before_in0 m (dats m 0 c) (A_eq m c 0) (after0 m c) t d
theorem before1 (c : Dev nD) (t : Fin (cfgM m).N) (d) : (dats m 0 c).before 1 t d = iblk m c 1 t :=
  before_in1 m (dats m 0 c) (A_eq m c 1) (after1 m c) t d
theorem before2 (c : Dev nD) (t : Fin (cfgM m).N) (d) : (dats m 0 c).before 2 t d = iblk m c 2 t :=
  before_in2 m (dats m 0 c) (A_eq m c 2) (after2 m c) t d
theorem before3 (c : Dev nD) (t : Fin (cfgM m).N) (d) : (dats m 0 c).before 3 t d = iblk m c 3 t :=
  before_in3 m (dats m 0 c) (A_eq m c 3) (after3 m c) t d
theorem before4 (c : Dev nD) (t : Fin (cfgM m).N) (d) : (dats m 0 c).before 4 t d = iblk m c 4 t :=
  before_in4 m (dats m 0 c) (A_eq m c 4) (after4 m c) t d

/-! ## The body obligation -/

/-- The body as the pipeline calls it at point t. -/
abbrev bodyAt (t : Fin (cfgM m).N) : Prog (TpuEff nD τ sig (Elt F) Λ₀ .tc) PUnit :=
  cc0__cq_kernel (grid0.coords t) tbC htbC tbQ htbQ (ms0 m t) (hs0 m t) (ms1 m t) (hs1 m t) (ms2 m t) (hs2 m t) (ms3 m t) (hs3 m t)
    (ms4 m t) (hs4 m t) (ms5 m t) (hs5 m t) (ms6 m t) (hs6 m t) (ms7 m t) (hs7 m t)

/-- What the body is called with at point t, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t)
    ∗ owns (c : Thread nD τ) (ms7 m t) fullShare ((dats m 0 c).after 7 t))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = iprop(Pipeline.ΦA spec0 c ∗ Pipeline.ΦT pre0 (tbl m) c) from rfl, PhiT_eq]
  iintro ⟨⟨HΦ, ⟨HTC, HTQ⟩⟩, Ho, H0, H1, H2, H3, H4, ⟨%d5, H5⟩, ⟨%d6, H6⟩, ⟨%d7, H7⟩⟩
  icases H0 with ⟨%e0, H0⟩
  icases H1 with ⟨%e1, H1⟩
  icases H2 with ⟨%e2, H2⟩
  icases H3 with ⟨%e3, H3⟩
  icases H4 with ⟨%e4, H4⟩
  iapply (bodyRun c (grid0.coords t) (ms0 m t) (hs0 m t) (ms1 m t) (hs1 m t) (ms2 m t) (hs2 m t) (ms3 m t) (hs3 m t)
    (ms4 m t) (hs4 m t) (ms5 m t) (hs5 m t) (ms6 m t) (hs6 m t) (ms7 m t) (hs7 m t)
    (iblk m c 0 t) (iblk m c 1 t) (iblk m c 2 t) (iblk m c 3 t) (iblk m c 4 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HTC]; · iexact HTC
  isplitl [HTQ]; · iexact HTQ
  iintro ⟨H0, H1, H2, H3, H4, H5, H6, H7, HTC, HTQ⟩
  isplitl [HΦ HTC HTQ]
  · isplitl [HΦ]; · iexact HΦ
    isplitl [HTC]; · iexact HTC
    iexact HTQ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline holds what
    the write-backs of the proof data leave and every other unscoped buffer what the region found. -/
theorem run_main : θ_run defs (onTc (τ := τ) (main (F := F))) (s₀ m ρ)
    (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The seven argument arrays end as launched: the five staged inputs by the pipeline's account of an input array,
    the two length arrays as buffers that bypass the region; none is written by the two reshapes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) (run_main m ρ)

end Cert.KernelIdeal.Hand

end
-- ==== Proof.KI.Reads.lean ====
/-
  What the body is handed at a grid point, in terms of the launch memory.

  The grid has 16 points. The context and question windows move with the point: block t of each is the four
  batches 4·t … 4·t+3 of its array, so entry (k, r, d) of the block is entry (4·t + k, r, d) of the array. The three
  weight windows have one block, the whole array, at every point. Each length table is its [64, 1] argument
  reshaped to [64] before the region, so the word the body reads for batch row k at point t, position
  (4·t + k) mod 64 = 4·t + k of the table, is row 4·t + k of that argument.
-/
import proofs.«417795_j72791105733170_3_alg».proof.Proof.KI.Body
import proofs.«417795_j72791105733170_3_alg».proof.Proof.KI.Sched
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The index maps of the two moving windows, decided over the grid: block (t, 0, 0) at point t. -/
theorem idx0 : ∀ t : Fin grid0.N, cc0_transform_0 (grid0.coords t) 0 = t.val ∧ cc0_transform_0 (grid0.coords t) 1 = 0 ∧ cc0_transform_0 (grid0.coords t) 2 = 0 := by decide +kernel
theorem idx1 : ∀ t : Fin grid0.N, cc0_transform_1 (grid0.coords t) 0 = t.val ∧ cc0_transform_1 (grid0.coords t) 1 = 0 ∧ cc0_transform_1 (grid0.coords t) 2 = 0 := by decide +kernel
/-- The one grid coordinate of point t is t. -/
theorem coords0 : ∀ t : Fin grid0.N, ((grid0.coords t) 0).val = t.val := by decide +kernel

/-- Context block t at (k, r, d) is the context array at (4·t + k, r, d). -/
theorem iblk0_apply (c : Dev nD) (t : Fin (cfgM m).N) (k : Fin 4) (r : Fin 1024) (d : Fin 128) :
    (iblk m c 0 t : Vec F S4x1024x128 .f32) (ix3 k r d) = (m ((c : Thread nD τ).loc main_arg0) : Vec F S64x1024x128 .f32) (ix3 (⟨4 * t.val + k.val, by have := t.isLt; have h : (cfgM m).N = 16 := N_0; omega⟩ : Fin 64) r d) := by
  unfold iblk
  show V m c main_arg0 ((((cfgM m).win 0).blk t).view.emb (ix3 k r d)) = _
  rw [V_main_arg0]
  refine congrArg _ ?_
  obtain ⟨e0, e1, e2⟩ := idx0 t
  funext a; apply Fin.ext
  match a with
  | ⟨0, _⟩ => show cc0_transform_0 (grid0.coords t) 0 * 4 + 1 * k.val = 4 * t.val + k.val; omega
  | ⟨1, _⟩ => show cc0_transform_0 (grid0.coords t) 1 * 1024 + 1 * r.val = r.val; omega
  | ⟨2, _⟩ => show cc0_transform_0 (grid0.coords t) 2 * 128 + 1 * d.val = d.val; omega

/-- Question block t at (k, q, d) is the question array at (4·t + k, q, d). -/
theorem iblk1_apply (c : Dev nD) (t : Fin (cfgM m).N) (k : Fin 4) (q : Fin 128) (d : Fin 128) :
    (iblk m c 1 t : Vec F S4x128x128 .f32) (ix3 k q d) = (m ((c : Thread nD τ).loc main_arg1) : Vec F S64x128x128 .f32) (ix3 (⟨4 * t.val + k.val, by have := t.isLt; have h : (cfgM m).N = 16 := N_0; omega⟩ : Fin 64) q d) := by
  unfold iblk
  show V m c main_arg1 ((((cfgM m).win 1).blk t).view.emb (ix3 k q d)) = _
  rw [V_main_arg1]
  refine congrArg _ ?_
  obtain ⟨e0, e1, e2⟩ := idx1 t
  funext a; apply Fin.ext
  match a with
  | ⟨0, _⟩ => show cc0_transform_1 (grid0.coords t) 0 * 4 + 1 * k.val = 4 * t.val + k.val; omega
  | ⟨1, _⟩ => show cc0_transform_1 (grid0.coords t) 1 * 128 + 1 * q.val = q.val; omega
  | ⟨2, _⟩ => show cc0_transform_1 (grid0.coords t) 2 * 128 + 1 * d.val = d.val; omega

/-- The one block of a weight window is the whole array (block index 0 on every axis). -/
theorem iblk2_eq (c : Dev nD) (t : Fin (cfgM m).N) :
    (iblk m c 2 t : Vec F S128x1 .f32) = (m ((c : Thread nD τ).loc main_arg2) : Vec F S128x1 .f32) := by
  refine funext fun (j : S128x1.Idx) => ?_
  unfold iblk
  show V m c main_arg2 ((((cfgM m).win 2).blk t).view.emb j) = _
  rw [V_main_arg2]
  refine congrArg _ ?_
  funext a; apply Fin.ext
  match a with
  | ⟨0, _⟩ => show 0 * 128 + 1 * (j 0).val = (j 0).val; omega
  | ⟨1, _⟩ => show 0 * 1 + 1 * (j 1).val = (j 1).val; omega

theorem iblk3_eq (c : Dev nD) (t : Fin (cfgM m).N) :
    (iblk m c 3 t : Vec F S128x1 .f32) = (m ((c : Thread nD τ).loc main_arg3) : Vec F S128x1 .f32) := by
  refine funext fun (j : S128x1.Idx) => ?_
  unfold iblk
  show V m c main_arg3 ((((cfgM m).win 3).blk t).view.emb j) = _
  rw [V_main_arg3]
  refine congrArg _ ?_
  funext a; apply Fin.ext
  match a with
  | ⟨0, _⟩ => show 0 * 128 + 1 * (j 0).val = (j 0).val; omega
  | ⟨1, _⟩ => show 0 * 1 + 1 * (j 1).val = (j 1).val; omega

theorem iblk4_eq (c : Dev nD) (t : Fin (cfgM m).N) :
    (iblk m c 4 t : Vec F S1x1x128 .f32) = (m ((c : Thread nD τ).loc main_arg4) : Vec F S1x1x128 .f32) := by
  refine funext fun (j : S1x1x128.Idx) => ?_
  unfold iblk
  show V m c main_arg4 ((((cfgM m).win 4).blk t).view.emb j) = _
  rw [V_main_arg4]
  refine congrArg _ ?_
  funext a; apply Fin.ext
  match a with
  | ⟨0, _⟩ => show 0 * 1 + 1 * (j 0).val = (j 0).val; omega
  | ⟨1, _⟩ => show 0 * 1 + 1 * (j 1).val = (j 1).val; omega
  | ⟨2, _⟩ => show 0 * 128 + 1 * (j 2).val = (j 2).val; omega

/-- The first table is the context-length array, reshaped from [64, 1] to [64]. -/
theorem tbl0_eq : (tbl m 0 : S64.Idx → Elt F .i32) = shapeCast S64 (m (((0 : Dev nD) : Thread nD τ).loc main_arg5) : IVec S64x1 32) shapeCasts_S64x1_S64 := by
  show V m 0 main_v0 = _
  dsimp only [V, hostOps0]
  after_results
  rfl

/-- The second table is the question-length array, reshaped from [64, 1] to [64]. -/
theorem tbl1_eq : (tbl m 1 : S64.Idx → Elt F .i32) = shapeCast S64 (m (((0 : Dev nD) : Thread nD τ).loc main_arg6) : IVec S64x1 32) shapeCasts_S64x1_S64 := by
  show V m 0 main_v1 = _
  dsimp only [V, hostOps0]
  after_results
  rfl

/-- A reshape [64, 1] → [64] read at position n is the operand at row n. -/
theorem reshape64_apply {α : Type} (x : S64x1.Idx → α) (n : Fin 64) :
    shapeCast S64 x shapeCasts_S64x1_S64 (ix1 n) = x (ix2 n (0 : Fin 1)) := by
  refine shapeCast_apply x _ (ix1 n) (ix2 n (0 : Fin 1)) ?_
  rw [Shape.rowMajor_val_two, Shape.rowMajor_val_one]
  show n.val * 1 + 0 = n.val
  omega

/-- The context length the body reads for batch row k at point t is row 4·t + k of the length argument. -/
theorem lenC_eq (c : Dev nD) (t : Fin (cfgM m).N) (k : Fin 4) :
    lenAt c tbC (tbl m 0) (grid0.coords t) k = (m ((c : Thread nD τ).loc main_arg5) : IVec S64x1 32) (ix2 (⟨4 * t.val + k.val, by have := t.isLt; have h : (cfgM m).N = 16 := N_0; omega⟩ : Fin 64) 0) := by
  obtain rfl : c = 0 := Subsingleton.elim _ _
  have ht : t.val < 16 := by have := t.isLt; have h : (cfgM m).N = 16 := N_0; omega
  have hk := k.isLt
  have hc : ((grid0.coords t) 0).val = t.val := coords0 t
  have hn : (⟨(4 * ((grid0.coords t) 0).val + k.val) % 64, Nat.mod_lt _ (by decide)⟩ : Fin 64) = ⟨4 * t.val + k.val, by omega⟩ :=
    Fin.ext (by show (4 * ((grid0.coords t) 0).val + k.val) % 64 = 4 * t.val + k.val; rw [hc, Nat.mod_eq_of_lt (by omega)])
  unfold lenAt
  rw [hn]
  show (tbl m 0 : S64.Idx → Elt F .i32) (ix1 (⟨4 * t.val + k.val, by omega⟩ : Fin 64)) = _
  rw [tbl0_eq, reshape64_apply]

/-- The question length the body reads for batch row k at point t is row 4·t + k of the length argument. -/
theorem lenQ_eq (c : Dev nD) (t : Fin (cfgM m).N) (k : Fin 4) :
    lenAt c tbQ (tbl m 1) (grid0.coords t) k = (m ((c : Thread nD τ).loc main_arg6) : IVec S64x1 32) (ix2 (⟨4 * t.val + k.val, by have := t.isLt; have h : (cfgM m).N = 16 := N_0; omega⟩ : Fin 64) 0) := by
  obtain rfl : c = 0 := Subsingleton.elim _ _
  have ht : t.val < 16 := by have := t.isLt; have h : (cfgM m).N = 16 := N_0; omega
  have hk := k.isLt
  have hc : ((grid0.coords t) 0).val = t.val := coords0 t
  have hn : (⟨(4 * ((grid0.coords t) 0).val + k.val) % 64, Nat.mod_lt _ (by decide)⟩ : Fin 64) = ⟨4 * t.val + k.val, by omega⟩ :=
    Fin.ext (by show (4 * ((grid0.coords t) 0).val + k.val) % 64 = 4 * t.val + k.val; rw [hc, Nat.mod_eq_of_lt (by omega)])
  unfold lenAt
  rw [hn]
  show (tbl m 1 : S64.Idx → Elt F .i32) (ix1 (⟨4 * t.val + k.val, by omega⟩ : Fin 64)) = _
  rw [tbl1_eq, reshape64_apply]

end Cert.KernelIdeal.Hand

end
-- ==== Proof.KI.Final.lean ====
/-
  The three result arrays after the run, as functions of the launch memory.

  The pipeline writes block t of each output (batch rows 4t … 4t+3) back after the body at point t, and the
  sixteen blocks tile the 64 batch rows. The body's row k at point t is computed from batch row 4t+k of the
  context and question rows, the three weight arrays and the two length words of that row. So each result array,
  read at batch row b, is the loop trip's arithmetic applied to batch row b of the arguments — whatever the grid
  point and the trip that produced it.
-/
import proofs.«417795_j72791105733170_3_alg».proof.Proof.KI.Data
import proofs.«417795_j72791105733170_3_alg».proof.Proof.KI.Reads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The arguments, batch row by batch row -/

abbrev argXC (c : Dev nD) : Vec F S64x1024x128 .f32 := m ((c : Thread nD τ).loc main_arg0)
abbrev argXQ (c : Dev nD) : Vec F S64x128x128 .f32 := m ((c : Thread nD τ).loc main_arg1)
abbrev argW0 (c : Dev nD) : Vec F S128x1 .f32 := m ((c : Thread nD τ).loc main_arg2)
abbrev argW1 (c : Dev nD) : Vec F S128x1 .f32 := m ((c : Thread nD τ).loc main_arg3)
abbrev argW2 (c : Dev nD) : Vec F S1x1x128 .f32 := m ((c : Thread nD τ).loc main_arg4)
abbrev argCL (c : Dev nD) : IVec S64x1 32 := m ((c : Thread nD τ).loc main_arg5)
abbrev argQL (c : Dev nD) : IVec S64x1 32 := m ((c : Thread nD τ).loc main_arg6)

/-- Batch row b of the context rows and of the question rows, as one-batch blocks; the two lengths of batch b. -/
def rowC (c : Dev nD) (b : Fin 64) : Vec F S1x1024x128 .f32 := fun j => argXC m c (ix3 b (j 1) (j 2))
def rowQ (c : Dev nD) (b : Fin 64) : Vec F S1x128x128 .f32 := fun j => argXQ m c (ix3 b (j 1) (j 2))
def lenC (c : Dev nD) (b : Fin 64) : Elt F .i32 := argCL m c (ix2 b 0)
def lenQ (c : Dev nD) (b : Fin 64) : Elt F .i32 := argQL m c (ix2 b 0)

/-- The similarity scores of batch b, and transposed. -/
def scoreOf (c : Dev nD) (b : Fin 64) : FVec F S1024x128 .f32 :=
  k0_pay12 (k0_pay1 (argW0 m c)) (k0_pay2 (argW1 m c)) (k0_pay3 (argW2 m c)) (rowC m c b) (rowQ m c b)
def scoreTOf (c : Dev nD) (b : Fin 64) : FVec F S128x1024 .f32 :=
  k0_pay13 (k0_pay1 (argW0 m c)) (k0_pay2 (argW1 m c)) (k0_pay3 (argW2 m c)) (rowC m c b) (rowQ m c b)

/-- The two softmax arrays. -/
def sbarArr (c : Dev nD) : Vec F S64x1024x128 .f32 := fun i =>
  k0_pay18 (scoreOf m c (i 0)) (k0_pay15 (lenQ m c (i 0))) (ix3 0 (i 1) (i 2))
def stArr (c : Dev nD) : Vec F S64x128x1024 .f32 := fun i =>
  k0_pay19 (scoreTOf m c (i 0)) (k0_pay14 (lenC m c (i 0))) (ix3 0 (i 1) (i 2))
/-- The two attention products of batch b. -/
def c2qOf (c : Dev nD) (b : Fin 64) : FVec F S1024x128 .f32 :=
  k0_pay21 (k0_pay10 (rowQ m c b)) (scoreOf m c b) (k0_pay15 (lenQ m c b))
def q2cOf (c : Dev nD) (b : Fin 64) : FVec F S1024x128 .f32 :=
  k0_pay22 (k0_pay9 (rowC m c b)) (scoreOf m c b) (scoreTOf m c b) (k0_pay14 (lenC m c b)) (k0_pay15 (lenQ m c b))
/-- The result array: four groups of 128 columns. -/
def resArr (c : Dev nD) : Vec F S64x1024x512 .f32 := fun i =>
  if h1 : (i 2).val < 128 then
    k0_pay4 (k0_pay8 (rowC m c (i 0))) (ix3 0 (i 1) (⟨(i 2).val, h1⟩ : Fin 128))
  else if h2 : (i 2).val < 256 then
    k0_pay5 (c2qOf m c (i 0)) (ix3 0 (i 1) (⟨(i 2).val - 128, by omega⟩ : Fin 128))
  else if h3 : (i 2).val < 384 then
    k0_pay6 (k0_pay8 (rowC m c (i 0))) (c2qOf m c (i 0)) (ix3 0 (i 1) (⟨(i 2).val - 256, by omega⟩ : Fin 128))
  else
    k0_pay7 (k0_pay8 (rowC m c (i 0))) (q2cOf m c (i 0))
      (ix3 0 (i 1) (⟨(i 2).val - 384, by have h512 : (i 2).val < 512 := (i 2).isLt; omega⟩ : Fin 128))

/-! ## A point's blocks are batch rows 4t … 4t+3 -/

/-- The batch row that row k of point t's blocks is. -/
def rowAt (t : Fin (cfgM m).N) (k : Fin 4) : Fin 64 :=
  ⟨4 * t.val + k.val, by have := t.isLt; have h : (cfgM m).N = 16 := N_0; omega⟩

theorem cRow_iblk (c : Dev nD) (t : Fin (cfgM m).N) (k : Fin 4) :
    cRow (iblk m c 0 t : Vec F S4x1024x128 .f32) k = rowC m c (rowAt m t k) :=
  funext fun j => iblk0_apply m c t k (j 1) (j 2)
theorem qRow_iblk (c : Dev nD) (t : Fin (cfgM m).N) (k : Fin 4) :
    qRow (iblk m c 1 t : Vec F S4x128x128 .f32) k = rowQ m c (rowAt m t k) :=
  funext fun j => iblk1_apply m c t k (j 1) (j 2)

theorem scoreRow_iblk (c : Dev nD) (t : Fin (cfgM m).N) (k : Fin 4) :
    scoreRow (iblk m c 0 t) (iblk m c 1 t) (iblk m c 2 t) (iblk m c 3 t) (iblk m c 4 t) k = scoreOf m c (rowAt m t k) := by
  unfold scoreRow scoreOf
  rw [cRow_iblk, qRow_iblk, iblk2_eq, iblk3_eq, iblk4_eq]
theorem scoreRowT_iblk (c : Dev nD) (t : Fin (cfgM m).N) (k : Fin 4) :
    scoreRowT (iblk m c 0 t) (iblk m c 1 t) (iblk m c 2 t) (iblk m c 3 t) (iblk m c 4 t) k = scoreTOf m c (rowAt m t k) := by
  unfold scoreRowT scoreTOf
  rw [cRow_iblk, qRow_iblk, iblk2_eq, iblk3_eq, iblk4_eq]

/-- What the body leaves in the three output blocks at point t, read at row k: the whole-array functions at batch row 4t+k. -/
theorem sbarBlk_iblk (c : Dev nD) (t : Fin (cfgM m).N) (k : Fin 4) (r : Fin 1024) (q : Fin 128) :
    sbarBlk (iblk m c 0 t) (iblk m c 1 t) (iblk m c 2 t) (iblk m c 3 t) (iblk m c 4 t) (lenAt c tbQ (tbl m 1) (grid0.coords t)) (ix3 k r q)
      = sbarArr m c (ix3 (rowAt m t k) r q) := by
  show k0_pay18 (scoreRow _ _ _ _ _ k) (k0_pay15 (lenAt c tbQ (tbl m 1) (grid0.coords t) k)) (ix3 0 r q) = k0_pay18 (scoreOf m c (rowAt m t k)) (k0_pay15 (lenQ m c (rowAt m t k))) (ix3 0 r q)
  rw [scoreRow_iblk, lenQ_eq]; rfl
theorem stBlk_iblk (c : Dev nD) (t : Fin (cfgM m).N) (k : Fin 4) (q : Fin 128) (r : Fin 1024) :
    stBlk (iblk m c 0 t) (iblk m c 1 t) (iblk m c 2 t) (iblk m c 3 t) (iblk m c 4 t) (lenAt c tbC (tbl m 0) (grid0.coords t)) (ix3 k q r)
      = stArr m c (ix3 (rowAt m t k) q r) := by
  show k0_pay19 (scoreRowT _ _ _ _ _ k) (k0_pay14 (lenAt c tbC (tbl m 0) (grid0.coords t) k)) (ix3 0 q r) = k0_pay19 (scoreTOf m c (rowAt m t k)) (k0_pay14 (lenC m c (rowAt m t k))) (ix3 0 q r)
  rw [scoreRowT_iblk, lenC_eq]; rfl
theorem c2qRow_iblk (c : Dev nD) (t : Fin (cfgM m).N) (k : Fin 4) :
    c2qRow (iblk m c 0 t) (iblk m c 1 t) (iblk m c 2 t) (iblk m c 3 t) (iblk m c 4 t) (lenAt c tbQ (tbl m 1) (grid0.coords t)) k = c2qOf m c (rowAt m t k) := by
  unfold c2qRow c2qOf
  rw [scoreRow_iblk, qRow_iblk, lenQ_eq]; rfl
theorem q2cRow_iblk (c : Dev nD) (t : Fin (cfgM m).N) (k : Fin 4) :
    q2cRow (iblk m c 0 t) (iblk m c 1 t) (iblk m c 2 t) (iblk m c 3 t) (iblk m c 4 t) (lenAt c tbC (tbl m 0) (grid0.coords t)) (lenAt c tbQ (tbl m 1) (grid0.coords t)) k
      = q2cOf m c (rowAt m t k) := by
  unfold q2cRow q2cOf
  rw [scoreRow_iblk, scoreRowT_iblk, cRow_iblk, lenQ_eq, lenC_eq]; rfl
theorem resBlk_iblk (c : Dev nD) (t : Fin (cfgM m).N) (k : Fin 4) (r : Fin 1024) (s : Fin 512) :
    resBlk (iblk m c 0 t) (iblk m c 1 t) (iblk m c 2 t) (iblk m c 3 t) (iblk m c 4 t) (lenAt c tbC (tbl m 0) (grid0.coords t)) (lenAt c tbQ (tbl m 1) (grid0.coords t)) (ix3 k r s)
      = resArr m c (ix3 (rowAt m t k) r s) := by
  unfold resBlk resArr
  simp only [c2qRow_iblk, q2cRow_iblk, cRow_iblk]

end Cert.KernelIdeal.Hand

end
-- ==== Proof.KI.Cover.lean ====
/-
  From the points' write-backs to the arrays.

  Each output window's block index at grid point t is (t, 0, 0): the block holds batch rows 4t … 4t+3 and all of
  the other two axes. What the body leaves there is, row by row, the whole-array function at batch row 4t+k, so
  the write-back at t is block t of that function; the sixteen blocks cover the 64 batch rows, so each output
  array ends holding its function. The run then ends with the three results at those functions and the seven
  arguments as launched.
-/
import proofs.«417795_j72791105733170_3_alg».proof.Proof.KI.Final

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## Output window 5 -/

/-- Its block index at point t is (t, 0, 0), and it is written back at every point. -/
theorem idx5 : ∀ t : Fin grid0.N, cc0_transform_5 (grid0.coords t) (0 : Fin 3) = t.val ∧ cc0_transform_5 (grid0.coords t) (1 : Fin 3) = 0 ∧ cc0_transform_5 (grid0.coords t) (2 : Fin 3) = 0 := by
  decide +kernel
theorem flush5 : ∀ t : Fin (cfgM m).N, ((cfgM m).win 5).flush t = true :=
  (by decide +kernel : ∀ t : Fin grid0.N, Pipeline.Window.flushOf grid0 true cc0_transform_5 t = true)

/-- Where row (k, r, s) of point t's block sits in the array: batch row 4t + k. -/
theorem emb5 (t : Fin (cfgM m).N) (j : S4x1024x512.Idx) :
    (((cfgM m).win 5).blk t).view.emb j = (ix3 (rowAt m t (j 0)) (j 1) (j 2) : S64x1024x512.Idx) := by
  obtain ⟨e0, e1, e2⟩ := idx5 t
  have hj0 : (j 0).val < 4 := (j 0).isLt
  have hj1 : (j 1).val < 1024 := (j 1).isLt
  have hj2 : (j 2).val < 512 := (j 2).isLt
  funext a
  apply Fin.ext
  match a with
  | ⟨0, _⟩ => show cc0_transform_5 (grid0.coords t) (0 : Fin 3) * 4 + 1 * (j 0).val = 4 * t.val + (j 0).val; omega
  | ⟨1, _⟩ => show cc0_transform_5 (grid0.coords t) (1 : Fin 3) * 1024 + 1 * (j 1).val = (j 1).val; omega
  | ⟨2, _⟩ => show cc0_transform_5 (grid0.coords t) (2 : Fin 3) * 512 + 1 * (j 2).val = (j 2).val; omega

/-- What point t writes back is block t of the whole-array function. -/
theorem flushed5_eq (c : Dev nD) (t : Fin (cfgM m).N) :
    (dats m 0 c).flushed 5 t = (((cfgM m).win 5).blk t).view.read (Elt F) (resArr m c) := by
  show ((cfgM m).win 5).cut (grid0.coords t) ((dats m 0 c).after 5 t) = _
  rw [after5]
  refine funext fun (j : S4x1024x512.Idx) => ?_
  show resBlk (iblk m c 0 t) (iblk m c 1 t) (iblk m c 2 t) (iblk m c 3 t) (iblk m c 4 t) (lenAt c tbC (tbl m 0) (grid0.coords t)) (lenAt c tbQ (tbl m 1) (grid0.coords t)) j = resArr m c ((((cfgM m).win 5).blk t).view.emb j)
  rw [emb5 m t j]
  exact (congrArg _ (eq_ix3 j)).trans (resBlk_iblk m c t (j 0) (j 1) (j 2))

/-- Every index of the array lies in the block of the point that holds its batch row. -/
theorem cover5 (i : S64x1024x512.Idx) : ∃ t : Fin (cfgM m).N, ((cfgM m).win 5).flush t = true ∧ i ∈ (((cfgM m).win 5).blk t).view.set := by
  have hi0 : (i 0).val < 64 := (i 0).isLt
  have hi1 : (i 1).val < 1024 := (i 1).isLt
  have hi2 : (i 2).val < 512 := (i 2).isLt
  have hN : (cfgM m).N = 16 := N_0
  let t : Fin (cfgM m).N := ⟨(i 0).val / 4, by omega⟩
  let x : S4x1024x512.Idx := ix3 (⟨(i 0).val % 4, Nat.mod_lt _ (by decide)⟩ : Fin 4) (⟨(i 1).val, hi1⟩ : Fin 1024) (⟨(i 2).val, hi2⟩ : Fin 512)
  have hx : (((cfgM m).win 5).blk t).view.emb x = i := by
    rw [emb5 m t x]
    funext a
    apply Fin.ext
    match a with
    | ⟨0, _⟩ => show 4 * ((i 0).val / 4) + (i 0).val % 4 = (i 0).val; omega
    | ⟨1, _⟩ => rfl
    | ⟨2, _⟩ => rfl
  exact ⟨t, flush5 m t, hx ▸ (((cfgM m).win 5).blk t).view.emb_mem_set x⟩

/-- The array after the run. -/
theorem final5 (c : Dev nD) : (dats m 0 c).arrAt 5 (cfgM m).N = resArr m c :=
  (dats m 0 c).arrAt_eq_of_cover 5 (resArr m c) (fun t _ => flushed5_eq m c t) (cover5 m)

/-! ## Output window 6 -/

/-- Its block index at point t is (t, 0, 0), and it is written back at every point. -/
theorem idx6 : ∀ t : Fin grid0.N, cc0_transform_6 (grid0.coords t) (0 : Fin 3) = t.val ∧ cc0_transform_6 (grid0.coords t) (1 : Fin 3) = 0 ∧ cc0_transform_6 (grid0.coords t) (2 : Fin 3) = 0 := by
  decide +kernel
theorem flush6 : ∀ t : Fin (cfgM m).N, ((cfgM m).win 6).flush t = true :=
  (by decide +kernel : ∀ t : Fin grid0.N, Pipeline.Window.flushOf grid0 true cc0_transform_6 t = true)

/-- Where row (k, r, s) of point t's block sits in the array: batch row 4t + k. -/
theorem emb6 (t : Fin (cfgM m).N) (j : S4x1024x128.Idx) :
    (((cfgM m).win 6).blk t).view.emb j = (ix3 (rowAt m t (j 0)) (j 1) (j 2) : S64x1024x128.Idx) := by
  obtain ⟨e0, e1, e2⟩ := idx6 t
  have hj0 : (j 0).val < 4 := (j 0).isLt
  have hj1 : (j 1).val < 1024 := (j 1).isLt
  have hj2 : (j 2).val < 128 := (j 2).isLt
  funext a
  apply Fin.ext
  match a with
  | ⟨0, _⟩ => show cc0_transform_6 (grid0.coords t) (0 : Fin 3) * 4 + 1 * (j 0).val = 4 * t.val + (j 0).val; omega
  | ⟨1, _⟩ => show cc0_transform_6 (grid0.coords t) (1 : Fin 3) * 1024 + 1 * (j 1).val = (j 1).val; omega
  | ⟨2, _⟩ => show cc0_transform_6 (grid0.coords t) (2 : Fin 3) * 128 + 1 * (j 2).val = (j 2).val; omega

/-- What point t writes back is block t of the whole-array function. -/
theorem flushed6_eq (c : Dev nD) (t : Fin (cfgM m).N) :
    (dats m 0 c).flushed 6 t = (((cfgM m).win 6).blk t).view.read (Elt F) (sbarArr m c) := by
  show ((cfgM m).win 6).cut (grid0.coords t) ((dats m 0 c).after 6 t) = _
  rw [after6]
  refine funext fun (j : S4x1024x128.Idx) => ?_
  show sbarBlk (iblk m c 0 t) (iblk m c 1 t) (iblk m c 2 t) (iblk m c 3 t) (iblk m c 4 t) (lenAt c tbQ (tbl m 1) (grid0.coords t)) j = sbarArr m c ((((cfgM m).win 6).blk t).view.emb j)
  rw [emb6 m t j]
  exact (congrArg _ (eq_ix3 j)).trans (sbarBlk_iblk m c t (j 0) (j 1) (j 2))

/-- Every index of the array lies in the block of the point that holds its batch row. -/
theorem cover6 (i : S64x1024x128.Idx) : ∃ t : Fin (cfgM m).N, ((cfgM m).win 6).flush t = true ∧ i ∈ (((cfgM m).win 6).blk t).view.set := by
  have hi0 : (i 0).val < 64 := (i 0).isLt
  have hi1 : (i 1).val < 1024 := (i 1).isLt
  have hi2 : (i 2).val < 128 := (i 2).isLt
  have hN : (cfgM m).N = 16 := N_0
  let t : Fin (cfgM m).N := ⟨(i 0).val / 4, by omega⟩
  let x : S4x1024x128.Idx := ix3 (⟨(i 0).val % 4, Nat.mod_lt _ (by decide)⟩ : Fin 4) (⟨(i 1).val, hi1⟩ : Fin 1024) (⟨(i 2).val, hi2⟩ : Fin 128)
  have hx : (((cfgM m).win 6).blk t).view.emb x = i := by
    rw [emb6 m t x]
    funext a
    apply Fin.ext
    match a with
    | ⟨0, _⟩ => show 4 * ((i 0).val / 4) + (i 0).val % 4 = (i 0).val; omega
    | ⟨1, _⟩ => rfl
    | ⟨2, _⟩ => rfl
  exact ⟨t, flush6 m t, hx ▸ (((cfgM m).win 6).blk t).view.emb_mem_set x⟩

/-- The array after the run. -/
theorem final6 (c : Dev nD) : (dats m 0 c).arrAt 6 (cfgM m).N = sbarArr m c :=
  (dats m 0 c).arrAt_eq_of_cover 6 (sbarArr m c) (fun t _ => flushed6_eq m c t) (cover6 m)

/-! ## Output window 7 -/

/-- Its block index at point t is (t, 0, 0), and it is written back at every point. -/
theorem idx7 : ∀ t : Fin grid0.N, cc0_transform_7 (grid0.coords t) (0 : Fin 3) = t.val ∧ cc0_transform_7 (grid0.coords t) (1 : Fin 3) = 0 ∧ cc0_transform_7 (grid0.coords t) (2 : Fin 3) = 0 := by
  decide +kernel
theorem flush7 : ∀ t : Fin (cfgM m).N, ((cfgM m).win 7).flush t = true :=
  (by decide +kernel : ∀ t : Fin grid0.N, Pipeline.Window.flushOf grid0 true cc0_transform_7 t = true)

/-- Where row (k, r, s) of point t's block sits in the array: batch row 4t + k. -/
theorem emb7 (t : Fin (cfgM m).N) (j : S4x128x1024.Idx) :
    (((cfgM m).win 7).blk t).view.emb j = (ix3 (rowAt m t (j 0)) (j 1) (j 2) : S64x128x1024.Idx) := by
  obtain ⟨e0, e1, e2⟩ := idx7 t
  have hj0 : (j 0).val < 4 := (j 0).isLt
  have hj1 : (j 1).val < 128 := (j 1).isLt
  have hj2 : (j 2).val < 1024 := (j 2).isLt
  funext a
  apply Fin.ext
  match a with
  | ⟨0, _⟩ => show cc0_transform_7 (grid0.coords t) (0 : Fin 3) * 4 + 1 * (j 0).val = 4 * t.val + (j 0).val; omega
  | ⟨1, _⟩ => show cc0_transform_7 (grid0.coords t) (1 : Fin 3) * 128 + 1 * (j 1).val = (j 1).val; omega
  | ⟨2, _⟩ => show cc0_transform_7 (grid0.coords t) (2 : Fin 3) * 1024 + 1 * (j 2).val = (j 2).val; omega

/-- What point t writes back is block t of the whole-array function. -/
theorem flushed7_eq (c : Dev nD) (t : Fin (cfgM m).N) :
    (dats m 0 c).flushed 7 t = (((cfgM m).win 7).blk t).view.read (Elt F) (stArr m c) := by
  show ((cfgM m).win 7).cut (grid0.coords t) ((dats m 0 c).after 7 t) = _
  rw [after7]
  refine funext fun (j : S4x128x1024.Idx) => ?_
  show stBlk (iblk m c 0 t) (iblk m c 1 t) (iblk m c 2 t) (iblk m c 3 t) (iblk m c 4 t) (lenAt c tbC (tbl m 0) (grid0.coords t)) j = stArr m c ((((cfgM m).win 7).blk t).view.emb j)
  rw [emb7 m t j]
  exact (congrArg _ (eq_ix3 j)).trans (stBlk_iblk m c t (j 0) (j 1) (j 2))

/-- Every index of the array lies in the block of the point that holds its batch row. -/
theorem cover7 (i : S64x128x1024.Idx) : ∃ t : Fin (cfgM m).N, ((cfgM m).win 7).flush t = true ∧ i ∈ (((cfgM m).win 7).blk t).view.set := by
  have hi0 : (i 0).val < 64 := (i 0).isLt
  have hi1 : (i 1).val < 128 := (i 1).isLt
  have hi2 : (i 2).val < 1024 := (i 2).isLt
  have hN : (cfgM m).N = 16 := N_0
  let t : Fin (cfgM m).N := ⟨(i 0).val / 4, by omega⟩
  let x : S4x128x1024.Idx := ix3 (⟨(i 0).val % 4, Nat.mod_lt _ (by decide)⟩ : Fin 4) (⟨(i 1).val, hi1⟩ : Fin 128) (⟨(i 2).val, hi2⟩ : Fin 1024)
  have hx : (((cfgM m).win 7).blk t).view.emb x = i := by
    rw [emb7 m t x]
    funext a
    apply Fin.ext
    match a with
    | ⟨0, _⟩ => show 4 * ((i 0).val / 4) + (i 0).val % 4 = (i 0).val; omega
    | ⟨1, _⟩ => rfl
    | ⟨2, _⟩ => rfl
  exact ⟨t, flush7 m t, hx ▸ (((cfgM m).win 7).blk t).view.emb_mem_set x⟩

/-- The array after the run. -/
theorem final7 (c : Dev nD) : (dats m 0 c).arrAt 7 (cfgM m).N = stArr m c :=
  (dats m 0 c).arrAt_eq_of_cover 7 (stArr m c) (fun t _ => flushed7_eq m c t) (cover7 m)

/-! ## The run, read -/

/-- Every weakly fair execution of @main terminates with the three results at their functions of the launch memory
    and the seven arguments unchanged. -/
theorem run_values : θ_run defs (onTc (τ := τ) (main (F := F))) ⟨m, fun _ => 0, ρ⟩ (fun r => ∀ c : Dev nD,
      r.2.mem ((c.tc : Thread nD τ).loc main_v2_0) = resArr m c
      ∧ r.2.mem ((c.tc : Thread nD τ).loc main_v2_1) = sbarArr m c
      ∧ r.2.mem ((c.tc : Thread nD τ).loc main_v2_2) = stArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 5).trans (final5 m c), ((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) (run_main m ρ)

end Cert.KernelIdeal.Hand

end
-- ==== Proof.Spec.lean ====
/-
  The mathematics of one batch of context-query attention, over the extended reals.

  For a batch with context rows xc (1024 × 128), question rows xq (128 × 128), weights w0, w1, w2
  (128 each) and the two lengths cl, ql:
    score c q   = (Σ_d xc c d · w0 d  +  Σ_d w1 d · xq q d)  +  Σ_d (xc c d · w2 d) · xq q d
    sbar c q    = softmax over q of (score c q − (1 − [q < ql]) · BIG)
    st q c      = softmax over c of (score c q − (1 − [c < cl]) · BIG)
    c2q c d     = Σ_q sbar c q · xq q d
    q2c c d     = Σ_q sbar c q · (Σ_k xc k d · st q k)
  and the four column groups of the result row c are xc c, c2q c, xc c · c2q c, xc c · q2c c.
  A softmax is written as both programs compute it: the maximum is taken first (a fold of max from −∞),
  the shifted exponentials are summed, and each exponential is divided by the sum.
  The three float literals (1, BIG, −∞) are kept as their words: both programs use the same words.
-/
import Idealize.ShloMosaic.PureOps.Ideal
import Idealize.ShloMosaic.Lib.ValueIdx

noncomputable section

namespace Cert.CQ

open Idealize.ShloMosaic Idealize.ShloMosaic.ValueIdx

/-- One batch's inputs. -/
structure Batch where
  xc : Fin 1024 → Fin 128 → EReal
  xq : Fin 128 → Fin 128 → EReal
  w0 : Fin 128 → EReal
  w1 : Fin 128 → EReal
  w2 : Fin 128 → EReal
  cl : BitVec 32
  ql : BitVec 32

/-- The float literals of both programs, as their words. -/
def one : EReal := Ideal.ofBits .f32 0x3F800000#32
def big : EReal := Ideal.ofBits .f32 0x5368D4A5#32
def ninf : EReal := Ideal.ofBits .f32 0xFF800000#32

/-- The indicator of "position n lies before the length len" (a signed comparison of 32-bit words), as 1 or 0. -/
def ind (len : BitVec 32) (n : ℕ) : EReal := if (BitVec.ofNat 32 n).slt len then 1 else 0

variable (B : Batch)

def sCont (c : Fin 1024) : EReal := ∑ d : Fin 128, B.xc c d * B.w0 d
def sQues (q : Fin 128) : EReal := ∑ d : Fin 128, B.w1 d * B.xq q d
def sFuse (c : Fin 1024) (q : Fin 128) : EReal := ∑ d : Fin 128, (B.xc c d * B.w2 d) * B.xq q d
/-- The trilinear similarity of context row c and question row q. -/
def score (c : Fin 1024) (q : Fin 128) : EReal := (sCont B c + sQues B q) + sFuse B c q

/-- Softmax along the question axis, question positions past ql pushed down by BIG. -/
def rowLogit (c : Fin 1024) (q : Fin 128) : EReal := score B c q - (one - ind B.ql q.val) * big
def rowMax (c : Fin 1024) : EReal := (Finset.univ : Finset (Fin 128)).fold max ninf (fun q => rowLogit B c q)
def rowExp (c : Fin 1024) (q : Fin 128) : EReal := Ideal.exp (rowLogit B c q - rowMax B c)
def rowSum (c : Fin 1024) : EReal := ∑ q : Fin 128, rowExp B c q
def sbar (c : Fin 1024) (q : Fin 128) : EReal := Ideal.div (rowExp B c q) (rowSum B c)

/-- Softmax along the context axis, context positions past cl pushed down by BIG. -/
def colLogit (c : Fin 1024) (q : Fin 128) : EReal := score B c q - (one - ind B.cl c.val) * big
def colMax (q : Fin 128) : EReal := (Finset.univ : Finset (Fin 1024)).fold max ninf (fun c => colLogit B c q)
def colExp (c : Fin 1024) (q : Fin 128) : EReal := Ideal.exp (colLogit B c q - colMax B q)
def colSum (q : Fin 128) : EReal := ∑ c : Fin 1024, colExp B c q
def st (q : Fin 128) (c : Fin 1024) : EReal := Ideal.div (colExp B c q) (colSum B q)

def c2q (c : Fin 1024) (d : Fin 128) : EReal := ∑ q : Fin 128, sbar B c q * B.xq q d
def ctxMix (d : Fin 128) (q : Fin 128) : EReal := ∑ k : Fin 1024, B.xc k d * st B q k
def q2c (c : Fin 1024) (d : Fin 128) : EReal := ∑ q : Fin 128, sbar B c q * ctxMix B d q

/-- The four column groups of the result row c. -/
def res0 (c : Fin 1024) (d : Fin 128) : EReal := B.xc c d
def res1 (c : Fin 1024) (d : Fin 128) : EReal := c2q B c d
def res2 (c : Fin 1024) (d : Fin 128) : EReal := B.xc c d * c2q B c d
def res3 (c : Fin 1024) (d : Fin 128) : EReal := B.xc c d * q2c B c d

/-- Every float entry of the batch is a real number. -/
def Batch.Finite : Prop :=
  (∀ c d, ∃ r : ℝ, B.xc c d = (r : EReal)) ∧ (∀ q d, ∃ r : ℝ, B.xq q d = (r : EReal))
    ∧ (∀ d, ∃ r : ℝ, B.w0 d = (r : EReal)) ∧ (∀ d, ∃ r : ℝ, B.w1 d = (r : EReal)) ∧ (∀ d, ∃ r : ℝ, B.w2 d = (r : EReal))

/-- Batch b of the seven argument arrays. -/
def batchOf (XC : (⟨3, ![64, 1024, 128]⟩ : Shape).Idx → EReal) (XQ : (⟨3, ![64, 128, 128]⟩ : Shape).Idx → EReal)
    (W0 W1 : (⟨2, ![128, 1]⟩ : Shape).Idx → EReal) (W2 : (⟨3, ![1, 1, 128]⟩ : Shape).Idx → EReal)
    (CL QL : (⟨2, ![64, 1]⟩ : Shape).Idx → BitVec 32) (b : Fin 64) : Batch where
  xc c d := XC (ix3 b c d)
  xq q d := XQ (ix3 b q d)
  w0 d := W0 (ix2 d 0)
  w1 d := W1 (ix2 d 0)
  w2 d := W2 (ix3 0 0 d)
  cl := CL (ix2 b 0)
  ql := QL (ix2 b 0)

end Cert.CQ

end
-- ==== Proof.KerPieces.lean ====
/-
  The non-pointwise operations of the attention kernel's loop body, each read at an index, over
  the extended reals: the six one-axis contractions of the score block (a product into a zero
  accumulator is the sum over the contracted axis of the operands' products), the casts that drop or
  add a unit axis, the column and row broadcasts, the two length masks at a lane (a signed comparison
  of the lane's position with the length, widened and converted, is the indicator 1 or 0), and the
  lane maximum and lane sum of a row (a fold of max from −∞; a finite sum).
-/
import proofs.«417795_j72791105733170_3_alg».proof.Proof.Gen.KernelIdeal.Skeleton
import proofs.«417795_j72791105733170_3_alg».proof.Proof.Spec
import Idealize.ShloMosaic.PureOps.Ideal.Laws
import Idealize.ShloMosaic.Lib.ValueIdx
import Idealize.ShloMosaic.Lib.Pipeline.Value

noncomputable section

namespace Cert.CQ.Ker

open Cert.KernelIdeal Cert.KernelIdeal.Gen Idealize.ShloMosaic Idealize.ShloMosaic.ValueIdx

/-! ### The six products of the score block, each read at an index

Each is a contraction over one axis of extent 128 into a zero accumulator: the entry is the sum over
that axis of the two operands' products. -/

/-- context rows × weight column -/
theorem ctxW_lhs0 (i : S1024x1.Idx) (k : dot_S1024x128_S128x1_S1024x1_1_0_0_1_n_n.contr.Idx) :
    (dot_S1024x128_S128x1_S1024x1_1_0_0_1_n_n.lhsIdx i k 0).val = (i 0).val := by
  unfold DotDims.lhsIdx
  rw [dif_neg (show ¬(0 : Fin S1024x128.rank) ∈ dot_S1024x128_S128x1_S1024x1_1_0_0_1_n_n.lhsBatch by decide), dif_pos (show (0 : Fin S1024x128.rank) ∈ dot_S1024x128_S128x1_S1024x1_1_0_0_1_n_n.lhsNonContracting by decide)]
  rfl
theorem ctxW_lhs1 (i : S1024x1.Idx) (k : dot_S1024x128_S128x1_S1024x1_1_0_0_1_n_n.contr.Idx) :
    (dot_S1024x128_S128x1_S1024x1_1_0_0_1_n_n.lhsIdx i k 1).val = (k ⟨0, by decide⟩).val :=
  dot_S1024x128_S128x1_S1024x1_1_0_0_1_n_n.lhsIdx_val_of_single rfl i k
theorem ctxW_rhs0 (i : S1024x1.Idx) (k : dot_S1024x128_S128x1_S1024x1_1_0_0_1_n_n.contr.Idx) :
    (dot_S1024x128_S128x1_S1024x1_1_0_0_1_n_n.rhsIdx i k 0).val = (k ⟨0, by decide⟩).val :=
  dot_S1024x128_S128x1_S1024x1_1_0_0_1_n_n.rhsIdx_val_of_single rfl i k
theorem ctxW_rhs1 (i : S1024x1.Idx) (k : dot_S1024x128_S128x1_S1024x1_1_0_0_1_n_n.contr.Idx) :
    (dot_S1024x128_S128x1_S1024x1_1_0_0_1_n_n.rhsIdx i k 1).val = (i 1).val := by
  unfold DotDims.rhsIdx
  rw [dif_neg (show ¬(1 : Fin S128x1.rank) ∈ dot_S1024x128_S128x1_S1024x1_1_0_0_1_n_n.rhsBatch by decide), dif_pos (show (1 : Fin S128x1.rank) ∈ dot_S1024x128_S128x1_S1024x1_1_0_0_1_n_n.rhsNonContracting by decide)]
  rfl

theorem ctxW_apply (a : FVec Ideal S1024x128 .bf16) (b : FVec Ideal S128x1 .bf16) (r : Fin 1024) :
    matmul dot_S1024x128_S128x1_S1024x1_1_0_0_1_n_n none a b (constant (F := Ideal) S1024x1 .f32 0x00000000#32) (ix2 r 0)
      = ∑ k : Fin 128, a (ix2 r k) * b (ix2 k 0) := by
  simp only [matmul]
  rw [Ideal.matmul_constant_zero_apply, ← Equiv.sum_comp (contrEquiv1 dot_S1024x128_S128x1_S1024x1_1_0_0_1_n_n 128 rfl rfl).symm]
  refine Finset.sum_congr rfl fun k _ => ?_
  have hk := contrEquiv1_symm_val dot_S1024x128_S128x1_S1024x1_1_0_0_1_n_n 128 rfl rfl k
  have el : dot_S1024x128_S128x1_S1024x1_1_0_0_1_n_n.lhsIdx (ix2 r 0) ((contrEquiv1 dot_S1024x128_S128x1_S1024x1_1_0_0_1_n_n 128 rfl rfl).symm k) = ix2 r k := funext fun a => Fin.ext (by
    match a with
    | ⟨0, _⟩ => exact ctxW_lhs0 _ _
    | ⟨1, _⟩ => exact (ctxW_lhs1 _ _).trans hk)
  have er : dot_S1024x128_S128x1_S1024x1_1_0_0_1_n_n.rhsIdx (ix2 r 0) ((contrEquiv1 dot_S1024x128_S128x1_S1024x1_1_0_0_1_n_n 128 rfl rfl).symm k) = ix2 k 0 := funext fun a => Fin.ext (by
    match a with
    | ⟨0, _⟩ => exact (ctxW_rhs0 _ _).trans hk
    | ⟨1, _⟩ => exact ctxW_rhs1 _ _)
  rw [el, er]

/-- weight column (as a row) × context rows -/
theorem wCtx_lhs0 (i : S1x1024.Idx) (k : dot_S128x1_S1024x128_S1x1024_0_1_1_0_n_n.contr.Idx) :
    (dot_S128x1_S1024x128_S1x1024_0_1_1_0_n_n.lhsIdx i k 0).val = (k ⟨0, by decide⟩).val :=
  dot_S128x1_S1024x128_S1x1024_0_1_1_0_n_n.lhsIdx_val_of_single rfl i k
theorem wCtx_lhs1 (i : S1x1024.Idx) (k : dot_S128x1_S1024x128_S1x1024_0_1_1_0_n_n.contr.Idx) :
    (dot_S128x1_S1024x128_S1x1024_0_1_1_0_n_n.lhsIdx i k 1).val = (i 0).val := by
  unfold DotDims.lhsIdx
  rw [dif_neg (show ¬(1 : Fin S128x1.rank) ∈ dot_S128x1_S1024x128_S1x1024_0_1_1_0_n_n.lhsBatch by decide), dif_pos (show (1 : Fin S128x1.rank) ∈ dot_S128x1_S1024x128_S1x1024_0_1_1_0_n_n.lhsNonContracting by decide)]
  rfl
theorem wCtx_rhs0 (i : S1x1024.Idx) (k : dot_S128x1_S1024x128_S1x1024_0_1_1_0_n_n.contr.Idx) :
    (dot_S128x1_S1024x128_S1x1024_0_1_1_0_n_n.rhsIdx i k 0).val = (i 1).val := by
  unfold DotDims.rhsIdx
  rw [dif_neg (show ¬(0 : Fin S1024x128.rank) ∈ dot_S128x1_S1024x128_S1x1024_0_1_1_0_n_n.rhsBatch by decide), dif_pos (show (0 : Fin S1024x128.rank) ∈ dot_S128x1_S1024x128_S1x1024_0_1_1_0_n_n.rhsNonContracting by decide)]
  rfl
theorem wCtx_rhs1 (i : S1x1024.Idx) (k : dot_S128x1_S1024x128_S1x1024_0_1_1_0_n_n.contr.Idx) :
    (dot_S128x1_S1024x128_S1x1024_0_1_1_0_n_n.rhsIdx i k 1).val = (k ⟨0, by decide⟩).val :=
  dot_S128x1_S1024x128_S1x1024_0_1_1_0_n_n.rhsIdx_val_of_single rfl i k

theorem wCtx_apply (a : FVec Ideal S128x1 .bf16) (b : FVec Ideal S1024x128 .bf16) (r : Fin 1024) :
    matmul dot_S128x1_S1024x128_S1x1024_0_1_1_0_n_n none a b (constant (F := Ideal) S1x1024 .f32 0x00000000#32) (ix2 0 r)
      = ∑ k : Fin 128, a (ix2 k 0) * b (ix2 r k) := by
  simp only [matmul]
  rw [Ideal.matmul_constant_zero_apply, ← Equiv.sum_comp (contrEquiv1 dot_S128x1_S1024x128_S1x1024_0_1_1_0_n_n 128 rfl rfl).symm]
  refine Finset.sum_congr rfl fun k _ => ?_
  have hk := contrEquiv1_symm_val dot_S128x1_S1024x128_S1x1024_0_1_1_0_n_n 128 rfl rfl k
  have el : dot_S128x1_S1024x128_S1x1024_0_1_1_0_n_n.lhsIdx (ix2 0 r) ((contrEquiv1 dot_S128x1_S1024x128_S1x1024_0_1_1_0_n_n 128 rfl rfl).symm k) = ix2 k 0 := funext fun a => Fin.ext (by
    match a with
    | ⟨0, _⟩ => exact (wCtx_lhs0 _ _).trans hk
    | ⟨1, _⟩ => exact wCtx_lhs1 _ _)
  have er : dot_S128x1_S1024x128_S1x1024_0_1_1_0_n_n.rhsIdx (ix2 0 r) ((contrEquiv1 dot_S128x1_S1024x128_S1x1024_0_1_1_0_n_n 128 rfl rfl).symm k) = ix2 r k := funext fun a => Fin.ext (by
    match a with
    | ⟨0, _⟩ => exact wCtx_rhs0 _ _
    | ⟨1, _⟩ => exact (wCtx_rhs1 _ _).trans hk)
  rw [el, er]

/-- question rows × weight column -/
theorem quesW_lhs0 (i : S128x1.Idx) (k : dot_S128x128_S128x1_S128x1_1_0_0_1_n_n.contr.Idx) :
    (dot_S128x128_S128x1_S128x1_1_0_0_1_n_n.lhsIdx i k 0).val = (i 0).val := by
  unfold DotDims.lhsIdx
  rw [dif_neg (show ¬(0 : Fin S128x128.rank) ∈ dot_S128x128_S128x1_S128x1_1_0_0_1_n_n.lhsBatch by decide), dif_pos (show (0 : Fin S128x128.rank) ∈ dot_S128x128_S128x1_S128x1_1_0_0_1_n_n.lhsNonContracting by decide)]
  rfl
theorem quesW_lhs1 (i : S128x1.Idx) (k : dot_S128x128_S128x1_S128x1_1_0_0_1_n_n.contr.Idx) :
    (dot_S128x128_S128x1_S128x1_1_0_0_1_n_n.lhsIdx i k 1).val = (k ⟨0, by decide⟩).val :=
  dot_S128x128_S128x1_S128x1_1_0_0_1_n_n.lhsIdx_val_of_single rfl i k
theorem quesW_rhs0 (i : S128x1.Idx) (k : dot_S128x128_S128x1_S128x1_1_0_0_1_n_n.contr.Idx) :
    (dot_S128x128_S128x1_S128x1_1_0_0_1_n_n.rhsIdx i k 0).val = (k ⟨0, by decide⟩).val :=
  dot_S128x128_S128x1_S128x1_1_0_0_1_n_n.rhsIdx_val_of_single rfl i k
theorem quesW_rhs1 (i : S128x1.Idx) (k : dot_S128x128_S128x1_S128x1_1_0_0_1_n_n.contr.Idx) :
    (dot_S128x128_S128x1_S128x1_1_0_0_1_n_n.rhsIdx i k 1).val = (i 1).val := by
  unfold DotDims.rhsIdx
  rw [dif_neg (show ¬(1 : Fin S128x1.rank) ∈ dot_S128x128_S128x1_S128x1_1_0_0_1_n_n.rhsBatch by decide), dif_pos (show (1 : Fin S128x1.rank) ∈ dot_S128x128_S128x1_S128x1_1_0_0_1_n_n.rhsNonContracting by decide)]
  rfl

theorem quesW_apply (a : FVec Ideal S128x128 .bf16) (b : FVec Ideal S128x1 .bf16) (q : Fin 128) :
    matmul dot_S128x128_S128x1_S128x1_1_0_0_1_n_n none a b (constant (F := Ideal) S128x1 .f32 0x00000000#32) (ix2 q 0)
      = ∑ k : Fin 128, a (ix2 q k) * b (ix2 k 0) := by
  simp only [matmul]
  rw [Ideal.matmul_constant_zero_apply, ← Equiv.sum_comp (contrEquiv1 dot_S128x128_S128x1_S128x1_1_0_0_1_n_n 128 rfl rfl).symm]
  refine Finset.sum_congr rfl fun k _ => ?_
  have hk := contrEquiv1_symm_val dot_S128x128_S128x1_S128x1_1_0_0_1_n_n 128 rfl rfl k
  have el : dot_S128x128_S128x1_S128x1_1_0_0_1_n_n.lhsIdx (ix2 q 0) ((contrEquiv1 dot_S128x128_S128x1_S128x1_1_0_0_1_n_n 128 rfl rfl).symm k) = ix2 q k := funext fun a => Fin.ext (by
    match a with
    | ⟨0, _⟩ => exact quesW_lhs0 _ _
    | ⟨1, _⟩ => exact (quesW_lhs1 _ _).trans hk)
  have er : dot_S128x128_S128x1_S128x1_1_0_0_1_n_n.rhsIdx (ix2 q 0) ((contrEquiv1 dot_S128x128_S128x1_S128x1_1_0_0_1_n_n 128 rfl rfl).symm k) = ix2 k 0 := funext fun a => Fin.ext (by
    match a with
    | ⟨0, _⟩ => exact (quesW_rhs0 _ _).trans hk
    | ⟨1, _⟩ => exact quesW_rhs1 _ _)
  rw [el, er]

/-- weight column (as a row) × question rows -/
theorem wQues_lhs0 (i : S1x128.Idx) (k : dot_S128x1_S128x128_S1x128_0_1_1_0_n_n.contr.Idx) :
    (dot_S128x1_S128x128_S1x128_0_1_1_0_n_n.lhsIdx i k 0).val = (k ⟨0, by decide⟩).val :=
  dot_S128x1_S128x128_S1x128_0_1_1_0_n_n.lhsIdx_val_of_single rfl i k
theorem wQues_lhs1 (i : S1x128.Idx) (k : dot_S128x1_S128x128_S1x128_0_1_1_0_n_n.contr.Idx) :
    (dot_S128x1_S128x128_S1x128_0_1_1_0_n_n.lhsIdx i k 1).val = (i 0).val := by
  unfold DotDims.lhsIdx
  rw [dif_neg (show ¬(1 : Fin S128x1.rank) ∈ dot_S128x1_S128x128_S1x128_0_1_1_0_n_n.lhsBatch by decide), dif_pos (show (1 : Fin S128x1.rank) ∈ dot_S128x1_S128x128_S1x128_0_1_1_0_n_n.lhsNonContracting by decide)]
  rfl
theorem wQues_rhs0 (i : S1x128.Idx) (k : dot_S128x1_S128x128_S1x128_0_1_1_0_n_n.contr.Idx) :
    (dot_S128x1_S128x128_S1x128_0_1_1_0_n_n.rhsIdx i k 0).val = (i 1).val := by
  unfold DotDims.rhsIdx
  rw [dif_neg (show ¬(0 : Fin S128x128.rank) ∈ dot_S128x1_S128x128_S1x128_0_1_1_0_n_n.rhsBatch by decide), dif_pos (show (0 : Fin S128x128.rank) ∈ dot_S128x1_S128x128_S1x128_0_1_1_0_n_n.rhsNonContracting by decide)]
  rfl
theorem wQues_rhs1 (i : S1x128.Idx) (k : dot_S128x1_S128x128_S1x128_0_1_1_0_n_n.contr.Idx) :
    (dot_S128x1_S128x128_S1x128_0_1_1_0_n_n.rhsIdx i k 1).val = (k ⟨0, by decide⟩).val :=
  dot_S128x1_S128x128_S1x128_0_1_1_0_n_n.rhsIdx_val_of_single rfl i k

theorem wQues_apply (a : FVec Ideal S128x1 .bf16) (b : FVec Ideal S128x128 .bf16) (q : Fin 128) :
    matmul dot_S128x1_S128x128_S1x128_0_1_1_0_n_n none a b (constant (F := Ideal) S1x128 .f32 0x00000000#32) (ix2 0 q)
      = ∑ k : Fin 128, a (ix2 k 0) * b (ix2 q k) := by
  simp only [matmul]
  rw [Ideal.matmul_constant_zero_apply, ← Equiv.sum_comp (contrEquiv1 dot_S128x1_S128x128_S1x128_0_1_1_0_n_n 128 rfl rfl).symm]
  refine Finset.sum_congr rfl fun k _ => ?_
  have hk := contrEquiv1_symm_val dot_S128x1_S128x128_S1x128_0_1_1_0_n_n 128 rfl rfl k
  have el : dot_S128x1_S128x128_S1x128_0_1_1_0_n_n.lhsIdx (ix2 0 q) ((contrEquiv1 dot_S128x1_S128x128_S1x128_0_1_1_0_n_n 128 rfl rfl).symm k) = ix2 k 0 := funext fun a => Fin.ext (by
    match a with
    | ⟨0, _⟩ => exact (wQues_lhs0 _ _).trans hk
    | ⟨1, _⟩ => exact wQues_lhs1 _ _)
  have er : dot_S128x1_S128x128_S1x128_0_1_1_0_n_n.rhsIdx (ix2 0 q) ((contrEquiv1 dot_S128x1_S128x128_S1x128_0_1_1_0_n_n 128 rfl rfl).symm k) = ix2 q k := funext fun a => Fin.ext (by
    match a with
    | ⟨0, _⟩ => exact wQues_rhs0 _ _
    | ⟨1, _⟩ => exact (wQues_rhs1 _ _).trans hk)
  rw [el, er]

/-- weighted context rows × question rows (both contracted on their feature axis) -/
theorem ctxQues_lhs0 (i : S1024x128.Idx) (k : dot_S1024x128_S128x128_S1024x128_1_1_0_0_n_n.contr.Idx) :
    (dot_S1024x128_S128x128_S1024x128_1_1_0_0_n_n.lhsIdx i k 0).val = (i 0).val := by
  unfold DotDims.lhsIdx
  rw [dif_neg (show ¬(0 : Fin S1024x128.rank) ∈ dot_S1024x128_S128x128_S1024x128_1_1_0_0_n_n.lhsBatch by decide), dif_pos (show (0 : Fin S1024x128.rank) ∈ dot_S1024x128_S128x128_S1024x128_1_1_0_0_n_n.lhsNonContracting by decide)]
  rfl
theorem ctxQues_lhs1 (i : S1024x128.Idx) (k : dot_S1024x128_S128x128_S1024x128_1_1_0_0_n_n.contr.Idx) :
    (dot_S1024x128_S128x128_S1024x128_1_1_0_0_n_n.lhsIdx i k 1).val = (k ⟨0, by decide⟩).val :=
  dot_S1024x128_S128x128_S1024x128_1_1_0_0_n_n.lhsIdx_val_of_single rfl i k
theorem ctxQues_rhs0 (i : S1024x128.Idx) (k : dot_S1024x128_S128x128_S1024x128_1_1_0_0_n_n.contr.Idx) :
    (dot_S1024x128_S128x128_S1024x128_1_1_0_0_n_n.rhsIdx i k 0).val = (i 1).val := by
  unfold DotDims.rhsIdx
  rw [dif_neg (show ¬(0 : Fin S128x128.rank) ∈ dot_S1024x128_S128x128_S1024x128_1_1_0_0_n_n.rhsBatch by decide), dif_pos (show (0 : Fin S128x128.rank) ∈ dot_S1024x128_S128x128_S1024x128_1_1_0_0_n_n.rhsNonContracting by decide)]
  rfl
theorem ctxQues_rhs1 (i : S1024x128.Idx) (k : dot_S1024x128_S128x128_S1024x128_1_1_0_0_n_n.contr.Idx) :
    (dot_S1024x128_S128x128_S1024x128_1_1_0_0_n_n.rhsIdx i k 1).val = (k ⟨0, by decide⟩).val :=
  dot_S1024x128_S128x128_S1024x128_1_1_0_0_n_n.rhsIdx_val_of_single rfl i k

theorem ctxQues_apply (a : FVec Ideal S1024x128 .bf16) (b : FVec Ideal S128x128 .bf16) (r : Fin 1024) (q : Fin 128) :
    matmul dot_S1024x128_S128x128_S1024x128_1_1_0_0_n_n none a b (constant (F := Ideal) S1024x128 .f32 0x00000000#32) (ix2 r q)
      = ∑ k : Fin 128, a (ix2 r k) * b (ix2 q k) := by
  simp only [matmul]
  rw [Ideal.matmul_constant_zero_apply, ← Equiv.sum_comp (contrEquiv1 dot_S1024x128_S128x128_S1024x128_1_1_0_0_n_n 128 rfl rfl).symm]
  refine Finset.sum_congr rfl fun k _ => ?_
  have hk := contrEquiv1_symm_val dot_S1024x128_S128x128_S1024x128_1_1_0_0_n_n 128 rfl rfl k
  have el : dot_S1024x128_S128x128_S1024x128_1_1_0_0_n_n.lhsIdx (ix2 r q) ((contrEquiv1 dot_S1024x128_S128x128_S1024x128_1_1_0_0_n_n 128 rfl rfl).symm k) = ix2 r k := funext fun a => Fin.ext (by
    match a with
    | ⟨0, _⟩ => exact ctxQues_lhs0 _ _
    | ⟨1, _⟩ => exact (ctxQues_lhs1 _ _).trans hk)
  have er : dot_S1024x128_S128x128_S1024x128_1_1_0_0_n_n.rhsIdx (ix2 r q) ((contrEquiv1 dot_S1024x128_S128x128_S1024x128_1_1_0_0_n_n 128 rfl rfl).symm k) = ix2 q k := funext fun a => Fin.ext (by
    match a with
    | ⟨0, _⟩ => exact ctxQues_rhs0 _ _
    | ⟨1, _⟩ => exact (ctxQues_rhs1 _ _).trans hk)
  rw [el, er]

/-- question rows × weighted context rows (both contracted on their feature axis) -/
theorem quesCtx_lhs0 (i : S128x1024.Idx) (k : dot_S128x128_S1024x128_S128x1024_1_1_0_0_n_n.contr.Idx) :
    (dot_S128x128_S1024x128_S128x1024_1_1_0_0_n_n.lhsIdx i k 0).val = (i 0).val := by
  unfold DotDims.lhsIdx
  rw [dif_neg (show ¬(0 : Fin S128x128.rank) ∈ dot_S128x128_S1024x128_S128x1024_1_1_0_0_n_n.lhsBatch by decide), dif_pos (show (0 : Fin S128x128.rank) ∈ dot_S128x128_S1024x128_S128x1024_1_1_0_0_n_n.lhsNonContracting by decide)]
  rfl
theorem quesCtx_lhs1 (i : S128x1024.Idx) (k : dot_S128x128_S1024x128_S128x1024_1_1_0_0_n_n.contr.Idx) :
    (dot_S128x128_S1024x128_S128x1024_1_1_0_0_n_n.lhsIdx i k 1).val = (k ⟨0, by decide⟩).val :=
  dot_S128x128_S1024x128_S128x1024_1_1_0_0_n_n.lhsIdx_val_of_single rfl i k
theorem quesCtx_rhs0 (i : S128x1024.Idx) (k : dot_S128x128_S1024x128_S128x1024_1_1_0_0_n_n.contr.Idx) :
    (dot_S128x128_S1024x128_S128x1024_1_1_0_0_n_n.rhsIdx i k 0).val = (i 1).val := by
  unfold DotDims.rhsIdx
  rw [dif_neg (show ¬(0 : Fin S1024x128.rank) ∈ dot_S128x128_S1024x128_S128x1024_1_1_0_0_n_n.rhsBatch by decide), dif_pos (show (0 : Fin S1024x128.rank) ∈ dot_S128x128_S1024x128_S128x1024_1_1_0_0_n_n.rhsNonContracting by decide)]
  rfl
theorem quesCtx_rhs1 (i : S128x1024.Idx) (k : dot_S128x128_S1024x128_S128x1024_1_1_0_0_n_n.contr.Idx) :
    (dot_S128x128_S1024x128_S128x1024_1_1_0_0_n_n.rhsIdx i k 1).val = (k ⟨0, by decide⟩).val :=
  dot_S128x128_S1024x128_S128x1024_1_1_0_0_n_n.rhsIdx_val_of_single rfl i k

theorem quesCtx_apply (a : FVec Ideal S128x128 .bf16) (b : FVec Ideal S1024x128 .bf16) (q : Fin 128) (r : Fin 1024) :
    matmul dot_S128x128_S1024x128_S128x1024_1_1_0_0_n_n none a b (constant (F := Ideal) S128x1024 .f32 0x00000000#32) (ix2 q r)
      = ∑ k : Fin 128, a (ix2 q k) * b (ix2 r k) := by
  simp only [matmul]
  rw [Ideal.matmul_constant_zero_apply, ← Equiv.sum_comp (contrEquiv1 dot_S128x128_S1024x128_S128x1024_1_1_0_0_n_n 128 rfl rfl).symm]
  refine Finset.sum_congr rfl fun k _ => ?_
  have hk := contrEquiv1_symm_val dot_S128x128_S1024x128_S128x1024_1_1_0_0_n_n 128 rfl rfl k
  have el : dot_S128x128_S1024x128_S128x1024_1_1_0_0_n_n.lhsIdx (ix2 q r) ((contrEquiv1 dot_S128x128_S1024x128_S128x1024_1_1_0_0_n_n 128 rfl rfl).symm k) = ix2 q k := funext fun a => Fin.ext (by
    match a with
    | ⟨0, _⟩ => exact quesCtx_lhs0 _ _
    | ⟨1, _⟩ => exact (quesCtx_lhs1 _ _).trans hk)
  have er : dot_S128x128_S1024x128_S128x1024_1_1_0_0_n_n.rhsIdx (ix2 q r) ((contrEquiv1 dot_S128x128_S1024x128_S128x1024_1_1_0_0_n_n 128 rfl rfl).symm k) = ix2 r k := funext fun a => Fin.ext (by
    match a with
    | ⟨0, _⟩ => exact quesCtx_rhs0 _ _
    | ⟨1, _⟩ => exact (quesCtx_rhs1 _ _).trans hk)
  rw [el, er]

/-! ### Layout operations of this kernel read at an index -/

theorem dropUnit_ctx (v : Vec Ideal S1x1024x128 .f32) (r : Fin 1024) (k : Fin 128) :
    shapeCast S1024x128 v shapeCasts_S1x1024x128_S1024x128 (ix2 r k) = v (ix3 0 r k) := by
  refine shapeCast_apply v _ (ix2 r k) (ix3 0 r k) ?_
  rw [Shape.rowMajor_val_three, Shape.rowMajor_val_two]
  show ((0 : ℕ) * 1024 + r.val) * 128 + k.val = r.val * 128 + k.val
  omega

theorem dropUnit_ques (v : Vec Ideal S1x128x128 .f32) (q : Fin 128) (k : Fin 128) :
    shapeCast S128x128 v shapeCasts_S1x128x128_S128x128 (ix2 q k) = v (ix3 0 q k) := by
  refine shapeCast_apply v _ (ix2 q k) (ix3 0 q k) ?_
  rw [Shape.rowMajor_val_three, Shape.rowMajor_val_two]
  show ((0 : ℕ) * 128 + q.val) * 128 + k.val = q.val * 128 + k.val
  omega

theorem dropUnit_w2 (v : Vec Ideal S1x1x128 .f32) (k : Fin 128) :
    shapeCast S1x128 v shapeCasts_S1x1x128_S1x128 (ix2 0 k) = v (ix3 0 0 k) := by
  refine shapeCast_apply v _ (ix2 0 k) (ix3 0 0 k) ?_
  rw [Shape.rowMajor_val_three, Shape.rowMajor_val_two]
  show ((0 : ℕ) * 1 + 0) * 128 + k.val = 0 * 128 + k.val
  omega

theorem addUnit_ctx (v : FVec Ideal S1024x128 .f32) (r : Fin 1024) (q : Fin 128) :
    shapeCast S1x1024x128 v shapeCasts_S1024x128_S1x1024x128 (ix3 0 r q) = v (ix2 r q) := by
  refine shapeCast_apply v _ (ix3 0 r q) (ix2 r q) ?_
  rw [Shape.rowMajor_val_three, Shape.rowMajor_val_two]
  show r.val * 128 + q.val = ((0 : ℕ) * 1024 + r.val) * 128 + q.val
  omega

theorem addUnit_quesT (v : FVec Ideal S128x1024 .f32) (q : Fin 128) (r : Fin 1024) :
    shapeCast S1x128x1024 v shapeCasts_S128x1024_S1x128x1024 (ix3 0 q r) = v (ix2 q r) := by
  refine shapeCast_apply v _ (ix3 0 q r) (ix2 q r) ?_
  rw [Shape.rowMajor_val_three, Shape.rowMajor_val_two]
  show q.val * 1024 + r.val = ((0 : ℕ) * 128 + q.val) * 1024 + r.val
  omega

theorem column_ctx (v : FVec Ideal S1024 .f32) (r : Fin 1024) :
    shapeCast S1024x1 v shapeCasts_S1024_S1024x1 (ix2 r 0) = v (ix1 r) := by
  refine shapeCast_apply v _ (ix2 r 0) (ix1 r) ?_
  rw [Shape.rowMajor_val_one, Shape.rowMajor_val_two]
  show r.val = r.val * 1 + 0
  omega

theorem column_ques (v : FVec Ideal S128 .f32) (q : Fin 128) :
    shapeCast S128x1 v shapeCasts_S128_S128x1 (ix2 q 0) = v (ix1 q) := by
  refine shapeCast_apply v _ (ix2 q 0) (ix1 q) ?_
  rw [Shape.rowMajor_val_one, Shape.rowMajor_val_two]
  show q.val = q.val * 1 + 0
  omega

theorem bcast_col_ctx (v : FVec Ideal S1024x1 .f32) (r : Fin 1024) (q : Fin 128) :
    broadcastTo S1024x128 v broadcasts_S1024x1_S1024x128 (ix2 r q) = v (ix2 r 0) :=
  broadcastTo_apply v _ (ix2 r q) (ix2 r 0) fun a => by
    match a with
    | ⟨0, _⟩ => rfl
    | ⟨1, _⟩ => rfl

theorem bcast_row_ctx (v : FVec Ideal S1x128 .f32) (r : Fin 1024) (q : Fin 128) :
    broadcastTo S1024x128 v broadcasts_S1x128_S1024x128 (ix2 r q) = v (ix2 0 q) :=
  broadcastTo_apply v _ (ix2 r q) (ix2 0 q) fun a => by
    match a with
    | ⟨0, _⟩ => rfl
    | ⟨1, _⟩ => rfl

theorem bcast_col_ques (v : FVec Ideal S128x1 .f32) (q : Fin 128) (r : Fin 1024) :
    broadcastTo S128x1024 v broadcasts_S128x1_S128x1024 (ix2 q r) = v (ix2 q 0) :=
  broadcastTo_apply v _ (ix2 q r) (ix2 q 0) fun a => by
    match a with
    | ⟨0, _⟩ => rfl
    | ⟨1, _⟩ => rfl

theorem bcast_row_ques (v : FVec Ideal S1x1024 .f32) (q : Fin 128) (r : Fin 1024) :
    broadcastTo S128x1024 v broadcasts_S1x1024_S128x1024 (ix2 q r) = v (ix2 0 r) :=
  broadcastTo_apply v _ (ix2 q r) (ix2 0 r) fun a => by
    match a with
    | ⟨0, _⟩ => rfl
    | ⟨1, _⟩ => rfl

/-! ### The masks -/

theorem word_of_cond (c : Bool) : ((((BitVec.ofBool c).setWidth 32).toInt : ℝ) : EReal) = if c then 1 else 0 := by
  cases c
  · have h : ((BitVec.ofBool false).setWidth 32).toInt = 0 := by decide
    rw [h]; simp
  · have h : ((BitVec.ofBool true).setWidth 32).toInt = 1 := by decide
    rw [h]; simp

theorem ind_ques (len : BitVec 32) (q : Fin 128) :
    (sitofp .f32 (extui 32 (cmpi .slt (iota .tc S1x128 32 [1] iota_S1x128_d1_w32) (broadcast S1x128 len)) natLt_1_32) : FVec Ideal S1x128 .f32) (ix2 0 q)
      = Cert.CQ.ind len q.val := by
  show ((((BitVec.ofBool ((iota .tc S1x128 32 [1] iota_S1x128_d1_w32 (ix2 0 q)).slt len)).setWidth 32).toInt : ℝ) : EReal) = _
  rw [iota_single_apply, word_of_cond]
  rfl

theorem ind_ctx (len : BitVec 32) (r : Fin 1024) :
    (sitofp .f32 (extui 32 (cmpi .slt (iota .tc S1x1024 32 [1] iota_S1x1024_d1_w32) (broadcast S1x1024 len)) natLt_1_32) : FVec Ideal S1x1024 .f32) (ix2 0 r)
      = Cert.CQ.ind len r.val := by
  show ((((BitVec.ofBool ((iota .tc S1x1024 32 [1] iota_S1x1024_d1_w32 (ix2 0 r)).slt len)).setWidth 32).toInt : ℝ) : EReal) = _
  rw [iota_single_apply, word_of_cond]
  rfl

/-! ### The lane reductions -/

theorem exp_apply {s : Shape} (x : FVec Ideal s .f32) (i : s.Idx) : exp x i = Ideal.exp (x i) := rfl

theorem rowMax_read (src : FVec Ideal S1024x128 .f32) (r : Fin 1024) :
    multiReduction (F := Ideal) .maximumf [1] S1024 src 0xFF800000#32 reduces_S1024x128_S1024 (.inl rfl) rfl (ix1 r)
      = (Finset.univ : Finset (Fin 128)).fold max Cert.CQ.ninf (fun q => src (ix2 r q)) := by
  refine (Ideal.multiReduction_maximumf_single src 0xFF800000#32 reduces_S1024x128_S1024 (.inl rfl) rfl (ix1 r)).trans ?_
  refine congrArg (fun f => (Finset.univ : Finset (Fin 128)).fold max Cert.CQ.ninf f) (funext fun q => ?_)
  exact congrArg src (funext fun a => Fin.ext (by
    match a with
    | ⟨0, _⟩ => rfl
    | ⟨1, _⟩ => rfl))

theorem rowSum_read (src : FVec Ideal S1024x128 .f32) (r : Fin 1024) :
    multiReduction (F := Ideal) .add [1] S1024 src 0x00000000#32 reduces_S1024x128_S1024 (.inl rfl) rfl (ix1 r)
      = ∑ q : Fin 128, src (ix2 r q) := by
  refine (Ideal.multiReduction_add_single src 0x00000000#32 reduces_S1024x128_S1024 (.inl rfl) rfl (ix1 r)).trans ?_
  refine Finset.sum_congr rfl fun q _ => ?_
  exact congrArg src (funext fun a => Fin.ext (by
    match a with
    | ⟨0, _⟩ => rfl
    | ⟨1, _⟩ => rfl))

theorem colMax_read (src : FVec Ideal S128x1024 .f32) (q : Fin 128) :
    multiReduction (F := Ideal) .maximumf [1] S128 src 0xFF800000#32 reduces_S128x1024_S128 (.inl rfl) rfl (ix1 q)
      = (Finset.univ : Finset (Fin 1024)).fold max Cert.CQ.ninf (fun r => src (ix2 q r)) := by
  refine (Ideal.multiReduction_maximumf_single src 0xFF800000#32 reduces_S128x1024_S128 (.inl rfl) rfl (ix1 q)).trans ?_
  refine congrArg (fun f => (Finset.univ : Finset (Fin 1024)).fold max Cert.CQ.ninf f) (funext fun r => ?_)
  exact congrArg src (funext fun a => Fin.ext (by
    match a with
    | ⟨0, _⟩ => rfl
    | ⟨1, _⟩ => rfl))

theorem colSum_read (src : FVec Ideal S128x1024 .f32) (q : Fin 128) :
    multiReduction (F := Ideal) .add [1] S128 src 0x00000000#32 reduces_S128x1024_S128 (.inl rfl) rfl (ix1 q)
      = ∑ r : Fin 1024, src (ix2 q r) := by
  refine (Ideal.multiReduction_add_single src 0x00000000#32 reduces_S128x1024_S128 (.inl rfl) rfl (ix1 q)).trans ?_
  refine Finset.sum_congr rfl fun r _ => ?_
  exact congrArg src (funext fun a => Fin.ext (by
    match a with
    | ⟨0, _⟩ => rfl
    | ⟨1, _⟩ => rfl))

end Cert.CQ.Ker
end
-- ==== Proof.SpecLaws.lean ====
/-
  Elementary laws of the attention specification: the values of the literal words, the reality of
  every intermediate quantity of a finite batch, and the fact that a softmax denominator is never
  zero (the maximal logit is attained, so one summand is exp 0 = 1 and the others are nonnegative).
-/
import proofs.«417795_j72791105733170_3_alg».proof.Proof.Spec
import Mathlib.Data.EReal.Inv
import Mathlib.Data.Finset.Lattice.Fold
import Mathlib.Algebra.Order.BigOperators.Group.Finset

noncomputable section

namespace Cert.CQ

open Idealize.ShloMosaic

/-- "x is a real number", for an extended real. -/
def IsReal (x : EReal) : Prop := ∃ r : ℝ, x = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem isReal_zero : IsReal 0 := ⟨0, EReal.coe_zero.symm⟩
theorem isReal_one : IsReal 1 := ⟨1, EReal.coe_one.symm⟩

/-- A finite sum of reals is a real. -/
theorem IsReal.sum {ι : Type*} (s : Finset ι) (f : ι → EReal) (h : ∀ i, IsReal (f i)) :
    IsReal (∑ i ∈ s, f i) := by
  classical
  induction s using Finset.induction_on with
  | empty => simpa using isReal_zero
  | insert a s ha ih => rw [Finset.sum_insert ha]; exact (h a).add ih

/-! ### The literal words -/

theorem one_eq : one = 1 := by
  simp [one, Ideal.ofBits, Ideal.ieee, -EReal.coe_mul]; norm_num

theorem ninf_eq : ninf = ⊥ := by
  simp [ninf, Ideal.ofBits, Ideal.ieee]

theorem big_ne_top : big ≠ ⊤ := by
  simp [big, Ideal.ofBits, Ideal.ieee, -EReal.coe_mul]

theorem big_ne_bot : big ≠ ⊥ := by
  simp [big, Ideal.ofBits, Ideal.ieee, -EReal.coe_mul]

theorem big_real : ∃ r : ℝ, big = (r : EReal) :=
  ⟨big.toReal, (EReal.coe_toReal big_ne_top big_ne_bot).symm⟩

theorem isReal_one' : IsReal one := one_eq ▸ isReal_one

theorem isReal_ind (len : BitVec 32) (n : ℕ) : IsReal (ind len n) := by
  unfold ind; split
  · exact isReal_one
  · exact isReal_zero

/-! ### Division -/

theorem mul_one_div (x l : EReal) (hl : l ≠ 0) : x * Ideal.div one l = Ideal.div x l := by
  rw [Ideal.div, if_neg hl, Ideal.div, if_neg hl, one_eq, one_mul]

/-! ### Every quantity of a finite batch is a real -/

variable (B : Batch)

theorem score_real (h : B.Finite) (c : Fin 1024) (q : Fin 128) : IsReal (score B c q) := by
  obtain ⟨hxc, hxq, hw0, hw1, hw2⟩ := h
  unfold score sCont sQues sFuse
  refine ((IsReal.sum _ _ fun d => ?_).add (IsReal.sum _ _ fun d => ?_)).add (IsReal.sum _ _ fun d => ?_)
  · exact IsReal.mul (hxc c d) (hw0 d)
  · exact IsReal.mul (hw1 d) (hxq q d)
  · exact IsReal.mul (IsReal.mul (hxc c d) (hw2 d)) (hxq q d)

theorem rowLogit_real (h : B.Finite) (c : Fin 1024) (q : Fin 128) : IsReal (rowLogit B c q) :=
  (score_real B h c q).sub ((isReal_one'.sub (isReal_ind _ _)).mul big_real)

theorem colLogit_real (h : B.Finite) (c : Fin 1024) (q : Fin 128) : IsReal (colLogit B c q) :=
  (score_real B h c q).sub ((isReal_one'.sub (isReal_ind _ _)).mul big_real)

/-! ### The maximum is attained -/

/-- The fold of max from −∞ over a nonempty finite set is one of the values. -/
theorem fold_max_attained {ι : Type*} (s : Finset ι) (hs : s.Nonempty) (f : ι → EReal) :
    ∃ i ∈ s, s.fold max ninf f = f i := by
  rw [ninf_eq]
  exact Finset.exists_mem_eq_sup s hs f

theorem rowMax_attained (c : Fin 1024) : ∃ q₀ : Fin 128, rowMax B c = rowLogit B c q₀ := by
  obtain ⟨q, _, hq⟩ := fold_max_attained Finset.univ ⟨0, Finset.mem_univ _⟩ (fun q => rowLogit B c q)
  exact ⟨q, hq⟩

theorem colMax_attained (q : Fin 128) : ∃ c₀ : Fin 1024, colMax B q = colLogit B c₀ q := by
  obtain ⟨c, _, hc⟩ := fold_max_attained Finset.univ ⟨0, Finset.mem_univ _⟩ (fun c => colLogit B c q)
  exact ⟨c, hc⟩

/-! ### The exponential -/

theorem exp_nonneg (x : EReal) : 0 ≤ Ideal.exp x := by
  induction x using EReal.rec with
  | bot => simp
  | coe r => rw [Ideal.exp_coe]; exact EReal.coe_nonneg.mpr (Real.exp_pos r).le
  | top => simp

theorem exp_sub_self {x : EReal} (hx : IsReal x) : Ideal.exp (x - x) = 1 := by
  obtain ⟨r, rfl⟩ := hx
  rw [← EReal.coe_sub, sub_self, Ideal.exp_coe, Real.exp_zero, EReal.coe_one]

/-! ### The denominators -/

theorem one_le_rowSum (h : B.Finite) (r : Fin 1024) : 1 ≤ rowSum B r := by
  obtain ⟨q₀, hq₀⟩ := rowMax_attained B r
  have h1 : rowExp B r q₀ = 1 := by
    unfold rowExp; rw [hq₀]; exact exp_sub_self (rowLogit_real B h r q₀)
  rw [← h1]
  exact Finset.single_le_sum (f := fun q => rowExp B r q) (fun q _ => exp_nonneg _) (Finset.mem_univ q₀)

theorem one_le_colSum (h : B.Finite) (q : Fin 128) : 1 ≤ colSum B q := by
  obtain ⟨c₀, hc₀⟩ := colMax_attained B q
  have h1 : colExp B c₀ q = 1 := by
    unfold colExp; rw [hc₀]; exact exp_sub_self (colLogit_real B h c₀ q)
  rw [← h1]
  exact Finset.single_le_sum (f := fun c => colExp B c q) (fun c _ => exp_nonneg _) (Finset.mem_univ c₀)

theorem rowSum_ne_zero (h : B.Finite) (r : Fin 1024) : rowSum B r ≠ 0 :=
  (lt_of_lt_of_le zero_lt_one (one_le_rowSum B h r)).ne'

theorem colSum_ne_zero (h : B.Finite) (q : Fin 128) : colSum B q ≠ 0 :=
  (lt_of_lt_of_le zero_lt_one (one_le_colSum B h q)).ne'

end Cert.CQ

end
-- ==== Proof.KerSoftmax.lean ====
/-
  The two softmax blocks the attention kernel stores are the specification's S_bar and S_T.

  The score block at (r, q) is the trilinear similarity with its three sums in another order (and, on
  the transposed side, each product's factors commuted): commutativity and associativity of + and ·
  on the extended reals. Each softmax is computed as the specification writes it (row maximum from
  −∞, shifted exponentials, their sum), except that the kernel multiplies by the reciprocal of the
  sum: p · (1 / l) = p / l because l ≠ 0 for a batch of real entries.
-/
import proofs.«417795_j72791105733170_3_alg».proof.Proof.KerPieces
import proofs.«417795_j72791105733170_3_alg».proof.Proof.SpecLaws

noncomputable section

namespace Cert.CQ.Ker

open Cert.KernelIdeal Cert.KernelIdeal.Gen Idealize.ShloMosaic Idealize.ShloMosaic.ValueIdx

/-- The batch a trip of the kernel's loop sees: its loaded row of context and question rows, the
    three weight blocks, the two length words. -/
def kerBatch (v10 : Vec Ideal S1x1024x128 .f32) (v13 : Vec Ideal S1x128x128 .f32) (x5 x6 : Vec Ideal S128x1 .f32)
    (x7 : Vec Ideal S1x1x128 .f32) (wc wq : BitVec 32) : Cert.CQ.Batch where
  xc r d := v10 (ix3 0 r d)
  xq q d := v13 (ix3 0 q d)
  w0 d := x5 (ix2 d 0)
  w1 d := x6 (ix2 d 0)
  w2 d := x7 (ix3 0 0 d)
  cl := wc
  ql := wq

/-! ### The operands of the score block at an index -/

section Operands
variable (v10 : Vec Ideal S1x1024x128 .f32) (v13 : Vec Ideal S1x128x128 .f32) (x7 : Vec Ideal S1x1x128 .f32)

theorem ctx_at (r : Fin 1024) (k : Fin 128) : k0_pay9 v10 (ix2 r k) = v10 (ix3 0 r k) := dropUnit_ctx v10 r k

theorem ques_at (q k : Fin 128) : k0_pay10 v13 (ix2 q k) = v13 (ix3 0 q k) := dropUnit_ques v13 q k

theorem wctx_at (r : Fin 1024) (k : Fin 128) :
    k0_pay11 (k0_pay3 x7) v10 (ix2 r k) = v10 (ix3 0 r k) * x7 (ix3 0 0 k) := by
  show k0_pay8 v10 (ix2 r k) * broadcastTo S1024x128 (k0_pay3 x7) broadcasts_S1x128_S1024x128 (ix2 r k) = _
  rw [bcast_row_ctx]
  exact congrArg₂ (· * ·) (dropUnit_ctx v10 r k) (dropUnit_w2 x7 k)

end Operands

/-! ### The score block -/

theorem add_reorder (f c q : EReal) : (f + c) + q = (c + q) + f := by
  rw [add_comm f c, add_right_comm]

theorem add_reorderT (f q c : EReal) : (f + q) + c = (c + q) + f := by
  rw [add_comm (f + q) c, add_comm f q, ← add_assoc]

section Score
variable (v10 : Vec Ideal S1x1024x128 .f32) (v13 : Vec Ideal S1x128x128 .f32) (x5 x6 : Vec Ideal S128x1 .f32)
  (x7 : Vec Ideal S1x1x128 .f32) (wc wq : BitVec 32)

/-- The kernel's score block at (r, q) is the trilinear similarity, its three sums in another order. -/
theorem score_at (r : Fin 1024) (q : Fin 128) :
    k0_pay12 (k0_pay1 x5) (k0_pay2 x6) (k0_pay3 x7) v10 v13 (ix2 r q)
      = Cert.CQ.score (kerBatch v10 v13 x5 x6 x7 wc wq) r q := by
  have e : k0_pay12 (k0_pay1 x5) (k0_pay2 x6) (k0_pay3 x7) v10 v13 (ix2 r q)
      = (matmul dot_S1024x128_S128x128_S1024x128_1_1_0_0_n_n none (k0_pay11 (k0_pay3 x7) v10) (k0_pay10 v13)
            (constant (F := Ideal) S1024x128 .f32 0x00000000#32) (ix2 r q)
          + broadcastTo S1024x128 (matmul dot_S1024x128_S128x1_S1024x1_1_0_0_1_n_n none (k0_pay9 v10) (k0_pay1 x5)
            (constant (F := Ideal) S1024x1 .f32 0x00000000#32)) broadcasts_S1024x1_S1024x128 (ix2 r q))
        + broadcastTo S1024x128 (matmul dot_S128x1_S128x128_S1x128_0_1_1_0_n_n none (k0_pay2 x6) (k0_pay10 v13)
            (constant (F := Ideal) S1x128 .f32 0x00000000#32)) broadcasts_S1x128_S1024x128 (ix2 r q) := rfl
  rw [e, bcast_col_ctx, bcast_row_ctx, ctxQues_apply, ctxW_apply, wQues_apply]
  simp only [ctx_at, ques_at, wctx_at]
  exact add_reorder _ _ _

/-- The transposed score block at (q, r): the same similarity, each product's factors commuted. -/
theorem scoreT_at (q : Fin 128) (r : Fin 1024) :
    k0_pay13 (k0_pay1 x5) (k0_pay2 x6) (k0_pay3 x7) v10 v13 (ix2 q r)
      = Cert.CQ.score (kerBatch v10 v13 x5 x6 x7 wc wq) r q := by
  have e : k0_pay13 (k0_pay1 x5) (k0_pay2 x6) (k0_pay3 x7) v10 v13 (ix2 q r)
      = (matmul dot_S128x128_S1024x128_S128x1024_1_1_0_0_n_n none (k0_pay10 v13) (k0_pay11 (k0_pay3 x7) v10)
            (constant (F := Ideal) S128x1024 .f32 0x00000000#32) (ix2 q r)
          + broadcastTo S128x1024 (matmul dot_S128x128_S128x1_S128x1_1_0_0_1_n_n none (k0_pay10 v13) (k0_pay2 x6)
            (constant (F := Ideal) S128x1 .f32 0x00000000#32)) broadcasts_S128x1_S128x1024 (ix2 q r))
        + broadcastTo S128x1024 (matmul dot_S128x1_S1024x128_S1x1024_0_1_1_0_n_n none (k0_pay1 x5) (k0_pay9 v10)
            (constant (F := Ideal) S1x1024 .f32 0x00000000#32)) broadcasts_S1x1024_S128x1024 (ix2 q r) := rfl
  rw [e, bcast_col_ques, bcast_row_ques, quesCtx_apply, quesW_apply, wCtx_apply]
  simp only [ctx_at, ques_at, wctx_at]
  refine Eq.trans ?_ (add_reorderT _ _ _)
  refine congrArg₂ (· + ·) (congrArg₂ (· + ·) ?_ ?_) ?_
  · exact Finset.sum_congr rfl fun k _ => mul_comm _ _
  · exact Finset.sum_congr rfl fun k _ => mul_comm _ _
  · exact Finset.sum_congr rfl fun k _ => mul_comm _ _

end Score

/-! ### The masks -/

/-- The question-side penalty at (r, q): (1 − [q < ql]) · BIG. -/
theorem maskQ_at (wq : BitVec 32) (r : Fin 1024) (q : Fin 128) :
    k0_pay15 (F := Ideal) wq (ix2 r q) = (Cert.CQ.one - Cert.CQ.ind wq q.val) * Cert.CQ.big := by
  have e : k0_pay15 (F := Ideal) wq (ix2 r q)
      = broadcastTo S1024x128
          (mulf (subf (broadcast S1x128 (Scalar.ofBits (F := Ideal) .f32 0x3F800000#32))
              (sitofp .f32 (extui 32 (cmpi .slt (iota .tc S1x128 32 [1] iota_S1x128_d1_w32) (broadcast S1x128 wq)) natLt_1_32)))
            (broadcast S1x128 (Scalar.ofBits (F := Ideal) .f32 0x5368D4A5#32)))
          broadcasts_S1x128_S1024x128 (ix2 r q) := rfl
  rw [e, bcast_row_ctx, mulf_apply, subf_apply, broadcast_apply, broadcast_apply, ind_ques]
  rfl

/-- The context-side indicator at lane r. -/
theorem maskC_at (wc : BitVec 32) (r : Fin 1024) :
    k0_pay14 (F := Ideal) wc (ix2 0 r) = Cert.CQ.ind wc r.val := ind_ctx wc r

/-! ### The softmax along the question axis -/

/-- The shifted exponentials of a block of logits: each row's maximum is subtracted first. -/
abbrev rowExpStage (L : FVec Ideal S1024x128 .f32) : FVec Ideal S1024x128 .f32 :=
  exp (subf L (broadcastTo S1024x128
    (shapeCast S1024x1 (multiReduction (F := Ideal) .maximumf [1] S1024 L 0xFF800000#32 reduces_S1024x128_S1024 (.inl rfl) rfl)
      shapeCasts_S1024_S1024x1) broadcasts_S1024x1_S1024x128))

theorem rowExpStage_at (L : FVec Ideal S1024x128 .f32) (r : Fin 1024) (q : Fin 128) :
    rowExpStage L (ix2 r q)
      = Ideal.exp (L (ix2 r q) - (Finset.univ : Finset (Fin 128)).fold max Cert.CQ.ninf (fun q' => L (ix2 r q'))) := by
  unfold rowExpStage
  rw [exp_apply, subf_apply, bcast_col_ctx, column_ctx, rowMax_read]

theorem pay16_eq (S M : FVec Ideal S1024x128 .f32) :
    k0_pay16 S M = mulf (rowExpStage (subf S M)) (broadcastTo S1024x128
      (divf (broadcast S1024x1 (Scalar.ofBits (F := Ideal) .f32 0x3F800000#32))
        (shapeCast S1024x1 (multiReduction (F := Ideal) .add [1] S1024 (rowExpStage (subf S M)) 0x00000000#32
          reduces_S1024x128_S1024 (.inl rfl) rfl) shapeCasts_S1024_S1024x1)) broadcasts_S1024x1_S1024x128) := rfl

/-- The kernel's row softmax at (r, q): the shifted exponential times the reciprocal of the row's sum. -/
theorem pay16_at (S M : FVec Ideal S1024x128 .f32) (r : Fin 1024) (q : Fin 128) :
    k0_pay16 S M (ix2 r q)
      = rowExpStage (subf S M) (ix2 r q) * Ideal.div Cert.CQ.one (∑ q' : Fin 128, rowExpStage (subf S M) (ix2 r q')) := by
  rw [pay16_eq, mulf_apply, bcast_col_ctx, divf_apply, broadcast_apply, column_ctx, rowSum_read]
  rfl

/-! ### The softmax along the context axis -/

abbrev colExpStage (L : FVec Ideal S128x1024 .f32) : FVec Ideal S128x1024 .f32 :=
  exp (subf L (broadcastTo S128x1024
    (shapeCast S128x1 (multiReduction (F := Ideal) .maximumf [1] S128 L 0xFF800000#32 reduces_S128x1024_S128 (.inl rfl) rfl)
      shapeCasts_S128_S128x1) broadcasts_S128x1_S128x1024))

theorem colExpStage_at (L : FVec Ideal S128x1024 .f32) (q : Fin 128) (r : Fin 1024) :
    colExpStage L (ix2 q r)
      = Ideal.exp (L (ix2 q r) - (Finset.univ : Finset (Fin 1024)).fold max Cert.CQ.ninf (fun r' => L (ix2 q r'))) := by
  unfold colExpStage
  rw [exp_apply, subf_apply, bcast_col_ques, column_ques, colMax_read]

/-- The logits of the transposed side: the transposed scores less the context-side penalty row. -/
abbrev colLogitStage (St : FVec Ideal S128x1024 .f32) (m : FVec Ideal S1x1024 .f32) : FVec Ideal S128x1024 .f32 :=
  subf St (broadcastTo S128x1024
    (mulf (subf (broadcast S1x1024 (Scalar.ofBits (F := Ideal) .f32 0x3F800000#32)) m)
      (broadcast S1x1024 (Scalar.ofBits (F := Ideal) .f32 0x5368D4A5#32))) broadcasts_S1x1024_S128x1024)

theorem colLogitStage_at (St : FVec Ideal S128x1024 .f32) (m : FVec Ideal S1x1024 .f32) (q : Fin 128) (r : Fin 1024) :
    colLogitStage St m (ix2 q r) = St (ix2 q r) - (Cert.CQ.one - m (ix2 0 r)) * Cert.CQ.big := by
  unfold colLogitStage
  rw [subf_apply, bcast_row_ques, mulf_apply, subf_apply, broadcast_apply, broadcast_apply]
  rfl

theorem pay17_eq (St : FVec Ideal S128x1024 .f32) (m : FVec Ideal S1x1024 .f32) :
    k0_pay17 St m = mulf (colExpStage (colLogitStage St m)) (broadcastTo S128x1024
      (divf (broadcast S128x1 (Scalar.ofBits (F := Ideal) .f32 0x3F800000#32))
        (shapeCast S128x1 (multiReduction (F := Ideal) .add [1] S128 (colExpStage (colLogitStage St m)) 0x00000000#32
          reduces_S128x1024_S128 (.inl rfl) rfl) shapeCasts_S128_S128x1)) broadcasts_S128x1_S128x1024) := rfl

theorem pay17_at (St : FVec Ideal S128x1024 .f32) (m : FVec Ideal S1x1024 .f32) (q : Fin 128) (r : Fin 1024) :
    k0_pay17 St m (ix2 q r)
      = colExpStage (colLogitStage St m) (ix2 q r)
        * Ideal.div Cert.CQ.one (∑ r' : Fin 1024, colExpStage (colLogitStage St m) (ix2 q r')) := by
  rw [pay17_eq, mulf_apply, bcast_col_ques, divf_apply, broadcast_apply, column_ques, colSum_read]
  rfl

/-! ### The two stored softmax blocks are the specification's -/

section Softmax
variable (v10 : Vec Ideal S1x1024x128 .f32) (v13 : Vec Ideal S1x128x128 .f32) (x5 x6 : Vec Ideal S128x1 .f32)
  (x7 : Vec Ideal S1x1x128 .f32) (wc wq : BitVec 32)

theorem rowLogit_at (r : Fin 1024) (q : Fin 128) :
    subf (k0_pay12 (k0_pay1 x5) (k0_pay2 x6) (k0_pay3 x7) v10 v13) (k0_pay15 (F := Ideal) wq) (ix2 r q)
      = Cert.CQ.rowLogit (kerBatch v10 v13 x5 x6 x7 wc wq) r q := by
  rw [subf_apply, score_at v10 v13 x5 x6 x7 wc wq, maskQ_at]
  rfl

theorem rowExp_at (r : Fin 1024) (q : Fin 128) :
    rowExpStage (subf (k0_pay12 (k0_pay1 x5) (k0_pay2 x6) (k0_pay3 x7) v10 v13) (k0_pay15 (F := Ideal) wq)) (ix2 r q)
      = Cert.CQ.rowExp (kerBatch v10 v13 x5 x6 x7 wc wq) r q := by
  rw [rowExpStage_at]
  simp only [rowLogit_at v10 v13 x5 x6 x7 wc wq]
  rfl

theorem pay_sbar (h : (kerBatch v10 v13 x5 x6 x7 wc wq).Finite) (r : Fin 1024) (q : Fin 128) :
    k0_pay18 (k0_pay12 (k0_pay1 x5) (k0_pay2 x6) (k0_pay3 x7) v10 v13) (k0_pay15 (F := Ideal) wq) (ix3 0 r q)
      = Cert.CQ.sbar (kerBatch v10 v13 x5 x6 x7 wc wq) r q := by
  refine (addUnit_ctx (k0_pay16 (k0_pay12 (k0_pay1 x5) (k0_pay2 x6) (k0_pay3 x7) v10 v13) (k0_pay15 (F := Ideal) wq)) r q).trans ?_
  rw [pay16_at]
  simp only [rowExp_at v10 v13 x5 x6 x7 wc wq]
  exact Cert.CQ.mul_one_div _ _ (Cert.CQ.rowSum_ne_zero _ h r)

theorem colLogit_at (q : Fin 128) (r : Fin 1024) :
    colLogitStage (k0_pay13 (k0_pay1 x5) (k0_pay2 x6) (k0_pay3 x7) v10 v13) (k0_pay14 (F := Ideal) wc) (ix2 q r)
      = Cert.CQ.colLogit (kerBatch v10 v13 x5 x6 x7 wc wq) r q := by
  rw [colLogitStage_at, scoreT_at v10 v13 x5 x6 x7 wc wq, maskC_at]
  rfl

theorem colExp_at (q : Fin 128) (r : Fin 1024) :
    colExpStage (colLogitStage (k0_pay13 (k0_pay1 x5) (k0_pay2 x6) (k0_pay3 x7) v10 v13) (k0_pay14 (F := Ideal) wc)) (ix2 q r)
      = Cert.CQ.colExp (kerBatch v10 v13 x5 x6 x7 wc wq) r q := by
  rw [colExpStage_at]
  simp only [colLogit_at v10 v13 x5 x6 x7 wc wq]
  rfl

theorem pay_st (h : (kerBatch v10 v13 x5 x6 x7 wc wq).Finite) (q : Fin 128) (r : Fin 1024) :
    k0_pay19 (k0_pay13 (k0_pay1 x5) (k0_pay2 x6) (k0_pay3 x7) v10 v13) (k0_pay14 (F := Ideal) wc) (ix3 0 q r)
      = Cert.CQ.st (kerBatch v10 v13 x5 x6 x7 wc wq) q r := by
  refine (addUnit_quesT (k0_pay17 (k0_pay13 (k0_pay1 x5) (k0_pay2 x6) (k0_pay3 x7) v10 v13) (k0_pay14 (F := Ideal) wc)) q r).trans ?_
  rw [pay17_at]
  simp only [colExp_at v10 v13 x5 x6 x7 wc wq]
  exact Cert.CQ.mul_one_div _ _ (Cert.CQ.colSum_ne_zero _ h q)

end Softmax

end Cert.CQ.Ker
end
-- ==== Proof.KerResult.lean ====
/-
  The four stored column groups of one trip of the loop, read at an index.

  The context-to-question block is the product of the row softmax block with the question rows, and the
  question-to-context block the product of the row softmax block with (the column softmax block times the context
  rows). Each block product into the zero block is, at an index, the sum over its one contracted coordinate; a change
  of format is the identity on the extended reals; a unit axis added or dropped keeps the other two coordinates. So each
  group at (r, d) is the specification's sum, the factors of the inner product exchanged once.
-/
import proofs.«417795_j72791105733170_3_alg».proof.Proof.KerSoftmax
import Idealize.ShloMosaic.Lib.ValueLayout
import Idealize.ShloMosaic.PureOps.Ideal.Laws

noncomputable section

namespace Cert.CQ.Ker.Result
open Cert.KernelIdeal Cert.KernelIdeal.Gen Idealize.ShloMosaic Idealize.ShloMosaic.ValueIdx

/-! ## The two block products of the result, read at an index -/

theorem lhs_rowsByQues_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_rowsByQues_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_rowsByQues_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_rowsByQues_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A [1024,128] block times a [128,128] block into the zero block, at (r, d): the sum over the 128 question positions. -/
theorem rowsByQues_apply (L : FVec Ideal S1024x128 .bf16) (R : FVec Ideal S128x128 .bf16) (r : Fin 1024) (d : Fin 128) :
    matmul dot_S1024x128_S128x128_S1024x128_1_0_0_1_n_n none L R (constant (F := Ideal) S1024x128 .f32 0x00000000#32) (ix2 r d)
      = ∑ q : Fin 128, L (ix2 r q) * R (ix2 q d) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r d) ((contrEquiv1 dot_S1024x128_S128x128_S1024x128_1_0_0_1_n_n 128 rfl rfl).symm k) = ix2 r k := funext fun a => Fin.ext (by
    match a with
    | ⟨0, _⟩ => exact lhs_rowsByQues_0 _ _
    | ⟨1, _⟩ => exact (lhs_rowsByQues_1 _ _).trans hk)
  have er : dot_S1024x128_S128x128_S1024x128_1_0_0_1_n_n.rhsIdx (ix2 r d) ((contrEquiv1 dot_S1024x128_S128x128_S1024x128_1_0_0_1_n_n 128 rfl rfl).symm k) = ix2 k d := funext fun a => Fin.ext (by
    match a with
    | ⟨0, _⟩ => exact (rhs_rowsByQues_0 _ _).trans hk
    | ⟨1, _⟩ => exact rhs_rowsByQues_1 _ _)
  rw [el, er]

theorem lhs_quesByRows_0 (i : S128x128.Idx) (q : dot_S128x1024_S1024x128_S128x128_1_0_0_1_n_n.contr.Idx) :
    (dot_S128x1024_S1024x128_S128x128_1_0_0_1_n_n.lhsIdx i q 0).val = (i 0).val := by
  unfold DotDims.lhsIdx
  rw [dif_neg (show ¬(0 : Fin S128x1024.rank) ∈ dot_S128x1024_S1024x128_S128x128_1_0_0_1_n_n.lhsBatch by decide), dif_pos (show (0 : Fin S128x1024.rank) ∈ dot_S128x1024_S1024x128_S128x128_1_0_0_1_n_n.lhsNonContracting by decide)]
  rfl
theorem lhs_quesByRows_1 (i : S128x128.Idx) (q : dot_S128x1024_S1024x128_S128x128_1_0_0_1_n_n.contr.Idx) :
    (dot_S128x1024_S1024x128_S128x128_1_0_0_1_n_n.lhsIdx i q 1).val = (q ⟨0, by decide⟩).val :=
  dot_S128x1024_S1024x128_S128x128_1_0_0_1_n_n.lhsIdx_val_of_single rfl i q
theorem rhs_quesByRows_0 (i : S128x128.Idx) (q : dot_S128x1024_S1024x128_S128x128_1_0_0_1_n_n.contr.Idx) :
    (dot_S128x1024_S1024x128_S128x128_1_0_0_1_n_n.rhsIdx i q 0).val = (q ⟨0, by decide⟩).val :=
  dot_S128x1024_S1024x128_S128x128_1_0_0_1_n_n.rhsIdx_val_of_single rfl i q
theorem rhs_quesByRows_1 (i : S128x128.Idx) (q : dot_S128x1024_S1024x128_S128x128_1_0_0_1_n_n.contr.Idx) :
    (dot_S128x1024_S1024x128_S128x128_1_0_0_1_n_n.rhsIdx i q 1).val = (i 1).val := by
  unfold DotDims.rhsIdx
  rw [dif_neg (show ¬(1 : Fin S1024x128.rank) ∈ dot_S128x1024_S1024x128_S128x128_1_0_0_1_n_n.rhsBatch by decide), dif_pos (show (1 : Fin S1024x128.rank) ∈ dot_S128x1024_S1024x128_S128x128_1_0_0_1_n_n.rhsNonContracting by decide)]
  rfl

/-- A [128,1024] block times a [1024,128] block into the zero block, at (q, d): the sum over the 1024 context rows. -/
theorem quesByRows_apply (L : FVec Ideal S128x1024 .bf16) (R : FVec Ideal S1024x128 .bf16) (q : Fin 128) (d : Fin 128) :
    matmul dot_S128x1024_S1024x128_S128x128_1_0_0_1_n_n none L R (constant (F := Ideal) S128x128 .f32 0x00000000#32) (ix2 q d)
      = ∑ k : Fin 1024, L (ix2 q k) * R (ix2 k d) := by
  simp only [matmul]
  rw [Ideal.matmul_constant_zero_apply, ← Equiv.sum_comp (contrEquiv1 dot_S128x1024_S1024x128_S128x128_1_0_0_1_n_n 1024 rfl rfl).symm]
  refine Finset.sum_congr rfl fun k _ => ?_
  have hk := contrEquiv1_symm_val dot_S128x1024_S1024x128_S128x128_1_0_0_1_n_n 1024 rfl rfl k
  have el : dot_S128x1024_S1024x128_S128x128_1_0_0_1_n_n.lhsIdx (ix2 q d) ((contrEquiv1 dot_S128x1024_S1024x128_S128x128_1_0_0_1_n_n 1024 rfl rfl).symm k) = ix2 q k := funext fun a => Fin.ext (by
    match a with
    | ⟨0, _⟩ => exact lhs_quesByRows_0 _ _
    | ⟨1, _⟩ => exact (lhs_quesByRows_1 _ _).trans hk)
  have er : dot_S128x1024_S1024x128_S128x128_1_0_0_1_n_n.rhsIdx (ix2 q d) ((contrEquiv1 dot_S128x1024_S1024x128_S128x128_1_0_0_1_n_n 1024 rfl rfl).symm k) = ix2 k d := funext fun a => Fin.ext (by
    match a with
    | ⟨0, _⟩ => exact (rhs_quesByRows_0 _ _).trans hk
    | ⟨1, _⟩ => exact rhs_quesByRows_1 _ _)
  rw [el, er]

end Cert.CQ.Ker.Result

namespace Cert.CQ.Ker.Result
open Cert.KernelIdeal Cert.KernelIdeal.Gen Idealize.ShloMosaic Idealize.ShloMosaic.ValueIdx

variable (v10 : Vec Ideal S1x1024x128 .f32) (v13 : Vec Ideal S1x128x128 .f32) (x5 x6 : Vec Ideal S128x1 .f32) (x7 : Vec Ideal S1x1x128 .f32) (wc wq : BitVec 32)

/-! ## The loaded blocks in their two-axis form -/

/-- The context block without its unit axis, at (r, d). -/
theorem ctx_apply (r : Fin 1024) (d : Fin 128) : k0_pay8 v10 (ix2 r d) = v10 (ix3 0 r d) := by
  unfold k0_pay8
  exact shapeCast_1ab_ab_apply _ _ r d

/-- The context block in the narrow format, at (r, d). -/
theorem ctxNarrow_apply (r : Fin 1024) (d : Fin 128) : k0_pay9 v10 (ix2 r d) = v10 (ix3 0 r d) := by
  unfold k0_pay9
  rw [truncf_apply]
  exact ctx_apply v10 r d

/-- The question block in the narrow format, at (q, d). -/
theorem quesNarrow_apply (q d : Fin 128) : k0_pay10 v13 (ix2 q d) = v13 (ix3 0 q d) := by
  unfold k0_pay10
  rw [truncf_apply]
  exact shapeCast_1ab_ab_apply _ _ q d

/-! ## The two softmax blocks in their two-axis form -/

theorem sbar2_apply (h : (kerBatch v10 v13 x5 x6 x7 wc wq).Finite) (r : Fin 1024) (q : Fin 128) :
    k0_pay16 (k0_pay12 (k0_pay1 x5) (k0_pay2 x6) (k0_pay3 x7) v10 v13) (k0_pay15 (F := Ideal) wq) (ix2 r q)
      = Cert.CQ.sbar (kerBatch v10 v13 x5 x6 x7 wc wq) r q := by
  rw [← pay_sbar v10 v13 x5 x6 x7 wc wq h r q]
  unfold k0_pay18
  exact (shapeCast_ab_1ab_apply _ _ 0 r q).symm

theorem st2_apply (h : (kerBatch v10 v13 x5 x6 x7 wc wq).Finite) (q : Fin 128) (r : Fin 1024) :
    k0_pay17 (k0_pay13 (k0_pay1 x5) (k0_pay2 x6) (k0_pay3 x7) v10 v13) (k0_pay14 (F := Ideal) wc) (ix2 q r)
      = Cert.CQ.st (kerBatch v10 v13 x5 x6 x7 wc wq) q r := by
  rw [← pay_st v10 v13 x5 x6 x7 wc wq h q r]
  unfold k0_pay19
  exact (shapeCast_ab_1ab_apply _ _ 0 q r).symm

/-! ## The two attended blocks at an index -/

/-- The context-to-question block at (r, d). -/
theorem c2q_apply (h : (kerBatch v10 v13 x5 x6 x7 wc wq).Finite) (r : Fin 1024) (d : Fin 128) :
    k0_pay21 (k0_pay10 v13) (k0_pay12 (k0_pay1 x5) (k0_pay2 x6) (k0_pay3 x7) v10 v13) (k0_pay15 (F := Ideal) wq) (ix2 r d)
      = Cert.CQ.c2q (kerBatch v10 v13 x5 x6 x7 wc wq) r d := by
  unfold k0_pay21
  rw [rowsByQues_apply]
  unfold Cert.CQ.c2q
  refine Finset.sum_congr rfl fun q _ => ?_
  unfold k0_pay20
  rw [truncf_apply, sbar2_apply v10 v13 x5 x6 x7 wc wq h r q, quesNarrow_apply]
  rfl

/-- The question-to-context block at (r, d). -/
theorem q2c_apply (h : (kerBatch v10 v13 x5 x6 x7 wc wq).Finite) (r : Fin 1024) (d : Fin 128) :
    k0_pay22 (k0_pay9 v10) (k0_pay12 (k0_pay1 x5) (k0_pay2 x6) (k0_pay3 x7) v10 v13)
        (k0_pay13 (k0_pay1 x5) (k0_pay2 x6) (k0_pay3 x7) v10 v13) (k0_pay14 (F := Ideal) wc) (k0_pay15 (F := Ideal) wq) (ix2 r d)
      = Cert.CQ.q2c (kerBatch v10 v13 x5 x6 x7 wc wq) r d := by
  unfold k0_pay22
  rw [rowsByQues_apply]
  unfold Cert.CQ.q2c
  refine Finset.sum_congr rfl fun q _ => ?_
  unfold k0_pay20
  rw [truncf_apply, sbar2_apply v10 v13 x5 x6 x7 wc wq h r q, truncf_apply, quesByRows_apply]
  unfold Cert.CQ.ctxMix
  congr 1
  refine Finset.sum_congr rfl fun k _ => ?_
  rw [truncf_apply, st2_apply v10 v13 x5 x6 x7 wc wq h q k, ctxNarrow_apply, mul_comm]
  rfl

end Cert.CQ.Ker.Result

namespace Cert.CQ.Ker
open Cert.KernelIdeal Cert.KernelIdeal.Gen Idealize.ShloMosaic Idealize.ShloMosaic.ValueIdx

variable (v10 : Vec Ideal S1x1024x128 .f32) (v13 : Vec Ideal S1x128x128 .f32) (x5 x6 : Vec Ideal S128x1 .f32) (x7 : Vec Ideal S1x1x128 .f32) (wc wq : BitVec 32)

/-! ## The four stored groups -/

theorem pay_res0 (r : Fin 1024) (d : Fin 128) :
    k0_pay4 (k0_pay8 v10) (ix3 0 r d) = Cert.CQ.res0 (kerBatch v10 v13 x5 x6 x7 wc wq) r d := by
  unfold k0_pay4
  rw [shapeCast_ab_1ab_apply, Result.ctx_apply]
  rfl

theorem pay_res1 (h : (kerBatch v10 v13 x5 x6 x7 wc wq).Finite) (r : Fin 1024) (d : Fin 128) :
    k0_pay5 (k0_pay21 (k0_pay10 v13) (k0_pay12 (k0_pay1 x5) (k0_pay2 x6) (k0_pay3 x7) v10 v13) (k0_pay15 (F := Ideal) wq)) (ix3 0 r d)
      = Cert.CQ.res1 (kerBatch v10 v13 x5 x6 x7 wc wq) r d := by
  unfold k0_pay5
  rw [shapeCast_ab_1ab_apply, Result.c2q_apply v10 v13 x5 x6 x7 wc wq h r d]
  rfl

theorem pay_res2 (h : (kerBatch v10 v13 x5 x6 x7 wc wq).Finite) (r : Fin 1024) (d : Fin 128) :
    k0_pay6 (k0_pay8 v10) (k0_pay21 (k0_pay10 v13) (k0_pay12 (k0_pay1 x5) (k0_pay2 x6) (k0_pay3 x7) v10 v13) (k0_pay15 (F := Ideal) wq)) (ix3 0 r d)
      = Cert.CQ.res2 (kerBatch v10 v13 x5 x6 x7 wc wq) r d := by
  unfold k0_pay6
  rw [shapeCast_ab_1ab_apply, mulf_apply, Result.ctx_apply, Result.c2q_apply v10 v13 x5 x6 x7 wc wq h r d]
  rfl

theorem pay_res3 (h : (kerBatch v10 v13 x5 x6 x7 wc wq).Finite) (r : Fin 1024) (d : Fin 128) :
    k0_pay7 (k0_pay8 v10) (k0_pay22 (k0_pay9 v10) (k0_pay12 (k0_pay1 x5) (k0_pay2 x6) (k0_pay3 x7) v10 v13)
        (k0_pay13 (k0_pay1 x5) (k0_pay2 x6) (k0_pay3 x7) v10 v13) (k0_pay14 (F := Ideal) wc) (k0_pay15 (F := Ideal) wq)) (ix3 0 r d)
      = Cert.CQ.res3 (kerBatch v10 v13 x5 x6 x7 wc wq) r d := by
  unfold k0_pay7
  rw [shapeCast_ab_1ab_apply, mulf_apply, Result.ctx_apply, Result.q2c_apply v10 v13 x5 x6 x7 wc wq h r d]
  rfl

end Cert.CQ.Ker

end
-- ==== Proof.KI.Values.lean ====
/-
  The kernel's three result arrays, index by index, are the specification's.

  Batch row b of each result array is the loop trip's arithmetic applied to batch row b of the arguments; at the
  extended reals that arithmetic is the specification of one batch, for a batch whose float entries are real numbers.
-/
import proofs.«417795_j72791105733170_3_alg».proof.Proof.KI.Final
import proofs.«417795_j72791105733170_3_alg».proof.Proof.KerSoftmax
import proofs.«417795_j72791105733170_3_alg».proof.Proof.KerResult

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.CQ Cert.CQ.Ker

variable (m : (ℓ : Loc nD τ sig) → Buf (Elt Ideal) ℓ)

/-- Batch b of the kernel program's argument arrays. -/
def kBatch (c : Dev nD) (b : Fin 64) : Batch :=
  batchOf (argXC m c) (argXQ m c) (argW0 m c) (argW1 m c) (argW2 m c) (argCL m c) (argQL m c) b

/-- The batch a trip sees when it is handed batch row b is batch b. -/
theorem kerBatch_row (c : Dev nD) (b : Fin 64) :
    kerBatch (rowC m c b) (rowQ m c b) (argW0 m c) (argW1 m c) (argW2 m c) (lenC m c b) (lenQ m c b) = kBatch m c b := rfl

theorem sbarArr_apply (c : Dev nD) (b : Fin 64) (h : (kBatch m c b).Finite) (r : Fin 1024) (q : Fin 128) :
    sbarArr m c (ix3 b r q) = sbar (kBatch m c b) r q :=
  pay_sbar (rowC m c b) (rowQ m c b) (argW0 m c) (argW1 m c) (argW2 m c) (lenC m c b) (lenQ m c b) h r q

theorem stArr_apply (c : Dev nD) (b : Fin 64) (h : (kBatch m c b).Finite) (q : Fin 128) (r : Fin 1024) :
    stArr m c (ix3 b q r) = st (kBatch m c b) q r :=
  pay_st (rowC m c b) (rowQ m c b) (argW0 m c) (argW1 m c) (argW2 m c) (lenC m c b) (lenQ m c b) h q r

/-- The four column groups of the result array. -/
theorem resArr_apply0 (c : Dev nD) (b : Fin 64) (r : Fin 1024) (d : Fin 128) :
    resArr m c (ix3 b r (⟨d.val, by omega⟩ : Fin 512)) = res0 (kBatch m c b) r d := by
  have hd : d.val < 128 := d.isLt
  unfold resArr
  rw [dif_pos (show ((ix3 b r (⟨d.val, by omega⟩ : Fin 512)) 2).val < 128 from hd)]
  exact pay_res0 (rowC m c b) (rowQ m c b) (argW0 m c) (argW1 m c) (argW2 m c) (lenC m c b) (lenQ m c b) r d

theorem resArr_apply1 (c : Dev nD) (b : Fin 64) (h : (kBatch m c b).Finite) (r : Fin 1024) (d : Fin 128) :
    resArr m c (ix3 b r (⟨128 + d.val, by omega⟩ : Fin 512)) = res1 (kBatch m c b) r d := by
  have hd : d.val < 128 := d.isLt
  unfold resArr
  rw [dif_neg (show ¬ ((ix3 b r (⟨128 + d.val, by omega⟩ : Fin 512)) 2).val < 128 from by show ¬ (128 + d.val < 128); omega),
    dif_pos (show ((ix3 b r (⟨128 + d.val, by omega⟩ : Fin 512)) 2).val < 256 from by show 128 + d.val < 256; omega)]
  refine Eq.trans ?_ (pay_res1 (rowC m c b) (rowQ m c b) (argW0 m c) (argW1 m c) (argW2 m c) (lenC m c b) (lenQ m c b) h r d)
  exact congrArg _ (congrArg (ix3 0 r) (Fin.ext (by show 128 + d.val - 128 = d.val; omega)))

theorem resArr_apply2 (c : Dev nD) (b : Fin 64) (h : (kBatch m c b).Finite) (r : Fin 1024) (d : Fin 128) :
    resArr m c (ix3 b r (⟨256 + d.val, by omega⟩ : Fin 512)) = res2 (kBatch m c b) r d := by
  have hd : d.val < 128 := d.isLt
  unfold resArr
  rw [dif_neg (show ¬ ((ix3 b r (⟨256 + d.val, by omega⟩ : Fin 512)) 2).val < 128 from by show ¬ (256 + d.val < 128); omega),
    dif_neg (show ¬ ((ix3 b r (⟨256 + d.val, by omega⟩ : Fin 512)) 2).val < 256 from by show ¬ (256 + d.val < 256); omega),
    dif_pos (show ((ix3 b r (⟨256 + d.val, by omega⟩ : Fin 512)) 2).val < 384 from by show 256 + d.val < 384; omega)]
  refine Eq.trans ?_ (pay_res2 (rowC m c b) (rowQ m c b) (argW0 m c) (argW1 m c) (argW2 m c) (lenC m c b) (lenQ m c b) h r d)
  exact congrArg _ (congrArg (ix3 0 r) (Fin.ext (by show 256 + d.val - 256 = d.val; omega)))

theorem resArr_apply3 (c : Dev nD) (b : Fin 64) (h : (kBatch m c b).Finite) (r : Fin 1024) (d : Fin 128) :
    resArr m c (ix3 b r (⟨384 + d.val, by omega⟩ : Fin 512)) = res3 (kBatch m c b) r d := by
  have hd : d.val < 128 := d.isLt
  unfold resArr
  rw [dif_neg (show ¬ ((ix3 b r (⟨384 + d.val, by omega⟩ : Fin 512)) 2).val < 128 from by show ¬ (384 + d.val < 128); omega),
    dif_neg (show ¬ ((ix3 b r (⟨384 + d.val, by omega⟩ : Fin 512)) 2).val < 256 from by show ¬ (384 + d.val < 256); omega),
    dif_neg (show ¬ ((ix3 b r (⟨384 + d.val, by omega⟩ : Fin 512)) 2).val < 384 from by show ¬ (384 + d.val < 384); omega)]
  refine Eq.trans ?_ (pay_res3 (rowC m c b) (rowQ m c b) (argW0 m c) (argW1 m c) (argW2 m c) (lenC m c b) (lenQ m c b) h r d)
  exact congrArg _ (congrArg (ix3 0 r) (Fin.ext (by show 384 + d.val - 384 = d.val; omega)))

end Cert.KernelIdeal.Hand

end
-- ==== Proof.RefSoftmax.lean ====
/-
  The reference's two softmaxes are the specification's.

  The reference computes the trilinear score as three contractions (context rows against w0, w1 against question rows,
  and the context rows scaled by w2 against the question rows), broadcasts and adds them, pushes the masked positions
  down by BIG · (1 − indicator), and takes a softmax along the question axis (S_bar) and one along the context axis
  (S_T, returned transposed). Each softmax is max(−∞, fold of max from −∞), the shifted exponentials, their sum from
  zero, and the quotient. Read at an index (b, c, q), stage by stage, every one of these values is the specification's
  value of the same name for batch b: the index functions of the broadcasts, transposes and contractions compose to the
  coordinates (b, c, q), (b, c), (b, q) written out; the convert of the signed comparison of an iota with a length is the
  indicator; max(−∞, x) = x; and a sum that starts from the word zero is the sum.
-/
import proofs.«417795_j72791105733170_3_alg».proof.Proof.RefReadP
import proofs.«417795_j72791105733170_3_alg».proof.Proof.Spec
import Idealize.ShloMosaic.PureOps.Reduce
import Idealize.ShloMosaic.Lib.IdealHost

noncomputable section

namespace Cert.CQ.Ref

open Cert.ReferenceIdeal Cert.ReferenceIdeal.Gen Idealize.ShloMosaic Idealize.ShloMosaic.TcCoe Idealize.ShloMosaic.ValueIdx
open Cert.ReferenceIdeal.ReadP

/-- Two index functions of rank 2 or 3 agree when their coordinates do, and these do by unfolding. -/
macro "idx_rfl" : tactic => `(tactic| (funext a; apply Fin.ext; first
  | (match a with | ⟨0, _⟩ => rfl | ⟨1, _⟩ => rfl | ⟨2, _⟩ => rfl)
  | (match a with | ⟨0, _⟩ => rfl | ⟨1, _⟩ => rfl)))

/-- The convert of a signed comparison of two words is the indicator of the comparison. -/
theorem uitofp_cmpi_slt (a len : BitVec 32) :
    FloatOps.uitofp (F := Ideal) .f32 (IntOp.cmpi .slt a len) = if a.slt len then (1 : EReal) else 0 := by
  show (((IntOp.cmpi .slt a len).toNat : ℝ) : EReal) = _
  unfold IntOp.cmpi
  cases a.slt len <;> simp

/-- The maximum with −∞ on the left is the other operand. -/
theorem max_ninf (x : EReal) : max Cert.CQ.ninf x = x := by
  unfold Cert.CQ.ninf
  simp [Ideal.ofBits, Ideal.ieee]

section Stages

variable (x0 : (⟨S64x1024x128, .f32⟩ : BufTy).Contents (Elt Ideal))
  (x1 : (⟨S64x128x128, .f32⟩ : BufTy).Contents (Elt Ideal))
  (x2 x3 : (⟨S128x1, .f32⟩ : BufTy).Contents (Elt Ideal))
  (x4 : (⟨S1x1x128, .f32⟩ : BufTy).Contents (Elt Ideal))
  (x5 x6 : (⟨S64x1, .i32⟩ : BufTy).Contents (Elt Ideal))
  (b : Fin 64)

/-- The trilinear similarity. -/
theorem score_at (c : Fin 1024) (q : Fin 128) :
    val_main_v9 (F := Ideal) x0 x1 x2 x3 x4 (ix3 b c q) = Cert.CQ.score (Cert.CQ.batchOf x0 x1 x2 x3 x4 x5 x6 b) c q := by
  rw [val_main_v9_apply, val_main_v8_apply, val_main_v6_apply, val_main_v7_apply, val_main_v2_apply,
    val_main_v0_apply, val_main_v1_apply, val_main_v5_apply]
  simp only [val_main_v4_apply, val_main_v3_apply, Ideal.addf_def, Ideal.mulf_def]
  unfold Cert.CQ.score Cert.CQ.sCont Cert.CQ.sQues Cert.CQ.sFuse
  refine congrArg₂ (· + ·) (congrArg₂ (· + ·) (Finset.sum_congr rfl fun k _ => ?_) (Finset.sum_congr rfl fun k _ => ?_))
    (Finset.sum_congr rfl fun k _ => ?_)
  · exact congrArg₂ (· * ·) (congrArg x0 (by idx_rfl)) (congrArg x2 (by idx_rfl))
  · exact congrArg₂ (· * ·) (congrArg x3 (by idx_rfl)) (congrArg x1 (by idx_rfl))
  · exact congrArg₂ (· * ·) (congrArg₂ (· * ·) (congrArg x0 (by idx_rfl)) (congrArg x4 (by idx_rfl))) (congrArg x1 (by idx_rfl))

/-- The question-side mask. -/
theorem mask6_at (q : Fin 128) :
    val_main_v15 (F := Ideal) x6 (ix2 b q) = Cert.CQ.ind (x6 (ix2 b 0)) q.val := by
  rw [val_main_v15_apply, val_main_v14_apply, val_main_v12_apply, val_main_v11_apply, val_main_v10_apply, val_main_v13_apply,
    show idx_main_v13 (ix2 b q) = ix2 b 0 from by idx_rfl, uitofp_cmpi_slt]
  rfl

/-- The context-side mask. -/
theorem mask5_at (c : Fin 1024) :
    val_main_v21 (F := Ideal) x5 (ix2 b c) = Cert.CQ.ind (x5 (ix2 b 0)) c.val := by
  rw [val_main_v21_apply, val_main_v20_apply, val_main_v18_apply, val_main_v17_apply, val_main_v16_apply, val_main_v19_apply,
    show idx_main_v19 (ix2 b c) = ix2 b 0 from by idx_rfl, uitofp_cmpi_slt]
  rfl

/-- The masked logit of the question-axis softmax. -/
theorem rowLogit_at (c : Fin 1024) (q : Fin 128) :
    val_main_v28 (F := Ideal) x0 x1 x2 x3 x4 x6 (ix3 b c q) = Cert.CQ.rowLogit (Cert.CQ.batchOf x0 x1 x2 x3 x4 x5 x6 b) c q := by
  rw [val_main_v28_apply, val_main_v27_apply, val_main_v26_apply, val_main_v24_apply, val_main_v23_apply,
    val_main_v22_apply, val_main_cst_apply, val_main_v25_apply, val_main_cst_0_apply,
    show idx_main_v24 (idx_main_v27 (ix3 b c q)) = ix2 b q from by idx_rfl,
    mask6_at, score_at x0 x1 x2 x3 x4 x5 x6 b c q]
  rfl

/-- The maximum of a row of masked logits: the fold of max from −∞ over the question axis, and once more against −∞. -/
theorem rowMax_at (c : Fin 1024) :
    val_main_v31 (F := Ideal) x0 x1 x2 x3 x4 x6 (ix2 b c) = Cert.CQ.rowMax (Cert.CQ.batchOf x0 x1 x2 x3 x4 x5 x6 b) c := by
  rw [val_main_v31_apply, val_main_v30_apply, val_main_cst_2_apply]
  unfold val_main_v29
  rw [Host.reduce_eq_fold_single FloatOps.maximumf _ _ reducesTo_S64x1024x128_S64x1024_d2 (by decide) h_S_,
    val_main_cst_1_apply]
  show max Cert.CQ.ninf (Finset.fold max Cert.CQ.ninf _ (Finset.univ : Finset (Fin 128))) = _
  rw [max_ninf]
  unfold Cert.CQ.rowMax
  refine Finset.fold_congr (fun k _ => ?_)
  show val_main_v28 (F := Ideal) x0 x1 x2 x3 x4 x6 _ = _
  rw [show (Shape.Reduces.lift (s := S64x1024x128) (t := S64x1024) (a := 2) (by decide) (ix2 b c) k) = ix3 b c k from by idx_rfl]
  exact rowLogit_at x0 x1 x2 x3 x4 x5 x6 b c k

/-- The shifted exponential of the question-axis softmax. -/
theorem rowExp_at (c : Fin 1024) (q : Fin 128) :
    val_main_v35 (F := Ideal) x0 x1 x2 x3 x4 x6 (ix3 b c q) = Cert.CQ.rowExp (Cert.CQ.batchOf x0 x1 x2 x3 x4 x5 x6 b) c q := by
  rw [val_main_v35_apply, val_main_v34_apply, val_main_v33_apply, val_main_v32_apply,
    show idx_main_v32 (idx_main_v33 (ix3 b c q)) = ix2 b c from by idx_rfl,
    rowMax_at x0 x1 x2 x3 x4 x5 x6 b c, rowLogit_at x0 x1 x2 x3 x4 x5 x6 b c q]
  rfl

/-- The sum of a row's shifted exponentials (the reduction starts from zero). -/
theorem rowSum_at (c : Fin 1024) :
    val_main_v36 (F := Ideal) x0 x1 x2 x3 x4 x6 (ix2 b c) = Cert.CQ.rowSum (Cert.CQ.batchOf x0 x1 x2 x3 x4 x5 x6 b) c := by
  rw [val_main_v36_apply, val_main_cst_3_apply]
  show Ideal.ofBits .f32 0x00000000#32 + _ = _
  rw [Ideal.ofBits_zero_f32, zero_add]
  unfold Cert.CQ.rowSum
  refine Finset.sum_congr rfl fun k _ => ?_
  rw [show idx_main_v36 (ix2 b c) k = ix3 b c k from by idx_rfl]
  exact rowExp_at x0 x1 x2 x3 x4 x5 x6 b c k

/-- The question-axis softmax. -/
theorem sbar_at (c : Fin 1024) (q : Fin 128) :
    val_main_v39 (F := Ideal) x0 x1 x2 x3 x4 x6 (ix3 b c q) = Cert.CQ.sbar (Cert.CQ.batchOf x0 x1 x2 x3 x4 x5 x6 b) c q := by
  rw [val_main_v39_apply, val_main_v38_apply, val_main_v37_apply,
    show idx_main_v37 (idx_main_v38 (ix3 b c q)) = ix2 b c from by idx_rfl,
    rowSum_at x0 x1 x2 x3 x4 x5 x6 b c, rowExp_at x0 x1 x2 x3 x4 x5 x6 b c q]
  rfl

/-- The masked logit of the context-axis softmax. -/
theorem colLogit_at (c : Fin 1024) (q : Fin 128) :
    val_main_v46 (F := Ideal) x0 x1 x2 x3 x4 x5 (ix3 b c q) = Cert.CQ.colLogit (Cert.CQ.batchOf x0 x1 x2 x3 x4 x5 x6 b) c q := by
  rw [val_main_v46_apply, val_main_v45_apply, val_main_v44_apply, val_main_v42_apply, val_main_v41_apply,
    val_main_v40_apply, val_main_cst_4_apply, val_main_v43_apply, val_main_cst_5_apply,
    show idx_main_v42 (idx_main_v45 (ix3 b c q)) = ix2 b c from by idx_rfl,
    mask5_at, score_at x0 x1 x2 x3 x4 x5 x6 b c q]
  rfl

/-- The maximum of a column of masked logits. -/
theorem colMax_at (q : Fin 128) :
    val_main_v49 (F := Ideal) x0 x1 x2 x3 x4 x5 (ix2 b q) = Cert.CQ.colMax (Cert.CQ.batchOf x0 x1 x2 x3 x4 x5 x6 b) q := by
  rw [val_main_v49_apply, val_main_v48_apply, val_main_cst_7_apply]
  unfold val_main_v47
  rw [Host.reduce_eq_fold_single FloatOps.maximumf _ _ reducesTo_S64x1024x128_S64x128_d1 (by decide) h_S_,
    val_main_cst_6_apply]
  show max Cert.CQ.ninf (Finset.fold max Cert.CQ.ninf _ (Finset.univ : Finset (Fin 1024))) = _
  rw [max_ninf]
  unfold Cert.CQ.colMax
  refine Finset.fold_congr (fun k _ => ?_)
  show val_main_v46 (F := Ideal) x0 x1 x2 x3 x4 x5 _ = _
  rw [show (Shape.Reduces.lift (s := S64x1024x128) (t := S64x128) (a := 1) (by decide) (ix2 b q) k) = ix3 b k q from by idx_rfl]
  exact colLogit_at x0 x1 x2 x3 x4 x5 x6 b k q

/-- The shifted exponential of the context-axis softmax. -/
theorem colExp_at (c : Fin 1024) (q : Fin 128) :
    val_main_v53 (F := Ideal) x0 x1 x2 x3 x4 x5 (ix3 b c q) = Cert.CQ.colExp (Cert.CQ.batchOf x0 x1 x2 x3 x4 x5 x6 b) c q := by
  rw [val_main_v53_apply, val_main_v52_apply, val_main_v51_apply, val_main_v50_apply,
    show idx_main_v50 (idx_main_v51 (ix3 b c q)) = ix2 b q from by idx_rfl,
    colMax_at x0 x1 x2 x3 x4 x5 x6 b q, colLogit_at x0 x1 x2 x3 x4 x5 x6 b c q]
  rfl

/-- The sum of a column's shifted exponentials. -/
theorem colSum_at (q : Fin 128) :
    val_main_v54 (F := Ideal) x0 x1 x2 x3 x4 x5 (ix2 b q) = Cert.CQ.colSum (Cert.CQ.batchOf x0 x1 x2 x3 x4 x5 x6 b) q := by
  rw [val_main_v54_apply, val_main_cst_8_apply]
  show Ideal.ofBits .f32 0x00000000#32 + _ = _
  rw [Ideal.ofBits_zero_f32, zero_add]
  unfold Cert.CQ.colSum
  refine Finset.sum_congr rfl fun k _ => ?_
  rw [show idx_main_v54 (ix2 b q) k = ix3 b k q from by idx_rfl]
  exact colExp_at x0 x1 x2 x3 x4 x5 x6 b k q

/-- The context-axis softmax, transposed as the program returns it. -/
theorem st_at (q : Fin 128) (c : Fin 1024) :
    val_main_v58 (F := Ideal) x0 x1 x2 x3 x4 x5 (ix3 b q c) = Cert.CQ.st (Cert.CQ.batchOf x0 x1 x2 x3 x4 x5 x6 b) q c := by
  rw [val_main_v58_apply, show idx_main_v58 (ix3 b q c) = ix3 b c q from by idx_rfl,
    val_main_v57_apply, val_main_v56_apply, val_main_v55_apply,
    show idx_main_v55 (idx_main_v56 (ix3 b c q)) = ix2 b q from by idx_rfl,
    colSum_at x0 x1 x2 x3 x4 x5 x6 b q, colExp_at x0 x1 x2 x3 x4 x5 x6 b c q]
  rfl

end Stages

/-- Batch b of the reference's argument arrays in launch memory m on core c (arg0 x_cont, arg1 x_ques, arg2 W0, arg3 W1,
    arg4 W2, arg5 cont_len, arg6 ques_len). -/
def refBatch (m : (ℓ : Loc nD τ sig) → Buf (Elt Ideal) ℓ) (c : Dev nD) (b : Fin 64) : Cert.CQ.Batch :=
  Cert.CQ.batchOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b

/-- The reference's second result is the question-axis softmax of the specification. -/
theorem ref_sbar (m : (ℓ : Loc nD τ sig) → Buf (Elt Ideal) ℓ) (c : Dev nD) (b : Fin 64) (r : Fin 1024) (q : Fin 128) :
    (Cert.ReferenceIdeal.ValueP.res_out1 m c : S64x1024x128.Idx → EReal) (ix3 b r q)
      = Cert.CQ.sbar (refBatch m c b) r q := by
  show Cert.ReferenceIdeal.ValueP.res_main_v39 m c (ix3 b r q) = _
  rw [val_main_v39_eq]
  exact sbar_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b r q

/-- The reference's third result is the context-axis softmax of the specification, transposed. -/
theorem ref_st (m : (ℓ : Loc nD τ sig) → Buf (Elt Ideal) ℓ) (c : Dev nD) (b : Fin 64) (q : Fin 128) (r : Fin 1024) :
    (Cert.ReferenceIdeal.ValueP.res_out2 m c : S64x128x1024.Idx → EReal) (ix3 b q r)
      = Cert.CQ.st (refBatch m c b) q r := by
  show Cert.ReferenceIdeal.ValueP.res_main_v58 m c (ix3 b q r) = _
  rw [val_main_v58_eq]
  exact st_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b q r

end Cert.CQ.Ref

end
-- ==== Proof.RefResult.lean ====
/-
  The reference's result array, read at an index, is the specification's four column groups.

  The result is the join along the last axis of four [64, 1024, 128] arrays: x_cont, S_bar · x_ques,
  x_cont ⊙ (S_bar · x_ques) and x_cont ⊙ (S_bar · (x_contᵀ · S_T)ᵀ). Column 128·k + d of the join is column d
  of the k-th array; each contraction at an index is the sum over its one contracted coordinate of the
  products of its operands; and the two softmax arrays inside the result's term are the very terms of the
  second and third results, whose entries are the specification's sbar and st.
-/
import proofs.«417795_j72791105733170_3_alg».proof.Proof.RefSoftmax
import Idealize.ShloMosaic.Lib.Pipeline.Value
import Idealize.ShloMosaic.Lib.ValueIdx
import Idealize.ShloMosaic.PureOps.Ideal.Laws

noncomputable section

namespace Cert.CQ.Ref

open Cert.ReferenceIdeal Cert.ReferenceIdeal.Gen Idealize.ShloMosaic Idealize.ShloMosaic.TcCoe Idealize.ShloMosaic.ValueIdx
open Cert.ReferenceIdeal.ReadP Cert.ReferenceIdeal.ValueP

/-! ## The join of the four column groups, read at a column -/

/-- Four arrays of 128 columns joined along the last axis: column 128·k + d of the join is column d of array k. -/
theorem concat4_apply {α : Type} (x0 x1 x2 x3 : S64x1024x128.Idx → α)
    (h : Shape.Concatenates (([⟨S64x1024x128, x0⟩, ⟨S64x1024x128, x1⟩, ⟨S64x1024x128, x2⟩, ⟨S64x1024x128, x3⟩] :
      List ((s : Shape) × (s.Idx → α))).map (·.1)) S64x1024x512 2)
    (k : Nat) (hk : k < 4) (xk : S64x1024x128.Idx → α)
    (hxk : ([⟨S64x1024x128, x0⟩, ⟨S64x1024x128, x1⟩, ⟨S64x1024x128, x2⟩, ⟨S64x1024x128, x3⟩] :
      List ((s : Shape) × (s.Idx → α)))[k] = ⟨S64x1024x128, xk⟩)
    (b : Fin 64) (r : Fin 1024) (d : Fin 128) (col : Fin 512) (hcol : 128 * k + d.val = col.val) :
    concatenate S64x1024x512 2 [⟨S64x1024x128, x0⟩, ⟨S64x1024x128, x1⟩, ⟨S64x1024x128, x2⟩, ⟨S64x1024x128, x3⟩] h
      (ix3 b r col) = xk (ix3 b r d) := by
  refine concatenate_apply_piece (2 : Fin S64x1024x512.rank) _ h _ k hk S64x1024x128 xk hxk rfl (128 * k) ?_ (ix3 b r d) ?_ hcol
  · match k, hk with
    | 0, _ => rfl
    | 1, _ => rfl
    | 2, _ => rfl
    | 3, _ => rfl
  · intro a ha
    match a with
    | ⟨0, _⟩ => rfl
    | ⟨1, _⟩ => rfl
    | ⟨2, _⟩ => exact absurd rfl ha

/-! ## The operand indices of the three contractions, by coordinates -/

theorem lidx59 (b : Fin 64) (r : Fin 1024) (d k : Fin 128) : lidx_main_v59 (ix3 b r d) k = ix3 b r k :=
  funext fun a => Fin.ext (by match a with | ⟨0, _⟩ => rfl | ⟨1, _⟩ => rfl | ⟨2, _⟩ => rfl)
theorem ridx59 (b : Fin 64) (r : Fin 1024) (d k : Fin 128) : ridx_main_v59 (ix3 b r d) k = ix3 b k d :=
  funext fun a => Fin.ext (by match a with | ⟨0, _⟩ => rfl | ⟨1, _⟩ => rfl | ⟨2, _⟩ => rfl)
theorem lidx60 (b : Fin 64) (d q : Fin 128) (k : Fin 1024) : lidx_main_v60 (ix3 b d q) k = ix3 b k d :=
  funext fun a => Fin.ext (by match a with | ⟨0, _⟩ => rfl | ⟨1, _⟩ => rfl | ⟨2, _⟩ => rfl)
theorem ridx60 (b : Fin 64) (d q : Fin 128) (k : Fin 1024) : ridx_main_v60 (ix3 b d q) k = ix3 b q k :=
  funext fun a => Fin.ext (by match a with | ⟨0, _⟩ => rfl | ⟨1, _⟩ => rfl | ⟨2, _⟩ => rfl)
theorem lidx61 (b : Fin 64) (r : Fin 1024) (d k : Fin 128) : lidx_main_v61 (ix3 b r d) k = ix3 b r k :=
  funext fun a => Fin.ext (by match a with | ⟨0, _⟩ => rfl | ⟨1, _⟩ => rfl | ⟨2, _⟩ => rfl)
theorem ridx61 (b : Fin 64) (r : Fin 1024) (d k : Fin 128) : ridx_main_v61 (ix3 b r d) k = ix3 b d k :=
  funext fun a => Fin.ext (by match a with | ⟨0, _⟩ => rfl | ⟨1, _⟩ => rfl | ⟨2, _⟩ => rfl)

/-! ## The two softmax stages inside the result's term are the specification's -/

section
variable (m : (ℓ : Loc nD τ sig) → Buf (Elt Ideal) ℓ) (c : Dev nD) (b : Fin 64)

/-- The row softmax as the stage the contractions read. -/
theorem sbar_stage (r : Fin 1024) (q : Fin 128) :
    val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (ix3 b r q)
      = Cert.CQ.sbar (refBatch m c b) r q := by
  rw [← val_main_v39_eq m c]
  exact ref_sbar m c b r q

/-- The column softmax, transposed, as the stage the contraction reads. -/
theorem st_stage (q : Fin 128) (r : Fin 1024) :
    val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 b q r)
      = Cert.CQ.st (refBatch m c b) q r := by
  rw [← val_main_v58_eq m c]
  exact ref_st m c b q r

/-! ## The context-to-query and query-to-context products at an index -/

/-- S_bar · x_ques at (b, r, d) is the specification's context-to-query row. -/
theorem c2q_stage (r : Fin 1024) (d : Fin 128) :
    val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (ix3 b r d)
      = Cert.CQ.c2q (refBatch m c b) r d := by
  rw [val_main_v59_apply]
  simp only [lidx59, ridx59, sbar_stage]
  rfl

/-- x_contᵀ · S_T at (b, d, q) is the specification's mixed context column. -/
theorem ctxMix_stage (d q : Fin 128) :
    val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 b d q)
      = Cert.CQ.ctxMix (refBatch m c b) d q := by
  rw [val_main_v60_apply]
  simp only [lidx60, ridx60, st_stage]
  rfl

/-- S_bar · (x_contᵀ · S_T)ᵀ at (b, r, d) is the specification's query-to-context row. -/
theorem q2c_stage (r : Fin 1024) (d : Fin 128) :
    val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix3 b r d)
      = Cert.CQ.q2c (refBatch m c b) r d := by
  rw [val_main_v61_apply]
  simp only [lidx61, ridx61, sbar_stage, ctxMix_stage]
  rfl

/-! ## The four column groups of the result -/

theorem ref_res0 (r : Fin 1024) (d : Fin 128) :
    (res_out0 m c : S64x1024x512.Idx → EReal) (ix3 b r ⟨d.val, by omega⟩) = Cert.CQ.res0 (refBatch m c b) r d := by
  refine (congrFun (val_main_v64_eq m c) _).trans ?_
  unfold val_main_v64
  exact concat4_apply _ _ _ _ _ 0 (by decide) _ rfl b r d _ (by simp)

theorem ref_res1 (r : Fin 1024) (d : Fin 128) :
    (res_out0 m c : S64x1024x512.Idx → EReal) (ix3 b r ⟨128 + d.val, by omega⟩) = Cert.CQ.res1 (refBatch m c b) r d := by
  refine (congrFun (val_main_v64_eq m c) _).trans ?_
  unfold val_main_v64
  refine (concat4_apply _ _ _ _ _ 1 (by decide) _ rfl b r d _ (by simp)).trans ?_
  exact c2q_stage m c b r d

theorem ref_res2 (r : Fin 1024) (d : Fin 128) :
    (res_out0 m c : S64x1024x512.Idx → EReal) (ix3 b r ⟨256 + d.val, by omega⟩) = Cert.CQ.res2 (refBatch m c b) r d := by
  refine (congrFun (val_main_v64_eq m c) _).trans ?_
  unfold val_main_v64
  refine (concat4_apply _ _ _ _ _ 2 (by decide) _ rfl b r d _ (by simp)).trans ?_
  rw [val_main_v62_apply, c2q_stage]
  rfl

theorem ref_res3 (r : Fin 1024) (d : Fin 128) :
    (res_out0 m c : S64x1024x512.Idx → EReal) (ix3 b r ⟨384 + d.val, by omega⟩) = Cert.CQ.res3 (refBatch m c b) r d := by
  refine (congrFun (val_main_v64_eq m c) _).trans ?_
  unfold val_main_v64
  refine (concat4_apply _ _ _ _ _ 3 (by decide) _ rfl b r d _ (by simp)).trans ?_
  rw [val_main_v63_apply, q2c_stage]
  rfl

end

end Cert.CQ.Ref

end
-- ==== Proof.Finite.lean ====
/-
  From the precondition (every float argument array has all entries of absolute value below +∞)
  to the finiteness of every batch: an extended real whose absolute value lies strictly below +∞
  is a real number.
-/
import proofs.«417795_j72791105733170_3_alg».proof.Proof.Spec
import proofs.«417795_j72791105733170_3_alg».proof.Pre_finite_inputs
import Idealize.ShloMosaic.Lib.ReduceAll
import Idealize.ShloMosaic.PureOps.Ideal

noncomputable section

namespace Cert.CQ

open Idealize.ShloMosaic Idealize.ShloMosaic.ValueIdx Cert.Pre_finite_inputs

instance : Subsingleton S_.Idx := ⟨fun a b => funext fun d => d.elim0⟩

/-- An extended real with |x| < +∞ (as the one-bit word of the comparison) is a real. -/
theorem real_of_abs_lt_inf (x : Ideal .f32)
    (h : FloatOps.cmpf (F := Ideal) .olt (FloatOps.hostAbsf x) (FloatOps.ofBits .f32 0x7F800000#32) = 1#1) :
    ∃ r : ℝ, x = (r : EReal) := by
  change Ideal.cmp .olt (max x (-x)) (Ideal.ofBits .f32 0x7F800000#32) = 1#1 at h
  induction x using EReal.rec with
  | bot => simp [Ideal.ofBits, Ideal.ieee, Ideal.cmp] at h
  | coe r => exact ⟨r, rfl⟩
  | top => simp [Ideal.ofBits, Ideal.ieee, Ideal.cmp] at h

/-- One array: if the all-reduction of the mask |x| < +∞ is 1 then every entry is a real. -/
theorem all_real {s : Shape} {axes : List (Fin s.rank)} (x : FVec Ideal s .f32)
    (bc : S_.BroadcastsInDim s (![] : Fin 0 → Fin s.rank)) (rt : s.ReducesTo axes S_) (hu : 0 < S_.numel)
    (h : Host.reduce IntOp.andi (cmpf .olt (Host.absf x) (broadcastInDim s ![] bc (constant (F := Ideal) S_ .f32 0x7F800000#32)))
        (constantI S_ 1 1#1) rt hu ix0 = 1#1) (i : s.Idx) : ∃ r : ℝ, x i = (r : EReal) :=
  real_of_abs_lt_inf (x i) (Host.reduce_andi_all _ _ rt hu ix0 h i)

variable [Cert.Pre_finite_inputs.Facts]

theorem finite_of_pre (XC : FVec Ideal S64x1024x128 .f32) (XQ : FVec Ideal S64x128x128 .f32) (W0 W1 : FVec Ideal S128x1 .f32)
    (W2 : FVec Ideal S1x1x128 .f32) (CL QL : IVec S64x1 32)
    (h : Cert.Pre_finite_inputs.fn (F := Ideal) XC XQ W0 W1 W2 CL QL = (fun _ => 1#1)) (b : Fin 64) :
    (batchOf XC XQ W0 W1 W2 CL QL b).Finite := by
  have h0 := congrFun h ix0
  dsimp only [fn, fn_part1] at h0
  simp only [andi, IntOp.andi_eq_one] at h0
  obtain ⟨⟨⟨⟨h1, h2⟩, h3⟩, h4⟩, h5⟩ := h0
  refine ⟨fun c d => ?_, fun q d => ?_, fun d => ?_, fun d => ?_, fun d => ?_⟩
  · exact all_real XC _ _ _ h1 _
  · exact all_real XQ _ _ _ h2 _
  · exact all_real W0 _ _ _ h3 _
  · exact all_real W1 _ _ _ h4 _
  · exact all_real W2 _ _ _ h5 _

end Cert.CQ

end
-- ==== Proof.lean ====
/-
  The certificate: the Pallas context-query attention kernel against its jnp reference.

  Frames. The kernel's @main reshapes the two length arrays and runs one pipelined region over sixteen grid points;
  at each point the body runs to its end on the staged blocks, so every fair execution terminates, and the
  pipeline's account of an input array and of a buffer that bypasses the region gives the arguments back as
  launched — at the word-level values and at the extended reals alike. The reference is a straight line of host
  operations; its run gives its frame.
  Preservation. The ideal pass rewrote nothing: the idealized kernel is the kernel's own text read at the extended reals.
  Equivalence. Each of the kernel's three result arrays, read at batch row b, is the loop trip's arithmetic on batch
  row b of the arguments, and at the extended reals that is the specification of one batch (Spec.lean): the
  similarity scores up to the order of a three-term sum and of the factors of a product, the two masked
  softmaxes with p · (1 / l) for p / l — equal because l, a sum of exponentials one of which is exp 0, is not
  zero when the inputs are real numbers —, and the two attention products in the reference's own order of
  contraction. The reference's three results read at an index are the same specification of the same batch, the
  two memories agreeing on the arguments.
-/
import proofs.«417795_j72791105733170_3_alg».proof.Defs
import proofs.«417795_j72791105733170_3_alg».proof.Proof.Gen.Kernel
import proofs.«417795_j72791105733170_3_alg».proof.Proof.Gen.KernelIdeal
import proofs.«417795_j72791105733170_3_alg».proof.Proof.Gen.ReferenceIdeal
import proofs.«417795_j72791105733170_3_alg».proof.Proof.Gen.Pre_finite_inputs
import proofs.«417795_j72791105733170_3_alg».proof.Proof.K.Data
import proofs.«417795_j72791105733170_3_alg».proof.Proof.KI.Cover
import proofs.«417795_j72791105733170_3_alg».proof.Proof.KI.Values
import proofs.«417795_j72791105733170_3_alg».proof.Proof.RefSoftmax
import proofs.«417795_j72791105733170_3_alg».proof.Proof.RefResult
import proofs.«417795_j72791105733170_3_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2.2) (Cert.ReferenceIdeal.ValueP.run (F := Ideal) m ρ)

theorem preserves : Cert.preserves_Kernel_KernelIdeal := trivial

/-- A column of the 512-wide result lies in one of the four groups of 128. -/
theorem col_cases (s : Fin 512) :
    (∃ d : Fin 128, s = ⟨d.val, by omega⟩) ∨ (∃ d : Fin 128, s = ⟨128 + d.val, by omega⟩)
      ∨ (∃ d : Fin 128, s = ⟨256 + d.val, by omega⟩) ∨ (∃ d : Fin 128, s = ⟨384 + d.val, by omega⟩) := by
  have hs : s.val < 512 := s.isLt
  by_cases h1 : s.val < 128
  · exact .inl ⟨⟨s.val, h1⟩, Fin.ext rfl⟩
  by_cases h2 : s.val < 256
  · exact .inr (.inl ⟨⟨s.val - 128, by omega⟩, Fin.ext (by show s.val = 128 + (s.val - 128); omega)⟩)
  by_cases h3 : s.val < 384
  · exact .inr (.inr (.inl ⟨⟨s.val - 256, by omega⟩, Fin.ext (by show s.val = 256 + (s.val - 256); omega)⟩))
  · exact .inr (.inr (.inr ⟨⟨s.val - 384, by omega⟩, Fin.ext (by show s.val = 384 + (s.val - 384); omega)⟩))

theorem algebraic : Cert.algebraic_KernelIdeal_ReferenceIdeal := by
  intro m ρ m' ρ' hpre hagree
  refine ⟨fun c => Cert.KernelIdeal.Hand.resArr m c, fun c => Cert.KernelIdeal.Hand.sbarArr m c,
    fun c => Cert.KernelIdeal.Hand.stArr m c, Cert.KernelIdeal.Hand.run_values (F := Ideal) m ρ, ?_⟩
  -- the two programs see the same batches, and every batch is finite
  have hB : ∀ (c : Dev Cert.KernelIdeal.nD) (b : Fin 64), Cert.CQ.Ref.refBatch m' c b = Cert.KernelIdeal.Hand.kBatch m c b := fun c b => by
    unfold Cert.CQ.Ref.refBatch Cert.KernelIdeal.Hand.kBatch
    rw [(hagree c).1, (hagree c).2.1, (hagree c).2.2.1, (hagree c).2.2.2.1, (hagree c).2.2.2.2.1, (hagree c).2.2.2.2.2.1, (hagree c).2.2.2.2.2.2]
  have hF : ∀ (c : Dev Cert.KernelIdeal.nD) (b : Fin 64), (Cert.KernelIdeal.Hand.kBatch m c b).Finite := fun c b =>
    Cert.CQ.finite_of_pre _ _ _ _ _ _ _ (hpre c) b
  refine (θ_run Cert.ReferenceIdeal.defs _ _).mono (fun _ h c => ⟨(h c).1.trans ?_, (h c).2.1.trans ?_, (h c).2.2.1.trans ?_, (h c).2.2.2⟩)
    (Cert.ReferenceIdeal.ValueP.run (F := Ideal) m' ρ')
  · -- the result array, column group by column group
    funext i
    rw [eq_ix3 i]
    rcases col_cases (i 2) with ⟨d, hd⟩ | ⟨d, hd⟩ | ⟨d, hd⟩ | ⟨d, hd⟩ <;> rw [hd]
    · exact (Cert.CQ.Ref.ref_res0 m' c (i 0) (i 1) d).trans ((congrArg (fun B => Cert.CQ.res0 B (i 1) d) (hB c (i 0))).trans
        (Cert.KernelIdeal.Hand.resArr_apply0 m c (i 0) (i 1) d).symm)
    · exact (Cert.CQ.Ref.ref_res1 m' c (i 0) (i 1) d).trans ((congrArg (fun B => Cert.CQ.res1 B (i 1) d) (hB c (i 0))).trans
        (Cert.KernelIdeal.Hand.resArr_apply1 m c (i 0) (hF c (i 0)) (i 1) d).symm)
    · exact (Cert.CQ.Ref.ref_res2 m' c (i 0) (i 1) d).trans ((congrArg (fun B => Cert.CQ.res2 B (i 1) d) (hB c (i 0))).trans
        (Cert.KernelIdeal.Hand.resArr_apply2 m c (i 0) (hF c (i 0)) (i 1) d).symm)
    · exact (Cert.CQ.Ref.ref_res3 m' c (i 0) (i 1) d).trans ((congrArg (fun B => Cert.CQ.res3 B (i 1) d) (hB c (i 0))).trans
        (Cert.KernelIdeal.Hand.resArr_apply3 m c (i 0) (hF c (i 0)) (i 1) d).symm)
  · -- the softmax over the question axis
    funext i
    rw [eq_ix3 i]
    exact (Cert.CQ.Ref.ref_sbar m' c (i 0) (i 1) (i 2)).trans ((congrArg (fun B => Cert.CQ.sbar B (i 1) (i 2)) (hB c (i 0))).trans
      (Cert.KernelIdeal.Hand.sbarArr_apply m c (i 0) (hF c (i 0)) (i 1) (i 2)).symm)
  · -- the softmax over the context axis
    funext i
    rw [eq_ix3 i]
    exact (Cert.CQ.Ref.ref_st m' c (i 0) (i 1) (i 2)).trans ((congrArg (fun B => Cert.CQ.st B (i 1) (i 2)) (hB c (i 0))).trans
      (Cert.KernelIdeal.Hand.stArr_apply m c (i 0) (hF c (i 0)) (i 1) (i 2)).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
